-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S2x3200000 : Shape := ⟨2, ![2, 3200000]⟩
abbrev S100000 : Shape := ⟨1, ![100000]⟩
abbrev S64 : Shape := ⟨1, ![64]⟩
abbrev S300x64 : Shape := ⟨2, ![300, 64]⟩
abbrev S64x64 : Shape := ⟨2, ![64, 64]⟩
abbrev S64x20 : Shape := ⟨2, ![64, 20]⟩
abbrev S20 : Shape := ⟨1, ![20]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S300x64 : S_.BroadcastsInDim S300x64 (![] : Fin 0 → Fin S300x64.rank)
  reducesTo_S300x64_S_d0_1 : S300x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x20 : S_.BroadcastsInDim S64x20 (![] : Fin 0 → Fin S64x20.rank)
  reducesTo_S64x20_S_d0_1 : S64x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg7 : FVec F S64 .f32) (main_arg8 : FVec F S64x20 .f32) (main_arg9 : FVec F S20 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x20 .f32 := Host.absf main_arg8
  let main_cst_8 : FVec F S_ .f32 := constant S_ .f32 0x7F800000#32
  let main_v25 : FVec F S64x20 .f32 := broadcastInDim S64x20 ![] bcast_S_S64x20 main_cst_8
  let main_v26 : IVec S64x20 1 := cmpf .olt main_v24 main_v25
  let main_c_9 : IVec S_ 1 := constantI S_ 1 1#1
  let main_v27 : IVec S_ 1 := (fun x v => Host.reduce IntOp.andi x v reducesTo_S64x20_S_d0_1 h_S_) main_v26 main_c_9
  let main_v28 : IVec S_ 1 := andi main_v23 main_v27
  let main_v29 : FVec F S20 .f32 := Host.absf main_arg9
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  main_v33

def fn {F : FTy → Type} [FloatOps F] (main_arg0 : FVec F S100000x300 .f32) (main_arg1 : IVec S2x3200000 32) (main_arg2 : IVec S100000 32) (main_arg3 : IVec S64 32) (main_arg4 : FVec F S300x64 .f32) (main_arg5 : FVec F S64 .f32) (main_arg6 : FVec F S64x64 .f32) (main_arg7 : FVec F S64 .f32) (main_arg8 : FVec F S64x20 .f32) (main_arg9 : FVec F S20 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S300x64 .f32 := Host.absf main_arg4
  let main_cst_0 : FVec F S_ .f32 := constant S_ .f32 0x7F800000#32
  let main_v5 : FVec F S300x64 .f32 := broadcastInDim S300x64 ![] bcast_S_S300x64 main_cst_0
  let main_v6 : IVec S300x64 1 := cmpf .olt main_v4 main_v5
  let main_c_1 : IVec S_ 1 := constantI S_ 1 1#1
  let main_v7 : IVec S_ 1 := (fun x v => Host.reduce IntOp.andi x v reducesTo_S300x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_v13 main_v16
-- ==== Kernel.lean ====
abbrev S100000x300 : Shape := ⟨2, ![100000, 300]⟩
abbrev S2x3200000 : Shape := ⟨2, ![2, 3200000]⟩
abbrev S100000 : Shape := ⟨1, ![100000]⟩
abbrev S64 : Shape := ⟨1, ![64]⟩
abbrev S300x64 : Shape := ⟨2, ![300, 64]⟩
abbrev S64x64 : Shape := ⟨2, ![64, 64]⟩
abbrev S64x20 : Shape := ⟨2, ![64, 20]⟩
abbrev S20 : Shape := ⟨1, ![20]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x300 : Shape := ⟨2, ![5000, 300]⟩
abbrev S5000x64 : Shape := ⟨2, ![5000, 64]⟩
abbrev S3300000x64 : Shape := ⟨2, ![3300000, 64]⟩
abbrev S1x64 : Shape := ⟨2, ![1, 64]⟩
abbrev S100000x1 : Shape := ⟨2, ![100000, 1]⟩
abbrev S5000x1 : Shape := ⟨2, ![5000, 1]⟩
abbrev S64x1 : Shape := ⟨2, ![64, 1]⟩
abbrev S1x20 : Shape := ⟨2, ![1, 20]⟩

abbrev nBuf : Space → Nat
  | .hbm => 147
  | .vmem => 20
  | .smem => 0
  | _ => 0

abbrev hbmTy0_0 (i : Nat) : BufTy := match i % 128 with
  | 0 => ⟨S100000x300, .f32⟩
  | 1 => ⟨S2x3200000, .i32⟩
  | 2 => ⟨S100000, .i32⟩
  | 3 => ⟨S64, .i32⟩
  | 4 => ⟨S300x64, .f32⟩
  | 5 => ⟨S64, .f32⟩
  | 6 => ⟨S64x64, .f32⟩
  | 7 => ⟨S64, .f32⟩
  | 8 => ⟨S64x20, .f32⟩
  | 9 => ⟨S20, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S100000x64, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x64, .f32⟩
  | 83 => ⟨S3300000x1, .f32⟩
  | 84 => ⟨S3300000x64, .f32⟩
  | 85 => ⟨S3300000x64, .f32⟩
  | 86 => ⟨S_, .f32⟩
  | 87 => ⟨S100000x64, .f32⟩
  | 88 => ⟨S3300000x1, .i32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S100000, .i32⟩
  | 105 => ⟨S100000, .i32⟩
  | 106 => ⟨S100000, .i1⟩
  | 107 => ⟨S100000, .f32⟩
  | 108 => ⟨S100000x1, .i32⟩
  | 109 => ⟨S100000x1, .f32⟩
  | 110 => ⟨S64x64, .f32⟩
  | 111 => ⟨S64x64, .f32⟩
  | 112 => ⟨S1x64, .f32⟩
  | 113 => ⟨S1x64, .f32⟩
  | 114 => ⟨S64x1, .f32⟩
  | 115 => ⟨S64x1, .f32⟩
  | 116 => ⟨S_, .f32⟩
  | 117 => ⟨S64x1, .f32⟩
  | 118 => ⟨S64x1, .f32⟩
  | 119 => ⟨S64x64, .f32⟩
  | 120 => ⟨S64x64, .f32⟩
  | 121 => ⟨S64x64, .f32⟩
  | 122 => ⟨S64x64, .f32⟩
  | 123 => ⟨S_, .f32⟩
  | 124 => ⟨S64x1, .f32⟩
  | 125 => ⟨S64x1, .i1⟩
  | 126 => ⟨S64x64, .i1⟩
  | 127 => ⟨S64x64, .f32⟩
  | _ => ⟨S100000x300, .f32⟩

abbrev hbmTy0_1 (i : Nat) : BufTy := match i % 128 with
  | 0 => ⟨S64x20, .f32⟩
  | 1 => ⟨S1x20, .f32⟩
  | 2 => ⟨S64x20, .f32⟩
  | 3 => ⟨S64x20, .f32⟩
  | 4 => ⟨S_, .f32⟩
  | 5 => ⟨S64, .f32⟩
  | 6 => ⟨S_, .f32⟩
  | 7 => ⟨S64, .f32⟩
  | 8 => ⟨S64, .f32⟩
  | 9 => ⟨S64x1, .f32⟩
  | 10 => ⟨S64x20, .f32⟩
  | 11 => ⟨S64x20, .f32⟩
  | 12 => ⟨S64x20, .f32⟩
  | 13 => ⟨S_, .f32⟩
  | 14 => ⟨S64, .f32⟩
  | 15 => ⟨S64x1, .f32⟩
  | 16 => ⟨S64x1, .f32⟩
  | 17 => ⟨S64x20, .f32⟩
  | 18 => ⟨S64x20, .f32⟩
  | _ => ⟨S100000x300, .f32⟩

abbrev hbmTy (i : Nat) : BufTy := match i / 128 with
  | 0 => hbmTy0_0 i
  | 1 => hbmTy0_1 i
  | _ => ⟨S100000x300, .f32⟩

abbrev bufTy : (tb : Table) → Fin (tcTables nBuf tb) → BufTy
  | .hbm, ⟨i, _⟩ => hbmTy i
  | .local _ .vmem, ⟨0, _⟩ => ⟨S5000x300, .f32⟩
  | .local _ .vmem, ⟨1, _⟩ => ⟨S5000x300, .f32⟩
  | .local _ .vmem, ⟨2, _⟩ => ⟨S300x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .i32⟩
  | .local _ .vmem, ⟨13, _⟩ => ⟨S5000x1, .i32⟩
  | .local _ .vmem, ⟨14, _⟩ => ⟨S5000x1, .f32⟩
  | .local _ .vmem, ⟨15, _⟩ => ⟨S5000x1, .f32⟩
  | .local _ .vmem, ⟨16, _⟩ => ⟨S64x64, .f32⟩
  | .local _ .vmem, ⟨17, _⟩ => ⟨S64x64, .f32⟩
  | .local _ .vmem, ⟨18, _⟩ => ⟨S1x64, .f32⟩
  | .local _ .vmem, ⟨19, _⟩ => ⟨S1x64, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78_0 : Ref sig .tc := ⟨.hbm, 110, rfl⟩
abbrev main_v78_1 : Ref sig .tc := ⟨.hbm, 111, rfl⟩
abbrev main_v78_2 : Ref sig .tc := ⟨.hbm, 112, rfl⟩
abbrev main_v78_3 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_15 : Ref sig .tc := ⟨.hbm, 123, rfl⟩
abbrev main_v87 : Ref sig .tc := ⟨.hbm, 124, rfl⟩
abbrev main_v88 : Ref sig .tc := ⟨.hbm, 125, rfl⟩
abbrev main_call3_v0 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_call4_cst : Ref sig .tc := ⟨.hbm, 132, rfl⟩
abbrev main_call4_v0 : Ref sig .tc := ⟨.hbm, 133, rfl⟩
abbrev main_call4_cst_0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_v6 : Ref sig .tc := ⟨.hbm, 140, rfl⟩
abbrev main_call4_cst_1 : Ref sig .tc := ⟨.hbm, 141, rfl⟩
abbrev main_call4_v7 : Ref sig .tc := ⟨.hbm, 142, rfl⟩
abbrev main_call4_v8 : Ref sig .tc := ⟨.hbm, 143, rfl⟩
abbrev main_call4_v9 : Ref sig .tc := ⟨.hbm, 144, rfl⟩
abbrev main_call4_v10 : Ref sig .tc := ⟨.hbm, 145, rfl⟩
abbrev main_v94 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x300_S5000x300_0_0 : ∀ a, (![0, 0] : Fin 2 → Nat) a + S5000x300.size a ≤ S5000x300.size a
  h_S5000x300 : 0 < S5000x300.numel
  bitsLt_bf16_f32 : FTy.bits .bf16 < FTy.bits .f32
  inb_S300x64_S300x64_0_0 : ∀ a, (![0, 0] : Fin 2 → Nat) a + S300x64.size a ≤ S300x64.size a
  h_S300x64 : 0 < S300x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S100000_S100000x1_0 : S100000.BroadcastsInDim S100000x1 (![0] : Fin 1 → Fin S100000x1.rank)
  shapeCasts_S100000_S100000x1 : S100000.ShapeCasts S100000x1
  inb_S1x64_S1x64_0_0 : ∀ a, (![0, 0] : Fin 2 → Nat) a + S1x64.size a ≤ S1x64.size a
  h_S1x64 : 0 < S1x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  shapeCasts_S64x64_S64x64 : S64x64.ShapeCasts S64x64
  shapeCasts_S1x64_S1x64 : S1x64.ShapeCasts S1x64
  reduces_S5000x64_S64 : S5000x64.Reduces [0] S64
  shapeCasts_S64_S1x64 : S64.ShapeCasts S1x64
  shapeCasts_S1x64_S64x1 : S1x64.ShapeCasts S64x1
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S20_S1x20_1 : S20.BroadcastsInDim S1x20 (![1] : Fin 1 → Fin S1x20.rank)
  bcast_S1x20_S64x20_0_1 : S1x20.BroadcastsInDim S64x20 (![0, 1] : Fin 2 → Fin S64x20.rank)
  reducesTo_S64x20_S64_d1 : S64x20.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x20_0_1 : S64x1.BroadcastsInDim S64x20 (![0, 1] : Fin 2 → Fin S64x20.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x300_S300x64_S5000x64_1_0_0_1_n_n_wf : DotDims.WF S5000x300 S300x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  gather_S64_S100000x1_S100000_n_0_n_n_0_1_1_wf : GatherDims.WF S64 S100000x1 S100000 [] [0] [] [0] [] 1 ![1]
  dot_S5000x64_S5000x64_S64x64_0_0_1_1_n_n_wf : DotDims.WF S5000x64 S5000x64 S64x64 [0] [0] [1] [1] [] []
  dot_S64x64_S64x20_S64x20_1_0_0_1_n_n_wf : DotDims.WF S64x64 S64x20 S64x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S100000x300.size a
  hwx0_0 : ∀ i : grid0.Coords, EltTy.bits .f32 = 32 ∨ (Rect.block (s := S100000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x64.size a ≤ S300x64.size a
  hwx0_1 : ∀ i : grid0.Coords, EltTy.bits .f32 = 32 ∨ (Rect.block (s := S300x64) S300x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x300_S300x64_S5000x64_1_0_0_1_n_n : DotDims S5000x300 S300x64 S5000x64 where
  lhsContracting := [1]
  rhsContracting := [0]
  lhsNonContracting := [0]
  rhsNonContracting := [1]
  lhsBatch := []
  rhsBatch := []
  wf := dot_S5000x300_S300x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S64_S100000x1_S100000_n_0_n_n_0_1_1 : GatherDims S64 S100000x1 S100000 where
  offsetDims := []
  collapsedSliceDims := [0]
  operandBatchingDims := []
  startIndicesBatchingDims := []
  startIndexMap := [0]
  indexVectorDim := 1
  sliceSizes := ![1]
  wf := gather_S64_S100000x1_S100000_n_0_n_n_0_1_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x20_S64x20_1_0_0_1_n_n : DotDims S64x64 S64x20 S64x20 where
  lhsContracting := [1]
  rhsContracting := [0]
  lhsNonContracting := [0]
  rhsNonContracting := [1]
  lhsBatch := []
  rhsBatch := []
  wf := dot_S64x64_S64x20_S64x20_1_0_0_1_n_n_wf

abbrev win0_0 : Pipeline.Window sig grid0 :=
  Pipeline.Window.ofSpec (Memref.whole main_arg0) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S300x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v78_0) S64x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78_1) S64x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78_2) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78_3) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x300 : Shape := ⟨2, ![100000, 300]⟩
abbrev S2x3200000 : Shape := ⟨2, ![2, 3200000]⟩
abbrev S100000 : Shape := ⟨1, ![100000]⟩
abbrev S64 : Shape := ⟨1, ![64]⟩
abbrev S300x64 : Shape := ⟨2, ![300, 64]⟩
abbrev S64x64 : Shape := ⟨2, ![64, 64]⟩
abbrev S64x20 : Shape := ⟨2, ![64, 20]⟩
abbrev S20 : Shape := ⟨1, ![20]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S64x1 : Shape := ⟨2, ![64, 1]⟩
abbrev S1x20 : Shape := ⟨2, ![1, 20]⟩

abbrev nBuf : Space → Nat
  | .hbm => 160
  | .vmem => 0
  | .smem => 0
  | _ => 0

abbrev hbmTy0_0 (i : Nat) : BufTy := match i % 128 with
  | 0 => ⟨S100000x300, .f32⟩
  | 1 => ⟨S2x3200000, .i32⟩
  | 2 => ⟨S100000, .i32⟩
  | 3 => ⟨S64, .i32⟩
  | 4 => ⟨S300x64, .f32⟩
  | 5 => ⟨S64, .f32⟩
  | 6 => ⟨S64x64, .f32⟩
  | 7 => ⟨S64, .f32⟩
  | 8 => ⟨S64x20, .f32⟩
  | 9 => ⟨S20, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S100000x64, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x64, .f32⟩
  | 83 => ⟨S3300000x1, .f32⟩
  | 84 => ⟨S3300000x64, .f32⟩
  | 85 => ⟨S3300000x64, .f32⟩
  | 86 => ⟨S_, .f32⟩
  | 87 => ⟨S100000x64, .f32⟩
  | 88 => ⟨S3300000x1, .i32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000, .i32⟩
  | 106 => ⟨S100000, .i1⟩
  | 107 => ⟨S100000, .f32⟩
  | 108 => ⟨S100000x1, .f32⟩
  | 109 => ⟨S100000x64, .f32⟩
  | 110 => ⟨S100000x64, .f32⟩
  | 111 => ⟨S_, .f32⟩
  | 112 => ⟨S64x64, .f32⟩
  | 113 => ⟨S100000x1, .i32⟩
  | 114 => ⟨S64x64, .f32⟩
  | 115 => ⟨S_, .f32⟩
  | 116 => ⟨S64x1, .f32⟩
  | 117 => ⟨S100000x1, .i32⟩
  | 118 => ⟨S64x1, .f32⟩
  | 119 => ⟨S_, .f32⟩
  | 120 => ⟨S64x1, .f32⟩
  | 121 => ⟨S64x1, .f32⟩
  | 122 => ⟨S64x64, .f32⟩
  | 123 => ⟨S64x64, .f32⟩
  | 124 => ⟨S_, .f32⟩
  | 125 => ⟨S64x64, .f32⟩
  | 126 => ⟨S100000x1, .i32⟩
  | 127 => ⟨S64x64, .f32⟩
  | _ => ⟨S100000x300, .f32⟩

abbrev hbmTy0_1 (i : Nat) : BufTy := match i % 128 with
  | 0 => ⟨S_, .f32⟩
  | 1 => ⟨S100000x1, .f32⟩
  | 2 => ⟨S_, .f32⟩
  | 3 => ⟨S64x1, .f32⟩
  | 4 => ⟨S100000x1, .i32⟩
  | 5 => ⟨S64x1, .f32⟩
  | 6 => ⟨S64x64, .f32⟩
  | 7 => ⟨S64x64, .f32⟩
  | 8 => ⟨S_, .f32⟩
  | 9 => ⟨S64x1, .f32⟩
  | 10 => ⟨S64x1, .i1⟩
  | 11 => ⟨S64x64, .i1⟩
  | 12 => ⟨S64x64, .f32⟩
  | 13 => ⟨S64x20, .f32⟩
  | 14 => ⟨S1x20, .f32⟩
  | 15 => ⟨S64x20, .f32⟩
  | 16 => ⟨S64x20, .f32⟩
  | 17 => ⟨S_, .f32⟩
  | 18 => ⟨S64, .f32⟩
  | 19 => ⟨S_, .f32⟩
  | 20 => ⟨S64, .f32⟩
  | 21 => ⟨S64, .f32⟩
  | 22 => ⟨S64x1, .f32⟩
  | 23 => ⟨S64x20, .f32⟩
  | 24 => ⟨S64x20, .f32⟩
  | 25 => ⟨S64x20, .f32⟩
  | 26 => ⟨S_, .f32⟩
  | 27 => ⟨S64, .f32⟩
  | 28 => ⟨S64x1, .f32⟩
  | 29 => ⟨S64x1, .f32⟩
  | 30 => ⟨S64x20, .f32⟩
  | 31 => ⟨S64x20, .f32⟩
  | _ => ⟨S100000x300, .f32⟩

abbrev hbmTy (i : Nat) : BufTy := match i / 128 with
  | 0 => hbmTy0_0 i
  | 1 => hbmTy0_1 i
  | _ => ⟨S100000x300, .f32⟩

abbrev bufTy : (tb : Table) → Fin (tcTables nBuf tb) → BufTy
  | .hbm, ⟨i, _⟩ => hbmTy i
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_14 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_cst_19 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_call3_v0 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call4_cst : Ref sig .tc := ⟨.hbm, 145, rfl⟩
abbrev main_call4_v0 : Ref sig .tc := ⟨.hbm, 146, rfl⟩
abbrev main_call4_cst_0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_cst_1 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_v105 : Ref sig .tc := ⟨.hbm, 159, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S64x64 : S_.BroadcastsInDim S64x64 (![] : Fin 0 → Fin S64x64.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S_S100000x1 : S_.BroadcastsInDim S100000x1 (![] : Fin 0 → Fin S100000x1.rank)
  bcast_S20_S1x20_1 : S20.BroadcastsInDim S1x20 (![1] : Fin 1 → Fin S1x20.rank)
  bcast_S1x20_S64x20_0_1 : S1x20.BroadcastsInDim S64x20 (![0, 1] : Fin 2 → Fin S64x20.rank)
  reducesTo_S64x20_S64_d1 : S64x20.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x20_0_1 : S64x1.BroadcastsInDim S64x20 (![0, 1] : Fin 2 → Fin S64x20.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x300_S300x64_S100000x64_1_0_0_1_n_n_wf : DotDims.WF S100000x300 S300x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  gather_S64_S100000x1_S100000_n_0_n_n_0_1_1_wf : GatherDims.WF S64 S100000x1 S100000 [] [0] [] [0] [] 1 ![1]
  scatter_S64x64_S100000x1_S100000x64_1_0_0_1_wf : ScatterDims.WF S64x64 S100000x1 S100000x64 [1] [0] [0] 1
  scatter_S64x1_S100000x1_S100000x1_1_0_0_1_wf : ScatterDims.WF S64x1 S100000x1 S100000x1 [1] [0] [0] 1
  dot_S64x64_S64x20_S64x20_1_0_0_1_n_n_wf : DotDims.WF S64x64 S64x20 S64x20 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x300_S300x64_S100000x64_1_0_0_1_n_n : DotDims S100000x300 S300x64 S100000x64 where
  lhsContracting := [1]
  rhsContracting := [0]
  lhsNonContracting := [0]
  rhsNonContracting := [1]
  lhsBatch := []
  rhsBatch := []
  wf := dot_S100000x300_S300x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S64_S100000x1_S100000_n_0_n_n_0_1_1 : GatherDims S64 S100000x1 S100000 where
  offsetDims := []
  collapsedSliceDims := [0]
  operandBatchingDims := []
  startIndicesBatchingDims := []
  startIndexMap := [0]
  indexVectorDim := 1
  sliceSizes := ![1]
  wf := gather_S64_S100000x1_S100000_n_0_n_n_0_1_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x64_S64x20_S64x20_1_0_0_1_n_n : DotDims S64x64 S64x20 S64x20 where
  lhsContracting := [1]
  rhsContracting := [0]
  lhsNonContracting := [0]
  rhsNonContracting := [1]
  lhsBatch := []
  rhsBatch := []
  wf := dot_S64x64_S64x20_S64x20_1_0_0_1_n_n_wf

class Facts : Prop extends Facts₀ where

variable [Facts]
-- ==== Proof.StageA.lean ====
import proofs.«430206_j86543591015294_1_alg».proof.Proof.Gen.KernelIdeal.Launch
import proofs.«430206_j86543591015294_1_alg».proof.Proof.RefRead
import Idealize.ShloMosaic.Lib.StableHlo.Run
import Idealize.ShloMosaic.Lib.ValueIdx

/-! The host operations before the first matrix product: the edge list with self-loops appended (sources and targets),
    and the symmetric normalisation weight of every edge, as functions of the edge array alone. -/
set_option maxHeartbeats 4000000

noncomputable section

namespace Cert.Bridge

open Idealize.ShloMosaic Idealize.ShloMosaic.StableHlo Idealize.ShloMosaic.ValueIdx

variable {F : FTy → Type} [FloatOps F]

theorem stageA (VK : Valuation Cert.KernelIdeal.τ Cert.KernelIdeal.sig (Elt F)) (x1 : (⟨Cert.ReferenceIdeal.S2x3200000, .i32⟩ : BufTy).Contents (Elt F))
    (h1 : VK (Proc.devRef .tc Cert.KernelIdeal.main_arg1) = x1) :
    (after Cert.KernelIdeal.Gen.hostOps0_2 (after Cert.KernelIdeal.Gen.hostOps0_1 (after Cert.KernelIdeal.Gen.hostOps0 VK))) (Proc.devRef .tc Cert.KernelIdeal.main_v3) = Cert.ReferenceIdeal.ReadP.val_main_v3 x1
    ∧ (after Cert.KernelIdeal.Gen.hostOps0_2 (after Cert.KernelIdeal.Gen.hostOps0_1 (after Cert.KernelIdeal.Gen.hostOps0 VK))) (Proc.devRef .tc Cert.KernelIdeal.main_v6) = Cert.ReferenceIdeal.ReadP.val_main_v6 x1
    ∧ (after Cert.KernelIdeal.Gen.hostOps0_2 (after Cert.KernelIdeal.Gen.hostOps0_1 (after Cert.KernelIdeal.Gen.hostOps0 VK))) (Proc.devRef .tc Cert.KernelIdeal.main_v29) = Cert.ReferenceIdeal.ReadP.val_main_v29 x1 := by
  have A1 : (after Cert.KernelIdeal.Gen.hostOps0 VK) (Proc.devRef .tc Cert.KernelIdeal.main_v3) = Cert.ReferenceIdeal.ReadP.val_main_v3 x1
      ∧ (after Cert.KernelIdeal.Gen.hostOps0 VK) (Proc.devRef .tc Cert.KernelIdeal.main_v6) = Cert.ReferenceIdeal.ReadP.val_main_v6 x1
      ∧ (after Cert.KernelIdeal.Gen.hostOps0 VK) (Proc.devRef .tc Cert.KernelIdeal.main_v12) = Cert.ReferenceIdeal.ReadP.val_main_v12 x1
      ∧ (after Cert.KernelIdeal.Gen.hostOps0 VK) (Proc.devRef .tc Cert.KernelIdeal.main_v13) = Cert.ReferenceIdeal.ReadP.val_main_v13 x1
      ∧ (after Cert.KernelIdeal.Gen.hostOps0 VK) (Proc.devRef .tc Cert.KernelIdeal.main_cst_2) = Cert.ReferenceIdeal.ReadP.val_main_cst_2 := by
    refine ⟨?_, ?_, ?_, ?_, ?_⟩
    · after_results
      rw [h1]
      simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2]
      first | rfl | (simp only [TRef.ofBuf, TRef.toBuf, cast_eq]; rfl)
    · after_results
      rw [h1]
      simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2]
      first | rfl | (simp only [TRef.ofBuf, TRef.toBuf, cast_eq]; rfl)
    · after_results
      rw [h1]
      simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2]
      first | rfl | (simp only [TRef.ofBuf, TRef.toBuf, cast_eq]; rfl)
    · after_results
      rw [h1]
      simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2]
      first | rfl | (simp only [TRef.ofBuf, TRef.toBuf, cast_eq]; rfl)
    · after_results
      simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2]
  obtain ⟨a3, a6, a12, a13, ac2⟩ := A1
  generalize (after Cert.KernelIdeal.Gen.hostOps0 VK) = W at a3 a6 a12 a13 ac2 ⊢
  after_results_simp
  rw [a3, a6, a12, a13, ac2]
  refine ⟨rfl, rfl, ?_⟩
  simp only [Cert.ReferenceIdeal.ReadP.val_main_call0_v0, Cert.ReferenceIdeal.ReadP.val_main_call0_v1, Cert.ReferenceIdeal.ReadP.val_main_v14, Cert.ReferenceIdeal.ReadP.val_main_c, Cert.ReferenceIdeal.ReadP.val_main_v15, Cert.ReferenceIdeal.ReadP.val_main_v16, Cert.ReferenceIdeal.ReadP.val_main_c_3, Cert.ReferenceIdeal.ReadP.val_main_v17, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_c_4, Cert.ReferenceIdeal.ReadP.val_main_v22, Cert.ReferenceIdeal.ReadP.val_main_v23, Cert.ReferenceIdeal.ReadP.val_main_c_5, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29]
  first | rfl | (simp only [TRef.ofBuf, TRef.toBuf, cast_eq]; rfl)

end Cert.Bridge

end
-- ==== Proof.StageC.lean ====
import proofs.«430206_j86543591015294_1_alg».proof.Proof.Gen.KernelIdeal.Launch
import proofs.«430206_j86543591015294_1_alg».proof.Proof.RefRead
import Idealize.ShloMosaic.Lib.StableHlo.Run
import Idealize.ShloMosaic.Lib.ValueIdx

/-! The first graph-convolution layer after its matrix product: rows gathered along the edges, scaled by the edge
    weights, summed into their target rows, the bias added, and the rectifier. -/

noncomputable section

namespace Cert.Bridge

open Idealize.ShloMosaic Idealize.ShloMosaic.StableHlo Idealize.ShloMosaic.ValueIdx

variable {F : FTy → Type} [FloatOps F]

theorem stageC (VK : Valuation Cert.KernelIdeal.τ Cert.KernelIdeal.sig (Elt F)) (x0 : (⟨Cert.ReferenceIdeal.S100000x300, .f32⟩ : BufTy).Contents (Elt F)) (x1 : (⟨Cert.ReferenceIdeal.S2x3200000, .i32⟩ : BufTy).Contents (Elt F)) (x4 : (⟨Cert.ReferenceIdeal.S300x64, .f32⟩ : BufTy).Contents (Elt F)) (x5 : (⟨Cert.ReferenceIdeal.S64, .f32⟩ : BufTy).Contents (Elt F))
    (h30 : VK (Proc.devRef .tc Cert.KernelIdeal.main_v30) = Cert.ReferenceIdeal.ReadP.val_main_v30 x0 x4)
    (h3 : VK (Proc.devRef .tc Cert.KernelIdeal.main_v3) = Cert.ReferenceIdeal.ReadP.val_main_v3 x1)
    (h6 : VK (Proc.devRef .tc Cert.KernelIdeal.main_v6) = Cert.ReferenceIdeal.ReadP.val_main_v6 x1)
    (h29 : VK (Proc.devRef .tc Cert.KernelIdeal.main_v29) = Cert.ReferenceIdeal.ReadP.val_main_v29 x1)
    (h5 : VK (Proc.devRef .tc Cert.KernelIdeal.main_arg5) = x5) :
    (after Cert.KernelIdeal.Gen.hostOps1_1 (after Cert.KernelIdeal.Gen.hostOps1 VK)) (Proc.devRef .tc Cert.KernelIdeal.main_v47) = Cert.ReferenceIdeal.ReadP.val_main_v47 x0 x1 x4 x5 := by
  after_results_simp
  rw [h30, h3, h6, h29, h5]
  simp only [Cert.ReferenceIdeal.ReadP.val_main_v47, Cert.ReferenceIdeal.ReadP.val_main_call1_v0, Cert.ReferenceIdeal.ReadP.val_main_call1_cst, Cert.ReferenceIdeal.ReadP.val_main_v46, Cert.ReferenceIdeal.ReadP.val_main_v45, Cert.ReferenceIdeal.ReadP.val_main_v44, Cert.ReferenceIdeal.ReadP.val_main_v43, Cert.ReferenceIdeal.ReadP.val_main_v42, Cert.ReferenceIdeal.ReadP.val_main_v41, Cert.ReferenceIdeal.ReadP.val_main_cst_8, Cert.ReferenceIdeal.ReadP.val_main_v40, Cert.ReferenceIdeal.ReadP.val_main_v39, Cert.ReferenceIdeal.ReadP.val_main_v38, Cert.ReferenceIdeal.ReadP.val_main_v37, Cert.ReferenceIdeal.ReadP.val_main_v36, Cert.ReferenceIdeal.ReadP.val_main_v35, Cert.ReferenceIdeal.ReadP.val_main_v34, Cert.ReferenceIdeal.ReadP.val_main_v33, Cert.ReferenceIdeal.ReadP.val_main_c_7, Cert.ReferenceIdeal.ReadP.val_main_v32, Cert.ReferenceIdeal.ReadP.val_main_v31, Cert.ReferenceIdeal.ReadP.val_main_c_6]
  first | rfl | (simp only [TRef.ofBuf, TRef.toBuf, cast_eq]; rfl)

end Cert.Bridge

end
-- ==== Proof.StageE.lean ====
import proofs.«430206_j86543591015294_1_alg».proof.Proof.Gen.KernelIdeal.Launch
import proofs.«430206_j86543591015294_1_alg».proof.Proof.RefRead
import Idealize.ShloMosaic.Lib.StableHlo.Run
import Idealize.ShloMosaic.Lib.ValueIdx
import Idealize.ShloMosaic.Lib.Pipeline.Value

/-! The second graph-convolution layer after its matrix product, and the operands of the pooling: the graph id of
    every node as a column, and the entity mask (node position below its graph's entity count) as a column. -/

noncomputable section

namespace Cert.Bridge

open Idealize.ShloMosaic Idealize.ShloMosaic.StableHlo Idealize.ShloMosaic.ValueIdx

variable {F : FTy → Type} [FloatOps F]

theorem stageE (VK : Valuation Cert.KernelIdeal.τ Cert.KernelIdeal.sig (Elt F)) (x0 : (⟨Cert.ReferenceIdeal.S100000x300, .f32⟩ : BufTy).Contents (Elt F)) (x1 : (⟨Cert.ReferenceIdeal.S2x3200000, .i32⟩ : BufTy).Contents (Elt F)) (x2 : (⟨Cert.ReferenceIdeal.S100000, .i32⟩ : BufTy).Contents (Elt F)) (x3 : (⟨Cert.ReferenceIdeal.S64, .i32⟩ : BufTy).Contents (Elt F)) (x4 : (⟨Cert.ReferenceIdeal.S300x64, .f32⟩ : BufTy).Contents (Elt F)) (x5 : (⟨Cert.ReferenceIdeal.S64, .f32⟩ : BufTy).Contents (Elt F)) (x6 : (⟨Cert.ReferenceIdeal.S64x64, .f32⟩ : BufTy).Contents (Elt F)) (x7 : (⟨Cert.ReferenceIdeal.S64, .f32⟩ : BufTy).Contents (Elt F))
    (h48 : VK (Proc.devRef .tc Cert.KernelIdeal.main_v48) = Cert.ReferenceIdeal.ReadP.val_main_v48 x0 x1 x4 x5 x6)
    (h3 : VK (Proc.devRef .tc Cert.KernelIdeal.main_v3) = Cert.ReferenceIdeal.ReadP.val_main_v3 x1)
    (h6 : VK (Proc.devRef .tc Cert.KernelIdeal.main_v6) = Cert.ReferenceIdeal.ReadP.val_main_v6 x1)
    (h29 : VK (Proc.devRef .tc Cert.KernelIdeal.main_v29) = Cert.ReferenceIdeal.ReadP.val_main_v29 x1)
    (h7 : VK (Proc.devRef .tc Cert.KernelIdeal.main_arg7) = x7)
    (h2 : VK (Proc.devRef .tc Cert.KernelIdeal.main_arg2) = x2)
    (h3' : VK (Proc.devRef .tc Cert.KernelIdeal.main_arg3) = x3) :
    (after Cert.KernelIdeal.Gen.hostOps2_2 (after Cert.KernelIdeal.Gen.hostOps2_1 (after Cert.KernelIdeal.Gen.hostOps2 VK))) (Proc.devRef .tc Cert.KernelIdeal.main_v65) = Cert.ReferenceIdeal.ReadP.val_main_v65 x0 x1 x4 x5 x6 x7
    ∧ (∀ n : Fin 100000, (after Cert.KernelIdeal.Gen.hostOps2_2 (after Cert.KernelIdeal.Gen.hostOps2_1 (after Cert.KernelIdeal.Gen.hostOps2 VK))) (Proc.devRef .tc Cert.KernelIdeal.main_v76) (ix2 n (0 : Fin 1)) = x2 (ix1 n))
    ∧ (∀ n : Fin 100000, (after Cert.KernelIdeal.Gen.hostOps2_2 (after Cert.KernelIdeal.Gen.hostOps2_1 (after Cert.KernelIdeal.Gen.hostOps2 VK))) (Proc.devRef .tc Cert.KernelIdeal.main_v77) (ix2 n (0 : Fin 1)) = Cert.ReferenceIdeal.ReadP.val_main_v75 x2 x3 (ix1 n)) := by
  refine ⟨?_, ?_, ?_⟩
  · after_results_simp
    rw [h48, h3, h6, h29, h7]
    simp only [Cert.ReferenceIdeal.ReadP.val_main_v65, Cert.ReferenceIdeal.ReadP.val_main_call2_v0, Cert.ReferenceIdeal.ReadP.val_main_call2_cst, Cert.ReferenceIdeal.ReadP.val_main_v64, Cert.ReferenceIdeal.ReadP.val_main_v63, Cert.ReferenceIdeal.ReadP.val_main_v62, Cert.ReferenceIdeal.ReadP.val_main_v61, Cert.ReferenceIdeal.ReadP.val_main_v60, Cert.ReferenceIdeal.ReadP.val_main_v59, Cert.ReferenceIdeal.ReadP.val_main_cst_11, Cert.ReferenceIdeal.ReadP.val_main_v58, Cert.ReferenceIdeal.ReadP.val_main_v57, Cert.ReferenceIdeal.ReadP.val_main_v56, Cert.ReferenceIdeal.ReadP.val_main_v55, Cert.ReferenceIdeal.ReadP.val_main_v54, Cert.ReferenceIdeal.ReadP.val_main_v53, Cert.ReferenceIdeal.ReadP.val_main_v52, Cert.ReferenceIdeal.ReadP.val_main_v51, Cert.ReferenceIdeal.ReadP.val_main_c_10, Cert.ReferenceIdeal.ReadP.val_main_v50, Cert.ReferenceIdeal.ReadP.val_main_v49, Cert.ReferenceIdeal.ReadP.val_main_c_9]
    first | rfl | (simp only [TRef.ofBuf, TRef.toBuf, cast_eq]; rfl)
  · intro n
    after_results_simp
    rw [h2]
    show shapeCast Cert.KernelIdeal.S100000x1 x2 Cert.KernelIdeal.Facts₀.shapeCasts_S100000_S100000x1 (ix2 n (0 : Fin 1)) = x2 (ix1 n)
    refine shapeCast_apply (s := Cert.KernelIdeal.S100000) (t := Cert.KernelIdeal.S100000x1) _ _ (ix2 n (0 : Fin 1)) (ix1 n) ?_
    rw [Shape.rowMajor_val_one, Shape.rowMajor_val_two]
    simp [ix2, ix1]
  · intro n
    after_results_simp
    rw [h2, h3']
    have e : uitofp (F := F) .f32 (cmpi .slt (iotaInDim Cert.KernelIdeal.S100000 32 0) (Host.gather Cert.KernelIdeal.gather_S64_S100000x1_S100000_n_0_n_n_0_1_1 x3 (broadcastInDim Cert.KernelIdeal.S100000x1 ![0] Cert.KernelIdeal.Facts₀.bcast_S100000_S100000x1_0 (select (cmpi .slt x2 (broadcastInDim Cert.KernelIdeal.S100000 ![] Cert.KernelIdeal.Facts₀.bcast_S_S100000 (constantI Cert.KernelIdeal.S_ 32 0#32))) (addi x2 (broadcastInDim Cert.KernelIdeal.S100000 ![] Cert.KernelIdeal.Facts₀.bcast_S_S100000 (constantI Cert.KernelIdeal.S_ 32 64#32))) x2)))) = Cert.ReferenceIdeal.ReadP.val_main_v75 x2 x3 := by
      simp only [Cert.ReferenceIdeal.ReadP.val_main_v75, Cert.ReferenceIdeal.ReadP.val_main_v74, Cert.ReferenceIdeal.ReadP.val_main_v73, Cert.ReferenceIdeal.ReadP.val_main_v72, Cert.ReferenceIdeal.ReadP.val_main_v71, Cert.ReferenceIdeal.ReadP.val_main_v70, Cert.ReferenceIdeal.ReadP.val_main_v69, Cert.ReferenceIdeal.ReadP.val_main_c_13, Cert.ReferenceIdeal.ReadP.val_main_v68, Cert.ReferenceIdeal.ReadP.val_main_v67, Cert.ReferenceIdeal.ReadP.val_main_c_12, Cert.ReferenceIdeal.ReadP.val_main_v66]
      first | rfl | (simp only [TRef.ofBuf, TRef.toBuf, cast_eq]; rfl)
    rw [e]
    show shapeCast Cert.KernelIdeal.S100000x1 (Cert.ReferenceIdeal.ReadP.val_main_v75 x2 x3) Cert.KernelIdeal.Facts₀.shapeCasts_S100000_S100000x1 (ix2 n (0 : Fin 1)) = _
    refine shapeCast_apply (s := Cert.KernelIdeal.S100000) (t := Cert.KernelIdeal.S100000x1) _ _ (ix2 n (0 : Fin 1)) (ix1 n) ?_
    rw [Shape.rowMajor_val_one, Shape.rowMajor_val_two]
    simp [ix2, ix1]

end Cert.Bridge

end
-- ==== Proof.StageH.lean ====
import proofs.«430206_j86543591015294_1_alg».proof.Proof.Gen.KernelIdeal.Launch
import proofs.«430206_j86543591015294_1_alg».proof.Proof.RefRead
import Idealize.ShloMosaic.Lib.StableHlo.Run
import Idealize.ShloMosaic.Lib.ValueIdx
import Idealize.ShloMosaic.Lib.Pipeline.Value

/-! The tail after the pooling: the two means, the choice between them by the entity count, the linear layer and the
    log-softmax, from the four pooled arrays (the two counts arriving as rows and read as columns). -/

noncomputable section

namespace Cert.Bridge

open Idealize.ShloMosaic Idealize.ShloMosaic.StableHlo Idealize.ShloMosaic.ValueIdx

variable {F : FTy → Type} [FloatOps F]

theorem stageH (VK : Valuation Cert.KernelIdeal.τ Cert.KernelIdeal.sig (Elt F)) (x0 : (⟨Cert.ReferenceIdeal.S100000x300, .f32⟩ : BufTy).Contents (Elt F)) (x1 : (⟨Cert.ReferenceIdeal.S2x3200000, .i32⟩ : BufTy).Contents (Elt F)) (x2 : (⟨Cert.ReferenceIdeal.S100000, .i32⟩ : BufTy).Contents (Elt F)) (x3 : (⟨Cert.ReferenceIdeal.S64, .i32⟩ : BufTy).Contents (Elt F)) (x4 : (⟨Cert.ReferenceIdeal.S300x64, .f32⟩ : BufTy).Contents (Elt F)) (x5 : (⟨Cert.ReferenceIdeal.S64, .f32⟩ : BufTy).Contents (Elt F)) (x6 : (⟨Cert.ReferenceIdeal.S64x64, .f32⟩ : BufTy).Contents (Elt F)) (x7 : (⟨Cert.ReferenceIdeal.S64, .f32⟩ : BufTy).Contents (Elt F)) (x8 : (⟨Cert.ReferenceIdeal.S64x20, .f32⟩ : BufTy).Contents (Elt F)) (x9 : (⟨Cert.ReferenceIdeal.S20, .f32⟩ : BufTy).Contents (Elt F))
    (h0 : VK (Proc.devRef .tc Cert.KernelIdeal.main_v78_0) = Cert.ReferenceIdeal.ReadP.val_main_v91 x0 x1 x2 x4 x5 x6 x7)
    (h1 : VK (Proc.devRef .tc Cert.KernelIdeal.main_v78_1) = Cert.ReferenceIdeal.ReadP.val_main_v81 x0 x1 x2 x3 x4 x5 x6 x7)
    (h2 : ∀ g : Fin 64, VK (Proc.devRef .tc Cert.KernelIdeal.main_v78_2) (ix2 (0 : Fin 1) g) = Cert.ReferenceIdeal.ReadP.val_main_v95 x2 (ix2 g (0 : Fin 1)))
    (h3 : ∀ g : Fin 64, VK (Proc.devRef .tc Cert.KernelIdeal.main_v78_3) (ix2 (0 : Fin 1) g) = Cert.ReferenceIdeal.ReadP.val_main_v84 x2 x3 (ix2 g (0 : Fin 1)))
    (h8 : VK (Proc.devRef .tc Cert.KernelIdeal.main_arg8) = x8)
    (h9 : VK (Proc.devRef .tc Cert.KernelIdeal.main_arg9) = x9) :
    (after Cert.KernelIdeal.Gen.hostOps3_3 (after Cert.KernelIdeal.Gen.hostOps3_2 (after Cert.KernelIdeal.Gen.hostOps3_1 (after Cert.KernelIdeal.Gen.hostOps3 VK)))) (Proc.devRef .tc Cert.KernelIdeal.main_v94) = Cert.ReferenceIdeal.ReadP.val_main_v105 x0 x1 x2 x3 x4 x5 x6 x7 x8 x9 := by
  have e2 : (fun i => shapeCast Cert.KernelIdeal.main_v79.ty.shape (VK (Proc.devRef .tc Cert.KernelIdeal.main_v78_2)) Cert.KernelIdeal.Facts₀.shapeCasts_S1x64_S64x1 i) = Cert.ReferenceIdeal.ReadP.val_main_v95 x2 := by
    funext i
    show shapeCast Cert.KernelIdeal.S64x1 (VK (Proc.devRef .tc Cert.KernelIdeal.main_v78_2)) Cert.KernelIdeal.Facts₀.shapeCasts_S1x64_S64x1 i = _
    obtain ⟨g, z, rfl⟩ : ∃ (g : Fin 64) (z : Fin 1), i = ix2 g z := ⟨i 0, i 1, eq_ix2 i⟩
    obtain rfl : z = 0 := Subsingleton.elim _ _
    rw [← h2 g]
    refine shapeCast_apply (s := Cert.KernelIdeal.S1x64) (t := Cert.KernelIdeal.S64x1) _ _ (ix2 g (0 : Fin 1)) (ix2 (0 : Fin 1) g) ?_
    rw [Shape.rowMajor_val_two, Shape.rowMajor_val_two]
    simp [ix2]
  have e3 : (fun i => shapeCast Cert.KernelIdeal.main_v80.ty.shape (VK (Proc.devRef .tc Cert.KernelIdeal.main_v78_3)) Cert.KernelIdeal.Facts₀.shapeCasts_S1x64_S64x1 i) = Cert.ReferenceIdeal.ReadP.val_main_v84 x2 x3 := by
    funext i
    show shapeCast Cert.KernelIdeal.S64x1 (VK (Proc.devRef .tc Cert.KernelIdeal.main_v78_3)) Cert.KernelIdeal.Facts₀.shapeCasts_S1x64_S64x1 i = _
    obtain ⟨g, z, rfl⟩ : ∃ (g : Fin 64) (z : Fin 1), i = ix2 g z := ⟨i 0, i 1, eq_ix2 i⟩
    obtain rfl : z = 0 := Subsingleton.elim _ _
    rw [← h3 g]
    refine shapeCast_apply (s := Cert.KernelIdeal.S1x64) (t := Cert.KernelIdeal.S64x1) _ _ (ix2 g (0 : Fin 1)) (ix2 (0 : Fin 1) g) ?_
    rw [Shape.rowMajor_val_two, Shape.rowMajor_val_two]
    simp [ix2]
  after_results_simp
  rw [e2, e3, h0, h1, h8, h9]
  simp only [Cert.ReferenceIdeal.ReadP.val_main_v105, Cert.ReferenceIdeal.ReadP.val_main_call4_v10, Cert.ReferenceIdeal.ReadP.val_main_call4_v9, Cert.ReferenceIdeal.ReadP.val_main_call4_v8, Cert.ReferenceIdeal.ReadP.val_main_call4_v7, Cert.ReferenceIdeal.ReadP.val_main_call4_cst_1, Cert.ReferenceIdeal.ReadP.val_main_call4_v6, Cert.ReferenceIdeal.ReadP.val_main_call4_v5, Cert.ReferenceIdeal.ReadP.val_main_call4_v4, Cert.ReferenceIdeal.ReadP.val_main_call4_v3, Cert.ReferenceIdeal.ReadP.val_main_call4_v2, Cert.ReferenceIdeal.ReadP.val_main_call4_v1, Cert.ReferenceIdeal.ReadP.val_main_call4_cst_0, Cert.ReferenceIdeal.ReadP.val_main_call4_v0, Cert.ReferenceIdeal.ReadP.val_main_call4_cst, Cert.ReferenceIdeal.ReadP.val_main_v104, Cert.ReferenceIdeal.ReadP.val_main_v103, Cert.ReferenceIdeal.ReadP.val_main_v102, Cert.ReferenceIdeal.ReadP.val_main_v101, Cert.ReferenceIdeal.ReadP.val_main_v100, Cert.ReferenceIdeal.ReadP.val_main_call3_v0, Cert.ReferenceIdeal.ReadP.val_main_v99, Cert.ReferenceIdeal.ReadP.val_main_v98, Cert.ReferenceIdeal.ReadP.val_main_cst_20, Cert.ReferenceIdeal.ReadP.val_main_v97, Cert.ReferenceIdeal.ReadP.val_main_v96, Cert.ReferenceIdeal.ReadP.val_main_v88, Cert.ReferenceIdeal.ReadP.val_main_v87, Cert.ReferenceIdeal.ReadP.val_main_v86, Cert.ReferenceIdeal.ReadP.val_main_v85, Cert.ReferenceIdeal.ReadP.val_main_cst_16]
  first | rfl | (simp only [TRef.ofBuf, TRef.toBuf, cast_eq]; rfl)

end Cert.Bridge

end
-- ==== Proof.Pass.lean ====
import proofs.«430206_j86543591015294_1_alg».proof.Proof.Gen.KernelIdeal.Launch
import Idealize.ShloMosaic.Lib.StableHlo.Run

/-! Buffers a stretch of host operations does not write keep their contents: the program's arguments through every
    stretch, and the edge lists and edge weights through the layers that only read them. -/

noncomputable section

namespace Cert.Bridge

open Idealize.ShloMosaic Idealize.ShloMosaic.StableHlo

variable {F : FTy → Type} [FloatOps F]

theorem passA (VK : Valuation Cert.KernelIdeal.τ Cert.KernelIdeal.sig (Elt F)) :
    (after Cert.KernelIdeal.Gen.hostOps0_2 (after Cert.KernelIdeal.Gen.hostOps0_1 (after Cert.KernelIdeal.Gen.hostOps0 VK))) (Proc.devRef .tc Cert.KernelIdeal.main_arg0) = VK (Proc.devRef .tc Cert.KernelIdeal.main_arg0)
    ∧ (after Cert.KernelIdeal.Gen.hostOps0_2 (after Cert.KernelIdeal.Gen.hostOps0_1 (after Cert.KernelIdeal.Gen.hostOps0 VK))) (Proc.devRef .tc Cert.KernelIdeal.main_arg2) = VK (Proc.devRef .tc Cert.KernelIdeal.main_arg2)
    ∧ (after Cert.KernelIdeal.Gen.hostOps0_2 (after Cert.KernelIdeal.Gen.hostOps0_1 (after Cert.KernelIdeal.Gen.hostOps0 VK))) (Proc.devRef .tc Cert.KernelIdeal.main_arg3) = VK (Proc.devRef .tc Cert.KernelIdeal.main_arg3)
    ∧ (after Cert.KernelIdeal.Gen.hostOps0_2 (after Cert.KernelIdeal.Gen.hostOps0_1 (after Cert.KernelIdeal.Gen.hostOps0 VK))) (Proc.devRef .tc Cert.KernelIdeal.main_arg4) = VK (Proc.devRef .tc Cert.KernelIdeal.main_arg4)
    ∧ (after Cert.KernelIdeal.Gen.hostOps0_2 (after Cert.KernelIdeal.Gen.hostOps0_1 (after Cert.KernelIdeal.Gen.hostOps0 VK))) (Proc.devRef .tc Cert.KernelIdeal.main_arg5) = VK (Proc.devRef .tc Cert.KernelIdeal.main_arg5)
    ∧ (after Cert.KernelIdeal.Gen.hostOps0_2 (after Cert.KernelIdeal.Gen.hostOps0_1 (after Cert.KernelIdeal.Gen.hostOps0 VK))) (Proc.devRef .tc Cert.KernelIdeal.main_arg6) = VK (Proc.devRef .tc Cert.KernelIdeal.main_arg6)
    ∧ (after Cert.KernelIdeal.Gen.hostOps0_2 (after Cert.KernelIdeal.Gen.hostOps0_1 (after Cert.KernelIdeal.Gen.hostOps0 VK))) (Proc.devRef .tc Cert.KernelIdeal.main_arg7) = VK (Proc.devRef .tc Cert.KernelIdeal.main_arg7)
    ∧ (after Cert.KernelIdeal.Gen.hostOps0_2 (after Cert.KernelIdeal.Gen.hostOps0_1 (after Cert.KernelIdeal.Gen.hostOps0 VK))) (Proc.devRef .tc Cert.KernelIdeal.main_arg8) = VK (Proc.devRef .tc Cert.KernelIdeal.main_arg8)
    ∧ (after Cert.KernelIdeal.Gen.hostOps0_2 (after Cert.KernelIdeal.Gen.hostOps0_1 (after Cert.KernelIdeal.Gen.hostOps0 VK))) (Proc.devRef .tc Cert.KernelIdeal.main_arg9) = VK (Proc.devRef .tc Cert.KernelIdeal.main_arg9) := by
  refine ⟨?_, ?_, ?_, ?_, ?_, ?_, ?_, ?_, ?_⟩ <;> after_results_simp

theorem passC (VK : Valuation Cert.KernelIdeal.τ Cert.KernelIdeal.sig (Elt F)) :
    (after Cert.KernelIdeal.Gen.hostOps1_1 (after Cert.KernelIdeal.Gen.hostOps1 VK)) (Proc.devRef .tc Cert.KernelIdeal.main_v3) = VK (Proc.devRef .tc Cert.KernelIdeal.main_v3)
    ∧ (after Cert.KernelIdeal.Gen.hostOps1_1 (after Cert.KernelIdeal.Gen.hostOps1 VK)) (Proc.devRef .tc Cert.KernelIdeal.main_v6) = VK (Proc.devRef .tc Cert.KernelIdeal.main_v6)
    ∧ (after Cert.KernelIdeal.Gen.hostOps1_1 (after Cert.KernelIdeal.Gen.hostOps1 VK)) (Proc.devRef .tc Cert.KernelIdeal.main_v29) = VK (Proc.devRef .tc Cert.KernelIdeal.main_v29)
    ∧ (after Cert.KernelIdeal.Gen.hostOps1_1 (after Cert.KernelIdeal.Gen.hostOps1 VK)) (Proc.devRef .tc Cert.KernelIdeal.main_arg2) = VK (Proc.devRef .tc Cert.KernelIdeal.main_arg2)
    ∧ (after Cert.KernelIdeal.Gen.hostOps1_1 (after Cert.KernelIdeal.Gen.hostOps1 VK)) (Proc.devRef .tc Cert.KernelIdeal.main_arg3) = VK (Proc.devRef .tc Cert.KernelIdeal.main_arg3)
    ∧ (after Cert.KernelIdeal.Gen.hostOps1_1 (after Cert.KernelIdeal.Gen.hostOps1 VK)) (Proc.devRef .tc Cert.KernelIdeal.main_arg6) = VK (Proc.devRef .tc Cert.KernelIdeal.main_arg6)
    ∧ (after Cert.KernelIdeal.Gen.hostOps1_1 (after Cert.KernelIdeal.Gen.hostOps1 VK)) (Proc.devRef .tc Cert.KernelIdeal.main_arg7) = VK (Proc.devRef .tc Cert.KernelIdeal.main_arg7)
    ∧ (after Cert.KernelIdeal.Gen.hostOps1_1 (after Cert.KernelIdeal.Gen.hostOps1 VK)) (Proc.devRef .tc Cert.KernelIdeal.main_arg8) = VK (Proc.devRef .tc Cert.KernelIdeal.main_arg8)
    ∧ (after Cert.KernelIdeal.Gen.hostOps1_1 (after Cert.KernelIdeal.Gen.hostOps1 VK)) (Proc.devRef .tc Cert.KernelIdeal.main_arg9) = VK (Proc.devRef .tc Cert.KernelIdeal.main_arg9) := by
  refine ⟨?_, ?_, ?_, ?_, ?_, ?_, ?_, ?_, ?_⟩ <;> after_results_simp

theorem passE (VK : Valuation Cert.KernelIdeal.τ Cert.KernelIdeal.sig (Elt F)) :
    (after Cert.KernelIdeal.Gen.hostOps2_2 (after Cert.KernelIdeal.Gen.hostOps2_1 (after Cert.KernelIdeal.Gen.hostOps2 VK))) (Proc.devRef .tc Cert.KernelIdeal.main_arg8) = VK (Proc.devRef .tc Cert.KernelIdeal.main_arg8)
    ∧ (after Cert.KernelIdeal.Gen.hostOps2_2 (after Cert.KernelIdeal.Gen.hostOps2_1 (after Cert.KernelIdeal.Gen.hostOps2 VK))) (Proc.devRef .tc Cert.KernelIdeal.main_arg9) = VK (Proc.devRef .tc Cert.KernelIdeal.main_arg9) := by
  refine ⟨?_, ?_⟩ <;> after_results_simp

end Cert.Bridge

end
-- ==== Proof.AssembleCore.lean ====
import proofs.«430206_j86543591015294_1_alg».proof.Proof.KRun
import proofs.«430206_j86543591015294_1_alg».proof.Proof.StageA
import proofs.«430206_j86543591015294_1_alg».proof.Proof.StageC
import proofs.«430206_j86543591015294_1_alg».proof.Proof.StageE
import proofs.«430206_j86543591015294_1_alg».proof.Proof.StageH
import proofs.«430206_j86543591015294_1_alg».proof.Proof.Pass
import proofs.«430206_j86543591015294_1_alg».proof.Proof.RefRead

/-! The kernel program's result, stretch by stretch: each stretch of host operations is the reference's own text on
    equal operands, each matrix-product region leaves the reference's product, and the pooling region leaves the
    reference's four segment sums; so the result buffer at the last boundary is the reference's result stage of the
    same arguments. The three regions' values enter here as hypotheses. -/

set_option maxRecDepth 16384

noncomputable section

namespace Cert.Bridge

open Cert.KernelIdeal Cert.KernelIdeal.Gen
open Idealize.ShloMosaic Idealize.ShloMosaic.TcCoe Idealize.ShloMosaic.StableHlo Idealize.ShloMosaic.ValueIdx Idealize.SL.Sem
open Idealize.ShloMosaic.Pipeline (Dat)

set_option maxHeartbeats 2000000 in
theorem kernel_value_of
    (hm0 : ∀ (V : (c : Dev nD) → (b : Ref sig .tc) → Buf (Elt Ideal) ((c : Thread nD τ).loc b)) (c : Dev nD), (dat0 V c).arrAt 2 cfg0.N
      = Host.dotGeneral (F := Ideal) (φ₁ := .f32) (φ₂ := .f32) Cert.ReferenceIdeal.dot_S100000x300_S300x64_S100000x64_1_0_0_1_n_n none (V c main_arg0 : (⟨Cert.ReferenceIdeal.S100000x300, .f32⟩ : BufTy).Contents (Elt Ideal)) (V c main_arg4 : (⟨Cert.ReferenceIdeal.S300x64, .f32⟩ : BufTy).Contents (Elt Ideal)))
    (hm1 : ∀ (V : (c : Dev nD) → (b : Ref sig .tc) → Buf (Elt Ideal) ((c : Thread nD τ).loc b)) (c : Dev nD), (dat1 V c).arrAt 2 cfg1.N
      = Host.dotGeneral (F := Ideal) (φ₁ := .f32) (φ₂ := .f32) Cert.ReferenceIdeal.dot_S100000x64_S64x64_S100000x64_1_0_0_1_n_n none (V c main_v47 : (⟨Cert.ReferenceIdeal.S100000x64, .f32⟩ : BufTy).Contents (Elt Ideal)) (V c main_arg6 : (⟨Cert.ReferenceIdeal.S64x64, .f32⟩ : BufTy).Contents (Elt Ideal)))
    (hp3 : ∀ (V : (c : Dev nD) → (b : Ref sig .tc) → Buf (Elt Ideal) ((c : Thread nD τ).loc b)) (c : Dev nD) (b : (⟨Cert.ReferenceIdeal.S100000, .i32⟩ : BufTy).Contents (Elt Ideal)) (H : (⟨Cert.ReferenceIdeal.S100000x64, .f32⟩ : BufTy).Contents (Elt Ideal)), (∀ n : Fin 100000, V c main_v76 (ix2 n (0 : Fin 1)) = b (ix1 n)) → V c main_v65 = H →
      (dat2 V c).arrAt 3 cfg2.N = Host.scatterAdd (F := Ideal) (φ := .f32) Cert.ReferenceIdeal.scatter_S64x64_S100000x1_S100000x64_1_0_0_1 (Cert.ReferenceIdeal.ReadP.val_main_v89 (F := Ideal)) (Cert.ReferenceIdeal.ReadP.val_main_v90 (F := Ideal) b) H)
    (hp4 : ∀ (V : (c : Dev nD) → (b : Ref sig .tc) → Buf (Elt Ideal) ((c : Thread nD τ).loc b)) (c : Dev nD) (b : (⟨Cert.ReferenceIdeal.S100000, .i32⟩ : BufTy).Contents (Elt Ideal)) (msk : (⟨Cert.ReferenceIdeal.S100000, .f32⟩ : BufTy).Contents (Elt Ideal)) (H : (⟨Cert.ReferenceIdeal.S100000x64, .f32⟩ : BufTy).Contents (Elt Ideal)), (∀ n : Fin 100000, V c main_v76 (ix2 n (0 : Fin 1)) = b (ix1 n)) → (∀ n : Fin 100000, V c main_v77 (ix2 n (0 : Fin 1)) = msk (ix1 n)) → V c main_v65 = H →
      (dat2 V c).arrAt 4 cfg2.N = Host.scatterAdd (F := Ideal) (φ := .f32) Cert.ReferenceIdeal.scatter_S64x64_S100000x1_S100000x64_1_0_0_1 (Cert.ReferenceIdeal.ReadP.val_main_v79 (F := Ideal)) (Cert.ReferenceIdeal.ReadP.val_main_v80 (F := Ideal) b) (mulf H (broadcastInDim Cert.ReferenceIdeal.S100000x64 ![0, 1] Cert.ReferenceIdeal.Facts₀.bcast_S100000x1_S100000x64_0_1 (broadcastInDim Cert.ReferenceIdeal.S100000x1 ![0] Cert.ReferenceIdeal.Facts₀.bcast_S100000_S100000x1_0 msk))))
    (hp5 : ∀ (V : (c : Dev nD) → (b : Ref sig .tc) → Buf (Elt Ideal) ((c : Thread nD τ).loc b)) (c : Dev nD) (b : (⟨Cert.ReferenceIdeal.S100000, .i32⟩ : BufTy).Contents (Elt Ideal)), (∀ n : Fin 100000, V c main_v76 (ix2 n (0 : Fin 1)) = b (ix1 n)) → ∀ g : Fin 64,
      (dat2 V c).arrAt 5 cfg2.N (ix2 (0 : Fin 1) g) = Cert.ReferenceIdeal.ReadP.val_main_v95 (F := Ideal) b (ix2 g (0 : Fin 1)))
    (hp6 : ∀ (V : (c : Dev nD) → (b : Ref sig .tc) → Buf (Elt Ideal) ((c : Thread nD τ).loc b)) (c : Dev nD) (b : (⟨Cert.ReferenceIdeal.S100000, .i32⟩ : BufTy).Contents (Elt Ideal)) (msk : (⟨Cert.ReferenceIdeal.S100000, .f32⟩ : BufTy).Contents (Elt Ideal)), (∀ n : Fin 100000, V c main_v76 (ix2 n (0 : Fin 1)) = b (ix1 n)) → (∀ n : Fin 100000, V c main_v77 (ix2 n (0 : Fin 1)) = msk (ix1 n)) → ∀ g : Fin 64,
      (dat2 V c).arrAt 6 cfg2.N (ix2 (0 : Fin 1) g) = Host.scatterAdd (F := Ideal) (φ := .f32) Cert.ReferenceIdeal.scatter_S64x1_S100000x1_S100000x1_1_0_0_1 (Cert.ReferenceIdeal.ReadP.val_main_v82 (F := Ideal)) (Cert.ReferenceIdeal.ReadP.val_main_v83 (F := Ideal) b) (broadcastInDim Cert.ReferenceIdeal.S100000x1 ![0] Cert.ReferenceIdeal.Facts₀.bcast_S100000_S100000x1_0 msk) (ix2 g (0 : Fin 1)))
    (m : (ℓ : Loc nD τ sig) → Buf (Elt Ideal) ℓ) (ρ : Dev nD → PrngReg) (c : Dev nD) :
    W15 m ρ c (Proc.devRef .tc main_v94) = Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  -- the arguments keep their launch contents up to the first region
  obtain ⟨pA0, pA2, pA3, pA4, pA5, pA6, pA7, pA8, pA9⟩ := passA (W0 m ρ c)
  -- the edge lists and the edge weights
  obtain ⟨a3, a6, a29⟩ := stageA (W0 m ρ c) (m ((c : Thread nD τ).loc main_arg1)) rfl
  -- the first product
  have e0 : V3 m ρ c main_arg0 = (m ((c : Thread nD τ).loc main_arg0)) := pA0
  have e4 : V3 m ρ c main_arg4 = (m ((c : Thread nD τ).loc main_arg4)) := pA4
  have h30 : W4 m ρ c (Proc.devRef .tc main_v30) = Cert.ReferenceIdeal.ReadP.val_main_v30 (F := Ideal) (m ((c : Thread nD τ).loc main_arg0)) (m ((c : Thread nD τ).loc main_arg4)) :=
    (W4_arr m ρ c 2).trans ((hm0 (V3 m ρ) c).trans (by rw [e0, e4]; rfl))
  -- the first layer
  obtain ⟨pC3, pC6, pC29, pC2, pC3', pC6', pC7, pC8, pC9⟩ := passC (W4 m ρ c)
  have w4_3 : W4 m ρ c (Proc.devRef .tc main_v3) = Cert.ReferenceIdeal.ReadP.val_main_v3 (F := Ideal) (m ((c : Thread nD τ).loc main_arg1)) := (W4_of_ne m ρ c main_v3 (by decide)).trans a3
  have w4_6 : W4 m ρ c (Proc.devRef .tc main_v6) = Cert.ReferenceIdeal.ReadP.val_main_v6 (F := Ideal) (m ((c : Thread nD τ).loc main_arg1)) := (W4_of_ne m ρ c main_v6 (by decide)).trans a6
  have w4_29 : W4 m ρ c (Proc.devRef .tc main_v29) = Cert.ReferenceIdeal.ReadP.val_main_v29 (F := Ideal) (m ((c : Thread nD τ).loc main_arg1)) := (W4_of_ne m ρ c main_v29 (by decide)).trans a29
  have w4_5 : W4 m ρ c (Proc.devRef .tc main_arg5) = (m ((c : Thread nD τ).loc main_arg5)) := (W4_of_ne m ρ c main_arg5 (by decide)).trans pA5
  have h47 : W6 m ρ c (Proc.devRef .tc main_v47) = Cert.ReferenceIdeal.ReadP.val_main_v47 (F := Ideal) (m ((c : Thread nD τ).loc main_arg0)) (m ((c : Thread nD τ).loc main_arg1)) (m ((c : Thread nD τ).loc main_arg4)) (m ((c : Thread nD τ).loc main_arg5)) :=
    stageC (W4 m ρ c) (m ((c : Thread nD τ).loc main_arg0)) (m ((c : Thread nD τ).loc main_arg1)) (m ((c : Thread nD τ).loc main_arg4)) (m ((c : Thread nD τ).loc main_arg5)) h30 w4_3 w4_6 w4_29 w4_5
  -- the second product
  have w6_6 : V6 m ρ c main_arg6 = (m ((c : Thread nD τ).loc main_arg6)) := pC6'.trans ((W4_of_ne m ρ c main_arg6 (by decide)).trans pA6)
  have e47 : V6 m ρ c main_v47 = Cert.ReferenceIdeal.ReadP.val_main_v47 (F := Ideal) (m ((c : Thread nD τ).loc main_arg0)) (m ((c : Thread nD τ).loc main_arg1)) (m ((c : Thread nD τ).loc main_arg4)) (m ((c : Thread nD τ).loc main_arg5)) := h47
  have h48 : W7 m ρ c (Proc.devRef .tc main_v48) = Cert.ReferenceIdeal.ReadP.val_main_v48 (F := Ideal) (m ((c : Thread nD τ).loc main_arg0)) (m ((c : Thread nD τ).loc main_arg1)) (m ((c : Thread nD τ).loc main_arg4)) (m ((c : Thread nD τ).loc main_arg5)) (m ((c : Thread nD τ).loc main_arg6)) :=
    (W7_arr m ρ c 2).trans ((hm1 (V6 m ρ) c).trans (by rw [e47, w6_6]; rfl))
  -- the second layer, the graph words and the mask
  have w7_3 : W7 m ρ c (Proc.devRef .tc main_v3) = Cert.ReferenceIdeal.ReadP.val_main_v3 (F := Ideal) (m ((c : Thread nD τ).loc main_arg1)) := (W7_of_ne m ρ c main_v3 (by decide)).trans (pC3.trans w4_3)
  have w7_6 : W7 m ρ c (Proc.devRef .tc main_v6) = Cert.ReferenceIdeal.ReadP.val_main_v6 (F := Ideal) (m ((c : Thread nD τ).loc main_arg1)) := (W7_of_ne m ρ c main_v6 (by decide)).trans (pC6.trans w4_6)
  have w7_29 : W7 m ρ c (Proc.devRef .tc main_v29) = Cert.ReferenceIdeal.ReadP.val_main_v29 (F := Ideal) (m ((c : Thread nD τ).loc main_arg1)) := (W7_of_ne m ρ c main_v29 (by decide)).trans (pC29.trans w4_29)
  have w7_7 : W7 m ρ c (Proc.devRef .tc main_arg7) = (m ((c : Thread nD τ).loc main_arg7)) := (W7_of_ne m ρ c main_arg7 (by decide)).trans (pC7.trans ((W4_of_ne m ρ c main_arg7 (by decide)).trans pA7))
  have w7_2 : W7 m ρ c (Proc.devRef .tc main_arg2) = (m ((c : Thread nD τ).loc main_arg2)) := (W7_of_ne m ρ c main_arg2 (by decide)).trans (pC2.trans ((W4_of_ne m ρ c main_arg2 (by decide)).trans pA2))
  have w7_3' : W7 m ρ c (Proc.devRef .tc main_arg3) = (m ((c : Thread nD τ).loc main_arg3)) := (W7_of_ne m ρ c main_arg3 (by decide)).trans (pC3'.trans ((W4_of_ne m ρ c main_arg3 (by decide)).trans pA3))
  obtain ⟨h65, h76, h77⟩ := stageE (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) h48 w7_3 w7_6 w7_29 w7_7 w7_2 w7_3'
  -- the pooling
  have k0 : W11 m ρ c (Proc.devRef .tc main_v78_0) = Cert.ReferenceIdeal.ReadP.val_main_v91 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
    (W11_arr m ρ c 3).trans ((hp3 (V10 m ρ) c (m ((c : Thread nD τ).loc main_arg2)) (Cert.ReferenceIdeal.ReadP.val_main_v65 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) h76 h65).trans (by unfold Cert.ReferenceIdeal.ReadP.val_main_v91; rfl))
  have k1 : W11 m ρ c (Proc.devRef .tc main_v78_1) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    (W11_arr m ρ c 4).trans ((hp4 (V10 m ρ) c (m ((c : Thread nD τ).loc main_arg2)) (Cert.ReferenceIdeal.ReadP.val_main_v75 (F := Ideal) (m ((c : Thread nD τ).loc main_arg2)) (m ((c : Thread nD τ).loc main_arg3))) (Cert.ReferenceIdeal.ReadP.val_main_v65 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) h76 h77 h65).trans
      (by unfold Cert.ReferenceIdeal.ReadP.val_main_v81 Cert.ReferenceIdeal.ReadP.val_main_v78 Cert.ReferenceIdeal.ReadP.val_main_v77 Cert.ReferenceIdeal.ReadP.val_main_v76; rfl))
  have k2 : ∀ g : Fin 64, W11 m ρ c (Proc.devRef .tc main_v78_2) (ix2 (0 : Fin 1) g) = Cert.ReferenceIdeal.ReadP.val_main_v95 (F := Ideal) (m ((c : Thread nD τ).loc main_arg2)) (ix2 g (0 : Fin 1)) :=
    fun g => (congrFun (W11_arr m ρ c 5) _).trans (hp5 (V10 m ρ) c (m ((c : Thread nD τ).loc main_arg2)) h76 g)
  have k3 : ∀ g : Fin 64, W11 m ρ c (Proc.devRef .tc main_v78_3) (ix2 (0 : Fin 1) g) = Cert.ReferenceIdeal.ReadP.val_main_v84 (F := Ideal) (m ((c : Thread nD τ).loc main_arg2)) (m ((c : Thread nD τ).loc main_arg3)) (ix2 g (0 : Fin 1)) :=
    fun g => (congrFun (W11_arr m ρ c 6) _).trans ((hp6 (V10 m ρ) c (m ((c : Thread nD τ).loc main_arg2)) (Cert.ReferenceIdeal.ReadP.val_main_v75 (F := Ideal) (m ((c : Thread nD τ).loc main_arg2)) (m ((c : Thread nD τ).loc main_arg3))) h76 h77 g).trans
      (by unfold Cert.ReferenceIdeal.ReadP.val_main_v84 Cert.ReferenceIdeal.ReadP.val_main_v76; rfl))
  -- the tail
  obtain ⟨pE8, pE9⟩ := passE (W7 m ρ c)
  have w11_8 : W11 m ρ c (Proc.devRef .tc main_arg8) = (m ((c : Thread nD τ).loc main_arg8)) :=
    (W11_of_ne m ρ c main_arg8 (by decide)).trans (pE8.trans ((W7_of_ne m ρ c main_arg8 (by decide)).trans (pC8.trans ((W4_of_ne m ρ c main_arg8 (by decide)).trans pA8))))
  have w11_9 : W11 m ρ c (Proc.devRef .tc main_arg9) = (m ((c : Thread nD τ).loc main_arg9)) :=
    (W11_of_ne m ρ c main_arg9 (by decide)).trans (pE9.trans ((W7_of_ne m ρ c main_arg9 (by decide)).trans (pC9.trans ((W4_of_ne m ρ c main_arg9 (by decide)).trans pA9))))
  exact stageH (W11 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) k0 k1 k2 k3 w11_8 w11_9

end Cert.Bridge

end
-- ==== Proof.Mat0.lean ====
import proofs.«430206_j86543591015294_1_alg».proof.Proof.Gen.KernelIdeal.Frame
import proofs.«430206_j86543591015294_1_alg».proof.ReferenceIdeal
import proofs.«430206_j86543591015294_1_alg».proof.Proof.Gen.ReferenceIdeal
import Idealize.ShloMosaic.Lib.Pipeline.Value
import Idealize.ShloMosaic.Lib.ValueIdx
import Idealize.ShloMosaic.PureOps.Ideal.Laws

/-! The first matrix product, tiled over twenty row blocks of 5000 nodes: the array the pipeline leaves is the
    whole product of the node features with the first weight matrix. -/
set_option maxRecDepth 16384

noncomputable section

namespace Cert.Bridge

open Idealize.ShloMosaic Idealize.ShloMosaic.TcCoe Idealize.ShloMosaic.ValueIdx Idealize.SL.Sem
open Idealize.ShloMosaic.Pipeline (Dat)

/-- The zero offsets of a whole-block access, however they are spelt. -/
theorem mat0_zeroOff : (![0, 0] : Fin 2 → Nat) = fun _ => 0 := funext fun a => by fin_cases a <;> rfl

/-! ## The operand indices of the two products, coordinate by coordinate -/

theorem mat0_klhs_0 (i : Cert.KernelIdeal.S5000x64.Idx) (q : Cert.KernelIdeal.dot_S5000x300_S300x64_S5000x64_1_0_0_1_n_n.contr.Idx) :
    (Cert.KernelIdeal.dot_S5000x300_S300x64_S5000x64_1_0_0_1_n_n.lhsIdx i q 0).val = (i 0).val := by
  unfold DotDims.lhsIdx
  rw [dif_neg (show ¬(0 : Fin Cert.KernelIdeal.S5000x300.rank) ∈ Cert.KernelIdeal.dot_S5000x300_S300x64_S5000x64_1_0_0_1_n_n.lhsBatch by decide), dif_pos (show (0 : Fin Cert.KernelIdeal.S5000x300.rank) ∈ Cert.KernelIdeal.dot_S5000x300_S300x64_S5000x64_1_0_0_1_n_n.lhsNonContracting by decide)]
  rfl
theorem mat0_klhs_1 (i : Cert.KernelIdeal.S5000x64.Idx) (q : Cert.KernelIdeal.dot_S5000x300_S300x64_S5000x64_1_0_0_1_n_n.contr.Idx) :
    (Cert.KernelIdeal.dot_S5000x300_S300x64_S5000x64_1_0_0_1_n_n.lhsIdx i q 1).val = (q ⟨0, by decide⟩).val :=
  Cert.KernelIdeal.dot_S5000x300_S300x64_S5000x64_1_0_0_1_n_n.lhsIdx_val_of_single rfl i q
theorem mat0_krhs_0 (i : Cert.KernelIdeal.S5000x64.Idx) (q : Cert.KernelIdeal.dot_S5000x300_S300x64_S5000x64_1_0_0_1_n_n.contr.Idx) :
    (Cert.KernelIdeal.dot_S5000x300_S300x64_S5000x64_1_0_0_1_n_n.rhsIdx i q 0).val = (q ⟨0, by decide⟩).val :=
  Cert.KernelIdeal.dot_S5000x300_S300x64_S5000x64_1_0_0_1_n_n.rhsIdx_val_of_single rfl i q
theorem mat0_krhs_1 (i : Cert.KernelIdeal.S5000x64.Idx) (q : Cert.KernelIdeal.dot_S5000x300_S300x64_S5000x64_1_0_0_1_n_n.contr.Idx) :
    (Cert.KernelIdeal.dot_S5000x300_S300x64_S5000x64_1_0_0_1_n_n.rhsIdx i q 1).val = (i 1).val := by
  unfold DotDims.rhsIdx
  rw [dif_neg (show ¬(1 : Fin Cert.KernelIdeal.S300x64.rank) ∈ Cert.KernelIdeal.dot_S5000x300_S300x64_S5000x64_1_0_0_1_n_n.rhsBatch by decide), dif_pos (show (1 : Fin Cert.KernelIdeal.S300x64.rank) ∈ Cert.KernelIdeal.dot_S5000x300_S300x64_S5000x64_1_0_0_1_n_n.rhsNonContracting by decide)]
  rfl

theorem mat0_rlhs_0 (i : Cert.ReferenceIdeal.S100000x64.Idx) (q : Cert.ReferenceIdeal.dot_S100000x300_S300x64_S100000x64_1_0_0_1_n_n.contr.Idx) :
    (Cert.ReferenceIdeal.dot_S100000x300_S300x64_S100000x64_1_0_0_1_n_n.lhsIdx i q 0).val = (i 0).val := by
  unfold DotDims.lhsIdx
  rw [dif_neg (show ¬(0 : Fin Cert.ReferenceIdeal.S100000x300.rank) ∈ Cert.ReferenceIdeal.dot_S100000x300_S300x64_S100000x64_1_0_0_1_n_n.lhsBatch by decide), dif_pos (show (0 : Fin Cert.ReferenceIdeal.S100000x300.rank) ∈ Cert.ReferenceIdeal.dot_S100000x300_S300x64_S100000x64_1_0_0_1_n_n.lhsNonContracting by decide)]
  rfl
theorem mat0_rlhs_1 (i : Cert.ReferenceIdeal.S100000x64.Idx) (q : Cert.ReferenceIdeal.dot_S100000x300_S300x64_S100000x64_1_0_0_1_n_n.contr.Idx) :
    (Cert.ReferenceIdeal.dot_S100000x300_S300x64_S100000x64_1_0_0_1_n_n.lhsIdx i q 1).val = (q ⟨0, by decide⟩).val :=
  Cert.ReferenceIdeal.dot_S100000x300_S300x64_S100000x64_1_0_0_1_n_n.lhsIdx_val_of_single rfl i q
theorem mat0_rrhs_0 (i : Cert.ReferenceIdeal.S100000x64.Idx) (q : Cert.ReferenceIdeal.dot_S100000x300_S300x64_S100000x64_1_0_0_1_n_n.contr.Idx) :
    (Cert.ReferenceIdeal.dot_S100000x300_S300x64_S100000x64_1_0_0_1_n_n.rhsIdx i q 0).val = (q ⟨0, by decide⟩).val :=
  Cert.ReferenceIdeal.dot_S100000x300_S300x64_S100000x64_1_0_0_1_n_n.rhsIdx_val_of_single rfl i q
theorem mat0_rrhs_1 (i : Cert.ReferenceIdeal.S100000x64.Idx) (q : Cert.ReferenceIdeal.dot_S100000x300_S300x64_S100000x64_1_0_0_1_n_n.contr.Idx) :
    (Cert.ReferenceIdeal.dot_S100000x300_S300x64_S100000x64_1_0_0_1_n_n.rhsIdx i q 1).val = (i 1).val := by
  unfold DotDims.rhsIdx
  rw [dif_neg (show ¬(1 : Fin Cert.ReferenceIdeal.S300x64.rank) ∈ Cert.ReferenceIdeal.dot_S100000x300_S300x64_S100000x64_1_0_0_1_n_n.rhsBatch by decide), dif_pos (show (1 : Fin Cert.ReferenceIdeal.S300x64.rank) ∈ Cert.ReferenceIdeal.dot_S100000x300_S300x64_S100000x64_1_0_0_1_n_n.rhsNonContracting by decide)]
  rfl

/-! ## Each product read at an index: a sum over the 300 contracted coordinates -/

/-- The block product at row `p`, column `q` of the block: at the ideal values the narrowing to bf16 is the identity and
    the accumulator is zero, so it is the plain sum of products. -/
theorem mat0_pay_apply (x0 : Vec Ideal Cert.KernelIdeal.S5000x300 .f32) (x1 : Vec Ideal Cert.KernelIdeal.S300x64 .f32) (p : Fin 5000) (q : Fin 64) :
    Cert.KernelIdeal.Gen.k0_pay1 x0 x1 (ix2 p q) = ∑ k : Fin 300, x0 (ix2 p k) * x1 (ix2 k q) := by
  unfold Cert.KernelIdeal.Gen.k0_pay1
  simp only [matmul]
  rw [Ideal.matmul_constant_zero_apply, ← Equiv.sum_comp (contrEquiv1 Cert.KernelIdeal.dot_S5000x300_S300x64_S5000x64_1_0_0_1_n_n 300 rfl rfl).symm]
  refine Finset.sum_congr rfl fun k _ => ?_
  have hk := contrEquiv1_symm_val Cert.KernelIdeal.dot_S5000x300_S300x64_S5000x64_1_0_0_1_n_n 300 rfl rfl k
  have el : Cert.KernelIdeal.dot_S5000x300_S300x64_S5000x64_1_0_0_1_n_n.lhsIdx (ix2 p q) ((contrEquiv1 Cert.KernelIdeal.dot_S5000x300_S300x64_S5000x64_1_0_0_1_n_n 300 rfl rfl).symm k) = ix2 p k := funext fun a => Fin.ext (by
    match a with
    | ⟨0, _⟩ => exact mat0_klhs_0 _ _
    | ⟨1, _⟩ => exact (mat0_klhs_1 _ _).trans hk)
  have er : Cert.KernelIdeal.dot_S5000x300_S300x64_S5000x64_1_0_0_1_n_n.rhsIdx (ix2 p q) ((contrEquiv1 Cert.KernelIdeal.dot_S5000x300_S300x64_S5000x64_1_0_0_1_n_n 300 rfl rfl).symm k) = ix2 k q := funext fun a => Fin.ext (by
    match a with
    | ⟨0, _⟩ => exact (mat0_krhs_0 _ _).trans hk
    | ⟨1, _⟩ => exact mat0_krhs_1 _ _)
  rw [el, er]
  rfl

/-- The whole product at row `r`, column `q`. -/
theorem mat0_ref_apply (a : (⟨Cert.ReferenceIdeal.S100000x300, .f32⟩ : BufTy).Contents (Elt Ideal)) (b : (⟨Cert.ReferenceIdeal.S300x64, .f32⟩ : BufTy).Contents (Elt Ideal)) (r : Fin 100000) (q : Fin 64) :
    Host.dotGeneral (F := Ideal) (φ₁ := .f32) (φ₂ := .f32) Cert.ReferenceIdeal.dot_S100000x300_S300x64_S100000x64_1_0_0_1_n_n none a b (ix2 r q) = ∑ k : Fin 300, a (ix2 r k) * b (ix2 k q) := by
  simp only [Host.dotGeneral]
  rw [Ideal.dotGeneral_apply, ← Equiv.sum_comp (contrEquiv1 Cert.ReferenceIdeal.dot_S100000x300_S300x64_S100000x64_1_0_0_1_n_n 300 rfl rfl).symm]
  refine Finset.sum_congr rfl fun k _ => ?_
  have hk := contrEquiv1_symm_val Cert.ReferenceIdeal.dot_S100000x300_S300x64_S100000x64_1_0_0_1_n_n 300 rfl rfl k
  have el : Cert.ReferenceIdeal.dot_S100000x300_S300x64_S100000x64_1_0_0_1_n_n.lhsIdx (ix2 r q) ((contrEquiv1 Cert.ReferenceIdeal.dot_S100000x300_S300x64_S100000x64_1_0_0_1_n_n 300 rfl rfl).symm k) = ix2 r k := funext fun a => Fin.ext (by
    match a with
    | ⟨0, _⟩ => exact mat0_rlhs_0 _ _
    | ⟨1, _⟩ => exact (mat0_rlhs_1 _ _).trans hk)
  have er : Cert.ReferenceIdeal.dot_S100000x300_S300x64_S100000x64_1_0_0_1_n_n.rhsIdx (ix2 r q) ((contrEquiv1 Cert.ReferenceIdeal.dot_S100000x300_S300x64_S100000x64_1_0_0_1_n_n 300 rfl rfl).symm k) = ix2 k q := funext fun a => Fin.ext (by
    match a with
    | ⟨0, _⟩ => exact (mat0_rrhs_0 _ _).trans hk
    | ⟨1, _⟩ => exact mat0_rrhs_1 _ _)
  rw [el, er]

/-! ## From the blocks to the array -/

/-- Where a block of the product is a block of the whole product: the block's rows are rows `r` of the left array, the
    right operand is whole. -/
theorem mat0_block_eq (A : (⟨Cert.ReferenceIdeal.S100000x300, .f32⟩ : BufTy).Contents (Elt Ideal)) (B : (⟨Cert.ReferenceIdeal.S300x64, .f32⟩ : BufTy).Contents (Elt Ideal))
    (x0 : Vec Ideal Cert.KernelIdeal.S5000x300 .f32) (x1 : Vec Ideal Cert.KernelIdeal.S300x64 .f32) (r : Fin 100000) (p : Fin 5000) (q : Fin 64)
    (h0 : ∀ k : Fin 300, x0 (ix2 p k) = A (ix2 r k)) (h1 : ∀ k : Fin 300, x1 (ix2 k q) = B (ix2 k q)) :
    Cert.KernelIdeal.Gen.k0_pay1 x0 x1 (ix2 p q) = Host.dotGeneral (F := Ideal) (φ₁ := .f32) (φ₂ := .f32) Cert.ReferenceIdeal.dot_S100000x300_S300x64_S100000x64_1_0_0_1_n_n none A B (ix2 r q) := by
  rw [mat0_pay_apply, mat0_ref_apply]
  exact Finset.sum_congr rfl fun k _ => by rw [h0 k, h1 k]

/-- The block indices at the twenty points, decided point by point: the left operand's and the result's row block is the
    point's number, every column block and the right operand's blocks are block zero. -/
theorem mat0_blockIdx : ∀ t : Fin Cert.KernelIdeal.cfg0.N,
    Cert.KernelIdeal.win0_0.index t (0 : Fin 2) = t.val ∧ Cert.KernelIdeal.win0_0.index t (1 : Fin 2) = 0
    ∧ Cert.KernelIdeal.win0_1.index t (0 : Fin 2) = 0 ∧ Cert.KernelIdeal.win0_1.index t (1 : Fin 2) = 0
    ∧ Cert.KernelIdeal.win0_2.index t (0 : Fin 2) = t.val ∧ Cert.KernelIdeal.win0_2.index t (1 : Fin 2) = 0 :=
  (by decide +kernel : ∀ t : Fin Cert.KernelIdeal.grid0.N, _)

/-- What point `t` writes back is block `t` of the whole product. -/
theorem mat0_flushed_eq (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (t : Fin Cert.KernelIdeal.cfg0.N) :
    (Cert.KernelIdeal.Gen.dat0 V c).flushed 2 t = ((Cert.KernelIdeal.cfg0.win 2).blk t).view.read (Elt Ideal)
      (Host.dotGeneral (F := Ideal) (φ₁ := .f32) (φ₂ := .f32) Cert.ReferenceIdeal.dot_S100000x300_S300x64_S100000x64_1_0_0_1_n_n none (V c Cert.KernelIdeal.main_arg0 : (⟨Cert.ReferenceIdeal.S100000x300, .f32⟩ : BufTy).Contents (Elt Ideal)) (V c Cert.KernelIdeal.main_arg4 : (⟨Cert.ReferenceIdeal.S300x64, .f32⟩ : BufTy).Contents (Elt Ideal))) := by
  show (Cert.KernelIdeal.cfg0.win 2).cut (Cert.KernelIdeal.grid0.coords t) ((Cert.KernelIdeal.Gen.dat0 V c).after 2 t) = _
  rw [Cert.KernelIdeal.Gen.after0_2]
  unfold Cert.KernelIdeal.Gen.out0_2
  rw [View.canon_unit_zero mat0_zeroOff]
  simp only [View.ld_unit_zero (S := Cert.KernelIdeal.S5000x300) mat0_zeroOff, View.ld_unit_zero (S := Cert.KernelIdeal.S300x64) mat0_zeroOff]
  obtain ⟨e0, e1, e2, e3, e4, e5⟩ := mat0_blockIdx t
  have ht : t.val < 20 := lt_of_lt_of_eq t.isLt Cert.KernelIdeal.Gen.N_0
  funext y
  obtain ⟨p, q, rfl⟩ : ∃ (p : Fin 5000) (q : Fin 64), y = ix2 p q := ⟨y 0, y 1, eq_ix2 y⟩
  have hp : p.val < 5000 := p.isLt
  have hemb : ((Cert.KernelIdeal.cfg0.win 2).blk t).view.emb (ix2 p q) = (ix2 (⟨t.val * 5000 + p.val, by omega⟩ : Fin 100000) q : Cert.ReferenceIdeal.S100000x64.Idx) := by
    funext a; apply Fin.ext
    match a with
    | ⟨0, _⟩ => show Cert.KernelIdeal.win0_2.index t (0 : Fin 2) * 5000 + 1 * p.val = t.val * 5000 + p.val; omega
    | ⟨1, _⟩ => show Cert.KernelIdeal.win0_2.index t (1 : Fin 2) * 64 + 1 * q.val = q.val; omega
  show Cert.KernelIdeal.Gen.k0_pay1 (Cert.KernelIdeal.Gen.iblk0 V c 0 t) (Cert.KernelIdeal.Gen.iblk0 V c 1 t) (ix2 p q)
    = Host.dotGeneral (F := Ideal) (φ₁ := .f32) (φ₂ := .f32) Cert.ReferenceIdeal.dot_S100000x300_S300x64_S100000x64_1_0_0_1_n_n none (V c Cert.KernelIdeal.main_arg0 : (⟨Cert.ReferenceIdeal.S100000x300, .f32⟩ : BufTy).Contents (Elt Ideal)) (V c Cert.KernelIdeal.main_arg4 : (⟨Cert.ReferenceIdeal.S300x64, .f32⟩ : BufTy).Contents (Elt Ideal)) (((Cert.KernelIdeal.cfg0.win 2).blk t).view.emb (ix2 p q))
  rw [hemb]
  refine mat0_block_eq (V c Cert.KernelIdeal.main_arg0) (V c Cert.KernelIdeal.main_arg4) (Cert.KernelIdeal.Gen.iblk0 V c 0 t) (Cert.KernelIdeal.Gen.iblk0 V c 1 t) ⟨t.val * 5000 + p.val, by omega⟩ p q ?_ ?_
  · intro k
    show V c Cert.KernelIdeal.main_arg0 (((Cert.KernelIdeal.cfg0.win 0).blk t).view.emb (ix2 p k)) = V c Cert.KernelIdeal.main_arg0 (ix2 (⟨t.val * 5000 + p.val, by omega⟩ : Fin 100000) k : Cert.ReferenceIdeal.S100000x300.Idx)
    refine congrArg (V c Cert.KernelIdeal.main_arg0) (funext fun a => Fin.ext ?_)
    match a with
    | ⟨0, _⟩ => show Cert.KernelIdeal.win0_0.index t (0 : Fin 2) * 5000 + 1 * p.val = t.val * 5000 + p.val; omega
    | ⟨1, _⟩ => show Cert.KernelIdeal.win0_0.index t (1 : Fin 2) * 300 + 1 * k.val = k.val; omega
  · intro k
    show V c Cert.KernelIdeal.main_arg4 (((Cert.KernelIdeal.cfg0.win 1).blk t).view.emb (ix2 k q)) = V c Cert.KernelIdeal.main_arg4 (ix2 k q : Cert.ReferenceIdeal.S300x64.Idx)
    refine congrArg (V c Cert.KernelIdeal.main_arg4) (funext fun a => Fin.ext ?_)
    match a with
    | ⟨0, _⟩ => show Cert.KernelIdeal.win0_1.index t (0 : Fin 2) * 300 + 1 * k.val = k.val; omega
    | ⟨1, _⟩ => show Cert.KernelIdeal.win0_1.index t (1 : Fin 2) * 64 + 1 * q.val = q.val; omega

/-- An index of the array is in point `t`'s block iff each coordinate is in the block's range on its axis. -/
theorem mat0_mem_blk (t : Fin Cert.KernelIdeal.cfg0.N) (i : Cert.KernelIdeal.S100000x64.Idx) :
    i ∈ ((Cert.KernelIdeal.cfg0.win 2).blk t).view.set ↔ ∀ a : Fin 2, Cert.KernelIdeal.win0_2.index t a * Cert.KernelIdeal.S5000x64.size a ≤ (i a).val ∧ (i a).val < Cert.KernelIdeal.win0_2.index t a * Cert.KernelIdeal.S5000x64.size a + Cert.KernelIdeal.S5000x64.size a := by
  show i ∈ ((View.whole Cert.KernelIdeal.main_v30).slice (Cert.KernelIdeal.win0_2.rect t)).set ↔ _
  rw [View.set_slice_whole, Rect.mem_set_unit]
  exact Iff.rfl

/-- The twenty row blocks tile the array: row `r` lies in the block of point `r / 5000`, which is written back. -/
theorem mat0_cover (i : Cert.KernelIdeal.S100000x64.Idx) :
    ∃ t : Fin Cert.KernelIdeal.cfg0.N, (Cert.KernelIdeal.cfg0.win 2).flush t = true ∧ i ∈ ((Cert.KernelIdeal.cfg0.win 2).blk t).view.set := by
  have hi0 : (i 0).val < 100000 := (i 0).isLt
  have hi1 : (i 1).val < 64 := (i 1).isLt
  have hlt : (i 0).val / 5000 < Cert.KernelIdeal.cfg0.N := lt_of_lt_of_eq (by omega : (i 0).val / 5000 < 20) Cert.KernelIdeal.Gen.N_0.symm
  obtain ⟨e0, e1, e2, e3, e4, e5⟩ := mat0_blockIdx ⟨(i 0).val / 5000, hlt⟩
  have e4' : Cert.KernelIdeal.win0_2.index ⟨(i 0).val / 5000, hlt⟩ (0 : Fin 2) = (i 0).val / 5000 := e4
  refine ⟨⟨(i 0).val / 5000, hlt⟩, Cert.KernelIdeal.Gen.flush0_2 _, ?_⟩
  rw [mat0_mem_blk]
  intro a
  match a with
  | ⟨0, _⟩ =>
    show Cert.KernelIdeal.win0_2.index ⟨(i 0).val / 5000, hlt⟩ (0 : Fin 2) * 5000 ≤ (i 0).val ∧ (i 0).val < Cert.KernelIdeal.win0_2.index ⟨(i 0).val / 5000, hlt⟩ (0 : Fin 2) * 5000 + 5000
    omega
  | ⟨1, _⟩ =>
    show Cert.KernelIdeal.win0_2.index ⟨(i 0).val / 5000, hlt⟩ (1 : Fin 2) * 64 ≤ (i 1).val ∧ (i 1).val < Cert.KernelIdeal.win0_2.index ⟨(i 0).val / 5000, hlt⟩ (1 : Fin 2) * 64 + 64
    omega

/-- The array the twenty points leave is the whole product. -/
theorem mat0 (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat0 V c).arrAt 2 Cert.KernelIdeal.cfg0.N
      = Host.dotGeneral (F := Ideal) (φ₁ := .f32) (φ₂ := .f32) Cert.ReferenceIdeal.dot_S100000x300_S300x64_S100000x64_1_0_0_1_n_n none (V c Cert.KernelIdeal.main_arg0 : (⟨Cert.ReferenceIdeal.S100000x300, .f32⟩ : BufTy).Contents (Elt Ideal)) (V c Cert.KernelIdeal.main_arg4 : (⟨Cert.ReferenceIdeal.S300x64, .f32⟩ : BufTy).Contents (Elt Ideal)) :=
  (Cert.KernelIdeal.Gen.dat0 V c).arrAt_eq_of_cover 2 _ (fun t _ => mat0_flushed_eq V c t) mat0_cover

end Cert.Bridge

end
-- ==== Proof.Mat1.lean ====
import proofs.«430206_j86543591015294_1_alg».proof.Proof.Gen.KernelIdeal.Frame
import proofs.«430206_j86543591015294_1_alg».proof.ReferenceIdeal
import proofs.«430206_j86543591015294_1_alg».proof.Proof.Gen.ReferenceIdeal
import Idealize.ShloMosaic.Lib.Pipeline.Value
import Idealize.ShloMosaic.Lib.ValueIdx
import Idealize.ShloMosaic.PureOps.Ideal.Laws

/-! The second matrix product, tiled over twenty row blocks of 5000 nodes: the array the pipeline leaves is the
    whole product of the first layer's output with the second weight matrix. -/
set_option maxRecDepth 16384

noncomputable section

namespace Cert.Bridge

open Idealize.ShloMosaic Idealize.ShloMosaic.TcCoe Idealize.ShloMosaic.ValueIdx Idealize.SL.Sem
open Idealize.ShloMosaic.Pipeline (Dat)

/-- The zero offsets of a whole-block access, however they are spelt. -/
theorem mat1_zeroOff : (![0, 0] : Fin 2 → Nat) = fun _ => 0 := funext fun a => by fin_cases a <;> rfl

/-! ## The operand indices of the two products, coordinate by coordinate -/

theorem mat1_klhs_0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin Cert.KernelIdeal.S5000x64.rank) ∈ Cert.KernelIdeal.dot_S5000x64_S64x64_S5000x64_1_0_0_1_n_n.lhsBatch by decide), dif_pos (show (0 : Fin Cert.KernelIdeal.S5000x64.rank) ∈ Cert.KernelIdeal.dot_S5000x64_S64x64_S5000x64_1_0_0_1_n_n.lhsNonContracting by decide)]
  rfl
theorem mat1_klhs_1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q
theorem mat1_krhs_0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q
theorem mat1_krhs_1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin Cert.KernelIdeal.S64x64.rank) ∈ Cert.KernelIdeal.dot_S5000x64_S64x64_S5000x64_1_0_0_1_n_n.rhsBatch by decide), dif_pos (show (1 : Fin Cert.KernelIdeal.S64x64.rank) ∈ Cert.KernelIdeal.dot_S5000x64_S64x64_S5000x64_1_0_0_1_n_n.rhsNonContracting by decide)]
  rfl

theorem mat1_rlhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem mat1_rlhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem mat1_rrhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem mat1_rrhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-! ## Each product read at an index: a sum over the 64 contracted coordinates -/

/-- The block product at row `p`, column `q` of the block: at the ideal values the narrowing to bf16 is the identity (and so is the recast of the left block to its own shape) and
    the accumulator is zero, so it is the plain sum of products. -/
theorem mat1_pay_apply (x0 : Vec Ideal Cert.KernelIdeal.S5000x64 .f32) (x1 : Vec Ideal Cert.KernelIdeal.S64x64 .f32) (p : Fin 5000) (q : Fin 64) :
    Cert.KernelIdeal.Gen.k1_pay1 x0 x1 (ix2 p q) = ∑ k : Fin 64, x0 (ix2 p k) * x1 (ix2 k q) := by
  unfold Cert.KernelIdeal.Gen.k1_pay1
  rw [shapeCast_self]
  simp only [matmul]
  rw [Ideal.matmul_constant_zero_apply, ← Equiv.sum_comp (contrEquiv1 Cert.KernelIdeal.dot_S5000x64_S64x64_S5000x64_1_0_0_1_n_n 64 rfl rfl).symm]
  refine Finset.sum_congr rfl fun k _ => ?_
  have hk := contrEquiv1_symm_val Cert.KernelIdeal.dot_S5000x64_S64x64_S5000x64_1_0_0_1_n_n 64 rfl rfl k
  have el : Cert.KernelIdeal.dot_S5000x64_S64x64_S5000x64_1_0_0_1_n_n.lhsIdx (ix2 p q) ((contrEquiv1 Cert.KernelIdeal.dot_S5000x64_S64x64_S5000x64_1_0_0_1_n_n 64 rfl rfl).symm k) = ix2 p k := funext fun a => Fin.ext (by
    match a with
    | ⟨0, _⟩ => exact mat1_klhs_0 _ _
    | ⟨1, _⟩ => exact (mat1_klhs_1 _ _).trans hk)
  have er : Cert.KernelIdeal.dot_S5000x64_S64x64_S5000x64_1_0_0_1_n_n.rhsIdx (ix2 p q) ((contrEquiv1 Cert.KernelIdeal.dot_S5000x64_S64x64_S5000x64_1_0_0_1_n_n 64 rfl rfl).symm k) = ix2 k q := funext fun a => Fin.ext (by
    match a with
    | ⟨0, _⟩ => exact (mat1_krhs_0 _ _).trans hk
    | ⟨1, _⟩ => exact mat1_krhs_1 _ _)
  rw [el, er]
  rfl

/-- The whole product at row `r`, column `q`. -/
theorem mat1_ref_apply (a : (⟨Cert.ReferenceIdeal.S100000x64, .f32⟩ : BufTy).Contents (Elt Ideal)) (b : (⟨Cert.ReferenceIdeal.S64x64, .f32⟩ : BufTy).Contents (Elt Ideal)) (r : Fin 100000) (q : Fin 64) :
    Host.dotGeneral (F := Ideal) (φ₁ := .f32) (φ₂ := .f32) Cert.ReferenceIdeal.dot_S100000x64_S64x64_S100000x64_1_0_0_1_n_n none a b (ix2 r q) = ∑ k : Fin 64, a (ix2 r k) * b (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k := funext fun a => Fin.ext (by
    match a with
    | ⟨0, _⟩ => exact mat1_rlhs_0 _ _
    | ⟨1, _⟩ => exact (mat1_rlhs_1 _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q := funext fun a => Fin.ext (by
    match a with
    | ⟨0, _⟩ => exact (mat1_rrhs_0 _ _).trans hk
    | ⟨1, _⟩ => exact mat1_rrhs_1 _ _)
  rw [el, er]

/-! ## From the blocks to the array -/

/-- Where a block of the product is a block of the whole product: the block's rows are rows `r` of the left array, the
    right operand is whole. -/
theorem mat1_block_eq (A : (⟨Cert.ReferenceIdeal.S100000x64, .f32⟩ : BufTy).Contents (Elt Ideal)) (B : (⟨Cert.ReferenceIdeal.S64x64, .f32⟩ : BufTy).Contents (Elt Ideal))
    (x0 : Vec Ideal Cert.KernelIdeal.S5000x64 .f32) (x1 : Vec Ideal Cert.KernelIdeal.S64x64 .f32) (r : Fin 100000) (p : Fin 5000) (q : Fin 64)
    (h0 : ∀ k : Fin 64, x0 (ix2 p k) = A (ix2 r k)) (h1 : ∀ k : Fin 64, x1 (ix2 k q) = B (ix2 k q)) :
    Cert.KernelIdeal.Gen.k1_pay1 x0 x1 (ix2 p q) = Host.dotGeneral (F := Ideal) (φ₁ := .f32) (φ₂ := .f32) Cert.ReferenceIdeal.dot_S100000x64_S64x64_S100000x64_1_0_0_1_n_n none A B (ix2 r q) := by
  rw [mat1_pay_apply, mat1_ref_apply]
  exact Finset.sum_congr rfl fun k _ => by rw [h0 k, h1 k]

/-- The block indices at the twenty points, decided point by point: the left operand's and the result's row block is the
    point's number, every column block and the right operand's blocks are block zero. -/
theorem mat1_blockIdx : ∀ t : Fin Cert.KernelIdeal.cfg1.N,
    Cert.KernelIdeal.win1_0.index t (0 : Fin 2) = t.val ∧ Cert.KernelIdeal.win1_0.index t (1 : Fin 2) = 0
    ∧ Cert.KernelIdeal.win1_1.index t (0 : Fin 2) = 0 ∧ Cert.KernelIdeal.win1_1.index t (1 : Fin 2) = 0
    ∧ Cert.KernelIdeal.win1_2.index t (0 : Fin 2) = t.val ∧ Cert.KernelIdeal.win1_2.index t (1 : Fin 2) = 0 :=
  (by decide +kernel : ∀ t : Fin Cert.KernelIdeal.grid1.N, _)

/-- What point `t` writes back is block `t` of the whole product. -/
theorem mat1_flushed_eq (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (t : Fin Cert.KernelIdeal.cfg1.N) :
    (Cert.KernelIdeal.Gen.dat1 V c).flushed 2 t = ((Cert.KernelIdeal.cfg1.win 2).blk t).view.read (Elt Ideal)
      (Host.dotGeneral (F := Ideal) (φ₁ := .f32) (φ₂ := .f32) Cert.ReferenceIdeal.dot_S100000x64_S64x64_S100000x64_1_0_0_1_n_n none (V c Cert.KernelIdeal.main_v47 : (⟨Cert.ReferenceIdeal.S100000x64, .f32⟩ : BufTy).Contents (Elt Ideal)) (V c Cert.KernelIdeal.main_arg6 : (⟨Cert.ReferenceIdeal.S64x64, .f32⟩ : BufTy).Contents (Elt Ideal))) := by
  show (Cert.KernelIdeal.cfg1.win 2).cut (Cert.KernelIdeal.grid1.coords t) ((Cert.KernelIdeal.Gen.dat1 V c).after 2 t) = _
  rw [Cert.KernelIdeal.Gen.after1_2]
  unfold Cert.KernelIdeal.Gen.out1_2
  rw [View.canon_unit_zero mat1_zeroOff]
  simp only [View.ld_unit_zero (S := Cert.KernelIdeal.S5000x64) mat1_zeroOff, View.ld_unit_zero (S := Cert.KernelIdeal.S64x64) mat1_zeroOff]
  obtain ⟨e0, e1, e2, e3, e4, e5⟩ := mat1_blockIdx t
  have ht : t.val < 20 := lt_of_lt_of_eq t.isLt Cert.KernelIdeal.Gen.N_1
  funext y
  obtain ⟨p, q, rfl⟩ : ∃ (p : Fin 5000) (q : Fin 64), y = ix2 p q := ⟨y 0, y 1, eq_ix2 y⟩
  have hp : p.val < 5000 := p.isLt
  have hemb : ((Cert.KernelIdeal.cfg1.win 2).blk t).view.emb (ix2 p q) = (ix2 (⟨t.val * 5000 + p.val, by omega⟩ : Fin 100000) q : Cert.ReferenceIdeal.S100000x64.Idx) := by
    funext a; apply Fin.ext
    match a with
    | ⟨0, _⟩ => show Cert.KernelIdeal.win1_2.index t (0 : Fin 2) * 5000 + 1 * p.val = t.val * 5000 + p.val; omega
    | ⟨1, _⟩ => show Cert.KernelIdeal.win1_2.index t (1 : Fin 2) * 64 + 1 * q.val = q.val; omega
  show Cert.KernelIdeal.Gen.k1_pay1 (Cert.KernelIdeal.Gen.iblk1 V c 0 t) (Cert.KernelIdeal.Gen.iblk1 V c 1 t) (ix2 p q)
    = Host.dotGeneral (F := Ideal) (φ₁ := .f32) (φ₂ := .f32) Cert.ReferenceIdeal.dot_S100000x64_S64x64_S100000x64_1_0_0_1_n_n none (V c Cert.KernelIdeal.main_v47 : (⟨Cert.ReferenceIdeal.S100000x64, .f32⟩ : BufTy).Contents (Elt Ideal)) (V c Cert.KernelIdeal.main_arg6 : (⟨Cert.ReferenceIdeal.S64x64, .f32⟩ : BufTy).Contents (Elt Ideal)) (((Cert.KernelIdeal.cfg1.win 2).blk t).view.emb (ix2 p q))
  rw [hemb]
  refine mat1_block_eq (V c Cert.KernelIdeal.main_v47) (V c Cert.KernelIdeal.main_arg6) (Cert.KernelIdeal.Gen.iblk1 V c 0 t) (Cert.KernelIdeal.Gen.iblk1 V c 1 t) ⟨t.val * 5000 + p.val, by omega⟩ p q ?_ ?_
  · intro k
    show V c Cert.KernelIdeal.main_v47 (((Cert.KernelIdeal.cfg1.win 0).blk t).view.emb (ix2 p k)) = V c Cert.KernelIdeal.main_v47 (ix2 (⟨t.val * 5000 + p.val, by omega⟩ : Fin 100000) k : Cert.ReferenceIdeal.S100000x64.Idx)
    refine congrArg (V c Cert.KernelIdeal.main_v47) (funext fun a => Fin.ext ?_)
    match a with
    | ⟨0, _⟩ => show Cert.KernelIdeal.win1_0.index t (0 : Fin 2) * 5000 + 1 * p.val = t.val * 5000 + p.val; omega
    | ⟨1, _⟩ => show Cert.KernelIdeal.win1_0.index t (1 : Fin 2) * 64 + 1 * k.val = k.val; omega
  · intro k
    show V c Cert.KernelIdeal.main_arg6 (((Cert.KernelIdeal.cfg1.win 1).blk t).view.emb (ix2 k q)) = V c Cert.KernelIdeal.main_arg6 (ix2 k q : Cert.ReferenceIdeal.S64x64.Idx)
    refine congrArg (V c Cert.KernelIdeal.main_arg6) (funext fun a => Fin.ext ?_)
    match a with
    | ⟨0, _⟩ => show Cert.KernelIdeal.win1_1.index t (0 : Fin 2) * 64 + 1 * k.val = k.val; omega
    | ⟨1, _⟩ => show Cert.KernelIdeal.win1_1.index t (1 : Fin 2) * 64 + 1 * q.val = q.val; omega

/-- An index of the array is in point `t`'s block iff each coordinate is in the block's range on its axis. -/
theorem mat1_mem_blk (t : Fin Cert.KernelIdeal.cfg1.N) (i : Cert.KernelIdeal.S100000x64.Idx) :
    i ∈ ((Cert.KernelIdeal.cfg1.win 2).blk t).view.set ↔ ∀ a : Fin 2, Cert.KernelIdeal.win1_2.index t a * Cert.KernelIdeal.S5000x64.size a ≤ (i a).val ∧ (i a).val < Cert.KernelIdeal.win1_2.index t a * Cert.KernelIdeal.S5000x64.size a + Cert.KernelIdeal.S5000x64.size a := by
  show i ∈ ((View.whole Cert.KernelIdeal.main_v48).slice (Cert.KernelIdeal.win1_2.rect t)).set ↔ _
  rw [View.set_slice_whole, Rect.mem_set_unit]
  exact Iff.rfl

/-- The twenty row blocks tile the array: row `r` lies in the block of point `r / 5000`, which is written back. -/
theorem mat1_cover (i : Cert.KernelIdeal.S100000x64.Idx) :
    ∃ t : Fin Cert.KernelIdeal.cfg1.N, (Cert.KernelIdeal.cfg1.win 2).flush t = true ∧ i ∈ ((Cert.KernelIdeal.cfg1.win 2).blk t).view.set := by
  have hi0 : (i 0).val < 100000 := (i 0).isLt
  have hi1 : (i 1).val < 64 := (i 1).isLt
  have hlt : (i 0).val / 5000 < Cert.KernelIdeal.cfg1.N := lt_of_lt_of_eq (by omega : (i 0).val / 5000 < 20) Cert.KernelIdeal.Gen.N_1.symm
  obtain ⟨e0, e1, e2, e3, e4, e5⟩ := mat1_blockIdx ⟨(i 0).val / 5000, hlt⟩
  have e4' : Cert.KernelIdeal.win1_2.index ⟨(i 0).val / 5000, hlt⟩ (0 : Fin 2) = (i 0).val / 5000 := e4
  refine ⟨⟨(i 0).val / 5000, hlt⟩, Cert.KernelIdeal.Gen.flush1_2 _, ?_⟩
  rw [mat1_mem_blk]
  intro a
  match a with
  | ⟨0, _⟩ =>
    show Cert.KernelIdeal.win1_2.index ⟨(i 0).val / 5000, hlt⟩ (0 : Fin 2) * 5000 ≤ (i 0).val ∧ (i 0).val < Cert.KernelIdeal.win1_2.index ⟨(i 0).val / 5000, hlt⟩ (0 : Fin 2) * 5000 + 5000
    omega
  | ⟨1, _⟩ =>
    show Cert.KernelIdeal.win1_2.index ⟨(i 0).val / 5000, hlt⟩ (1 : Fin 2) * 64 ≤ (i 1).val ∧ (i 1).val < Cert.KernelIdeal.win1_2.index ⟨(i 0).val / 5000, hlt⟩ (1 : Fin 2) * 64 + 64
    omega

/-- The array the twenty points leave is the whole product. -/
theorem mat1 (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat1 V c).arrAt 2 Cert.KernelIdeal.cfg1.N
      = Host.dotGeneral (F := Ideal) (φ₁ := .f32) (φ₂ := .f32) Cert.ReferenceIdeal.dot_S100000x64_S64x64_S100000x64_1_0_0_1_n_n none (V c Cert.KernelIdeal.main_v47 : (⟨Cert.ReferenceIdeal.S100000x64, .f32⟩ : BufTy).Contents (Elt Ideal)) (V c Cert.KernelIdeal.main_arg6 : (⟨Cert.ReferenceIdeal.S64x64, .f32⟩ : BufTy).Contents (Elt Ideal)) :=
  (Cert.KernelIdeal.Gen.dat1 V c).arrAt_eq_of_cover 2 _ (fun t _ => mat1_flushed_eq V c t) mat1_cover

end Cert.Bridge

end
-- ==== Proof.PoolDefs.lean ====
import Idealize.ShloMosaic.PureOps.Ideal

/-! The indicator that a node's 32-bit graph word names graph g, as an extended real: the weight both sides of the
    pooling put on a node's term. -/

noncomputable section

namespace Cert.Bridge

/-- 1 when the word is the word of g, else 0. -/
def oh (w : BitVec 32) (g : Fin 64) : EReal := if w = BitVec.ofNat 32 g.val then 1 else 0

end Cert.Bridge

end
-- ==== Proof.PoolCases.lean ====
import proofs.«430206_j86543591015294_1_alg».proof.Proof.Gen.KernelIdeal.Frame
import Idealize.ShloMosaic.Lib.Pipeline.Value
import Idealize.ShloMosaic.Lib.Tactic

/-! The pooling body, case by case: at the first node tile the four accumulators are reset to zero and the tile's
    contribution added; at every later tile the contribution is added to what the tile before left. And the four
    result arrays are written back once, after the last tile, whole. -/

set_option maxRecDepth 16384

noncomputable section

namespace Cert.Bridge

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The offsets of every access of the body, however spelt, are zero on both axes. -/
theorem zero_offsets : (![0, 0] : Fin 2 → Nat) = fun _ => 0 := funext fun a => by fin_cases a <;> rfl

/-! ## What each case leaves in each accumulator

Every store of the body writes a whole buffer and every load reads a whole buffer, so the last store to a buffer
decides its contents; a load between the reset and the update reads the reset's zeros back. -/

/-- First tile, accumulator 3: zeros, then the tile's first product added to the zeros just stored. -/
theorem out_A_3 (c : Dev nD) (i : grid2.Coords) (arg1 : Memref sig .tc .vmem S5000x64 .f32) (harg1 : arg1.IsWhole) (arg2 : Memref sig .tc .vmem S5000x1 .i32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (hc0 : cond2_0 i) (x0 : Vec F S5000x64 .f32) (x1 : Vec F S5000x1 .i32) (x2 : Vec F S5000x1 .f32) :
    out2_A_3 c i arg1 harg1 arg2 harg2 arg3 harg3 arg4 harg4 arg5 harg5 arg6 harg6 arg7 harg7 hc0 x0 x1 x2 = k2_pay9 x0 x1 (k2_pay2 (F := F)) := by
  unfold out2_A_3
  rw [View.read_writes_eq_canon _ _ _ (cover2_A_3 c i arg1 harg1 arg2 harg2 arg3 harg3 arg4 harg4 arg5 harg5 arg6 harg6 arg7 harg7 hc0 x0 x1 x2)]
  unfold kernelRun2_A
  dsimp only
  sl_unfold_words
  rw [View.canon_cons_unit_zero (S := S64x64) zero_offsets]
  simp only [View.readAt_eq_ld, harg1.read_unread, harg2.read_unread, View.ld_unit_zero (S := S5000x64) zero_offsets, View.ld_unit_zero (S := S5000x1) zero_offsets, View.readCov_unit_zero (S := S64x64) _ zero_offsets]

/-- Later tiles, accumulator 3: the tile's first product added to the running contents. -/
theorem out_B_3 (c : Dev nD) (i : grid2.Coords) (arg1 : Memref sig .tc .vmem S5000x64 .f32) (harg1 : arg1.IsWhole) (arg2 : Memref sig .tc .vmem S5000x1 .i32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (x0 : Vec F S5000x64 .f32) (x1 : Vec F S5000x1 .i32) (x2 : Vec F S5000x1 .f32) (xo3 : Vec F S64x64 .f32) (xo4 : Vec F S64x64 .f32) (xo5 : Vec F S1x64 .f32) (xo6 : Vec F S1x64 .f32) :
    out2_B_3 c i arg1 harg1 arg2 harg2 arg3 harg3 arg4 harg4 arg5 harg5 arg6 harg6 arg7 harg7 hc0 x0 x1 x2 xo3 xo4 xo5 xo6 = k2_pay9 x0 x1 xo3 := by
  unfold out2_B_3
  rw [View.read_writes_eq_canon _ _ _ (cover2_B_3 c i arg1 harg1 arg2 harg2 arg3 harg3 arg4 harg4 arg5 harg5 arg6 harg6 arg7 harg7 hc0 x0 x1 x2 xo3 xo4 xo5 xo6)]
  unfold kernelRun2_B
  dsimp only
  sl_unfold_words
  rw [View.canon_unit_zero (S := S64x64) zero_offsets]
  simp only [View.readAt_eq_ld, harg1.read_unread, harg2.read_unread, harg4.read_unread, View.ld_unit_zero (S := S5000x64) zero_offsets, View.ld_unit_zero (S := S5000x1) zero_offsets, View.ld_unit_zero (S := S64x64) zero_offsets]

/-- First tile, accumulator 4: zeros, then the tile's weighted product added to them. -/
theorem out_A_4 (c : Dev nD) (i : grid2.Coords) (arg1 : Memref sig .tc .vmem S5000x64 .f32) (harg1 : arg1.IsWhole) (arg2 : Memref sig .tc .vmem S5000x1 .i32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (hc0 : cond2_0 i) (x0 : Vec F S5000x64 .f32) (x1 : Vec F S5000x1 .i32) (x2 : Vec F S5000x1 .f32) :
    out2_A_4 c i arg1 harg1 arg2 harg2 arg3 harg3 arg4 harg4 arg5 harg5 arg6 harg6 arg7 harg7 hc0 x0 x1 x2 = k2_pay10 x0 x1 x2 (k2_pay3 (F := F)) := by
  unfold out2_A_4
  rw [View.read_writes_eq_canon _ _ _ (cover2_A_4 c i arg1 harg1 arg2 harg2 arg3 harg3 arg4 harg4 arg5 harg5 arg6 harg6 arg7 harg7 hc0 x0 x1 x2)]
  unfold kernelRun2_A
  dsimp only
  sl_unfold_words
  rw [View.canon_cons_unit_zero (S := S64x64) zero_offsets]
  simp only [View.readAt_eq_ld, harg1.read_unread, harg2.read_unread, harg3.read_unread, View.ld_unit_zero (S := S5000x64) zero_offsets, View.ld_unit_zero (S := S5000x1) zero_offsets, View.readCov_unit_zero (S := S64x64) _ zero_offsets]

/-- Later tiles, accumulator 4: the tile's weighted product added to the running contents. -/
theorem out_B_4 (c : Dev nD) (i : grid2.Coords) (arg1 : Memref sig .tc .vmem S5000x64 .f32) (harg1 : arg1.IsWhole) (arg2 : Memref sig .tc .vmem S5000x1 .i32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (x0 : Vec F S5000x64 .f32) (x1 : Vec F S5000x1 .i32) (x2 : Vec F S5000x1 .f32) (xo3 : Vec F S64x64 .f32) (xo4 : Vec F S64x64 .f32) (xo5 : Vec F S1x64 .f32) (xo6 : Vec F S1x64 .f32) :
    out2_B_4 c i arg1 harg1 arg2 harg2 arg3 harg3 arg4 harg4 arg5 harg5 arg6 harg6 arg7 harg7 hc0 x0 x1 x2 xo3 xo4 xo5 xo6 = k2_pay10 x0 x1 x2 xo4 := by
  unfold out2_B_4
  rw [View.read_writes_eq_canon _ _ _ (cover2_B_4 c i arg1 harg1 arg2 harg2 arg3 harg3 arg4 harg4 arg5 harg5 arg6 harg6 arg7 harg7 hc0 x0 x1 x2 xo3 xo4 xo5 xo6)]
  unfold kernelRun2_B
  dsimp only
  sl_unfold_words
  rw [View.canon_unit_zero (S := S64x64) zero_offsets]
  simp only [View.readAt_eq_ld, harg1.read_unread, harg2.read_unread, harg3.read_unread, harg5.read_unread, View.ld_unit_zero (S := S5000x64) zero_offsets, View.ld_unit_zero (S := S5000x1) zero_offsets, View.ld_unit_zero (S := S64x64) zero_offsets]

/-- First tile, accumulator 5: zeros, then the tile's column counts added to them. -/
theorem out_A_5 (c : Dev nD) (i : grid2.Coords) (arg1 : Memref sig .tc .vmem S5000x64 .f32) (harg1 : arg1.IsWhole) (arg2 : Memref sig .tc .vmem S5000x1 .i32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (hc0 : cond2_0 i) (x0 : Vec F S5000x64 .f32) (x1 : Vec F S5000x1 .i32) (x2 : Vec F S5000x1 .f32) :
    out2_A_5 c i arg1 harg1 arg2 harg2 arg3 harg3 arg4 harg4 arg5 harg5 arg6 harg6 arg7 harg7 hc0 x0 x1 x2 = k2_pay11 x1 (k2_pay4 (F := F)) := by
  unfold out2_A_5
  rw [View.read_writes_eq_canon _ _ _ (cover2_A_5 c i arg1 harg1 arg2 harg2 arg3 harg3 arg4 harg4 arg5 harg5 arg6 harg6 arg7 harg7 hc0 x0 x1 x2)]
  unfold kernelRun2_A
  dsimp only
  sl_unfold_words
  rw [View.canon_cons_unit_zero (S := S1x64) zero_offsets]
  simp only [View.readAt_eq_ld, harg2.read_unread, View.ld_unit_zero (S := S5000x1) zero_offsets, View.readCov_unit_zero (S := S1x64) _ zero_offsets]

/-- Later tiles, accumulator 5: the tile's column counts added to the running contents. -/
theorem out_B_5 (c : Dev nD) (i : grid2.Coords) (arg1 : Memref sig .tc .vmem S5000x64 .f32) (harg1 : arg1.IsWhole) (arg2 : Memref sig .tc .vmem S5000x1 .i32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (x0 : Vec F S5000x64 .f32) (x1 : Vec F S5000x1 .i32) (x2 : Vec F S5000x1 .f32) (xo3 : Vec F S64x64 .f32) (xo4 : Vec F S64x64 .f32) (xo5 : Vec F S1x64 .f32) (xo6 : Vec F S1x64 .f32) :
    out2_B_5 c i arg1 harg1 arg2 harg2 arg3 harg3 arg4 harg4 arg5 harg5 arg6 harg6 arg7 harg7 hc0 x0 x1 x2 xo3 xo4 xo5 xo6 = k2_pay11 x1 xo5 := by
  unfold out2_B_5
  rw [View.read_writes_eq_canon _ _ _ (cover2_B_5 c i arg1 harg1 arg2 harg2 arg3 harg3 arg4 harg4 arg5 harg5 arg6 harg6 arg7 harg7 hc0 x0 x1 x2 xo3 xo4 xo5 xo6)]
  unfold kernelRun2_B
  dsimp only
  sl_unfold_words
  rw [View.canon_unit_zero (S := S1x64) zero_offsets]
  simp only [View.readAt_eq_ld, harg2.read_unread, harg6.read_unread, View.ld_unit_zero (S := S5000x1) zero_offsets, View.ld_unit_zero (S := S1x64) zero_offsets]

/-- First tile, accumulator 6: zeros, then the tile's weighted column sums added to them. -/
theorem out_A_6 (c : Dev nD) (i : grid2.Coords) (arg1 : Memref sig .tc .vmem S5000x64 .f32) (harg1 : arg1.IsWhole) (arg2 : Memref sig .tc .vmem S5000x1 .i32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (hc0 : cond2_0 i) (x0 : Vec F S5000x64 .f32) (x1 : Vec F S5000x1 .i32) (x2 : Vec F S5000x1 .f32) :
    out2_A_6 c i arg1 harg1 arg2 harg2 arg3 harg3 arg4 harg4 arg5 harg5 arg6 harg6 arg7 harg7 hc0 x0 x1 x2 = k2_pay1 (k2_pay7 x1 x2) (k2_pay5 (F := F)) := by
  unfold out2_A_6
  rw [View.read_writes_eq_canon _ _ _ (cover2_A_6 c i arg1 harg1 arg2 harg2 arg3 harg3 arg4 harg4 arg5 harg5 arg6 harg6 arg7 harg7 hc0 x0 x1 x2)]
  unfold kernelRun2_A
  dsimp only
  sl_unfold_words
  rw [View.canon_cons_unit_zero (S := S1x64) zero_offsets]
  simp only [View.readAt_eq_ld, harg2.read_unread, harg3.read_unread, View.ld_unit_zero (S := S5000x1) zero_offsets, View.readCov_unit_zero (S := S1x64) _ zero_offsets]

/-- Later tiles, accumulator 6: the tile's weighted column sums added to the running contents. -/
theorem out_B_6 (c : Dev nD) (i : grid2.Coords) (arg1 : Memref sig .tc .vmem S5000x64 .f32) (harg1 : arg1.IsWhole) (arg2 : Memref sig .tc .vmem S5000x1 .i32) (harg2 : arg2.IsWhole) (arg3 : Memref sig .tc .vmem S5000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (x0 : Vec F S5000x64 .f32) (x1 : Vec F S5000x1 .i32) (x2 : Vec F S5000x1 .f32) (xo3 : Vec F S64x64 .f32) (xo4 : Vec F S64x64 .f32) (xo5 : Vec F S1x64 .f32) (xo6 : Vec F S1x64 .f32) :
    out2_B_6 c i arg1 harg1 arg2 harg2 arg3 harg3 arg4 harg4 arg5 harg5 arg6 harg6 arg7 harg7 hc0 x0 x1 x2 xo3 xo4 xo5 xo6 = k2_pay1 (k2_pay7 x1 x2) xo6 := by
  unfold out2_B_6
  rw [View.read_writes_eq_canon _ _ _ (cover2_B_6 c i arg1 harg1 arg2 harg2 arg3 harg3 arg4 harg4 arg5 harg5 arg6 harg6 arg7 harg7 hc0 x0 x1 x2 xo3 xo4 xo5 xo6)]
  unfold kernelRun2_B
  dsimp only
  sl_unfold_words
  rw [View.canon_unit_zero (S := S1x64) zero_offsets]
  simp only [View.readAt_eq_ld, harg2.read_unread, harg3.read_unread, harg7.read_unread, View.ld_unit_zero (S := S5000x1) zero_offsets, View.ld_unit_zero (S := S1x64) zero_offsets]

/-! ## The four result arrays after the run

Each accumulator's window is the whole result array and is written back at the last tile only, so the array ends
holding what the body left in the accumulator at that tile. -/

/-- The last node tile (of twenty). -/
abbrev lastTile : Fin cfg2.N := ⟨19, by rw [show cfg2.N = 20 from N_2]; decide⟩

/-- The one write-back of accumulator 3 happens at the last tile, and its block — the whole [64, 64] array through zero
    offsets — read off the accumulator's contents is those contents. -/
theorem written_back_3 (V : (c : Dev nD) → (b : Ref sig .tc) → Buf (Elt F) ((c : Thread nD τ).loc b)) (c : Dev nD) (t : Fin cfg2.N) (hf : (cfg2.win 3).flush t = true) :
    (dat2 V c).flushed 3 t = ((cfg2.win 3).blk t).view.read (Elt F) ((outsAt2 V c 19 lastTile.isLt).1) := by
  have hN : cfg2.N = 20 := N_2
  have hmod := (flush2_3 t).mp hf
  have hlt := t.isLt
  obtain rfl : t = lastTile := Fin.ext (by show t.val = 19; omega)
  show (cfg2.win 3).cut (grid2.coords lastTile) ((dat2 V c).after 3 lastTile) = _
  rw [after2_3]
  have hoff : (fun a => win2_3.index lastTile a * main_v78_0.ty.shape.size a) = fun _ => 0 :=
    funext fun a => by fin_cases a <;> decide +kernel
  exact (Memref.read_access_unit_zero (Elt F) main_v78_0 hoff (fun a => by rw [congrFun hoff a]; simp)
    ((outsAt2 V c 19 lastTile.isLt).1)).symm

/-- So the first result array ends at accumulator 3's contents after the last tile: that tile's block covers every index. -/
theorem final2_3 (V : (c : Dev nD) → (b : Ref sig .tc) → Buf (Elt F) ((c : Thread nD τ).loc b)) (c : Dev nD) :
    (dat2 V c).arrAt 3 cfg2.N = (outsAt2 V c 19 (by rw [show cfg2.N = 20 from N_2]; decide)).1 := by
  refine (dat2 V c).arrAt_eq_of_cover 3 ((outsAt2 V c 19 lastTile.isLt).1) (written_back_3 V c) fun i => ?_
  refine ⟨lastTile, (flush2_3 lastTile).mpr rfl, ?_⟩
  show i ∈ ((View.whole main_v78_0).slice (win2_3.rect lastTile)).set
  rw [View.set_slice_whole, Rect.mem_set_unit]
  have b0 : (i 0 : Nat) < 64 := (i 0).isLt
  have b1 : (i 1 : Nat) < 64 := (i 1).isLt
  have o0 : win2_3.index lastTile 0 * win2_3.size 0 = 0 := by decide +kernel
  have o1 : win2_3.index lastTile 1 * win2_3.size 1 = 0 := by decide +kernel
  have e0 : win2_3.xsize (grid2.coords lastTile) 0 = 64 := by decide +kernel
  have e1 : win2_3.xsize (grid2.coords lastTile) 1 = 64 := by decide +kernel
  refine Fin.forall_fin_two.mpr ⟨?_, ?_⟩
  · show win2_3.index lastTile 0 * win2_3.size 0 ≤ (i 0 : Nat)
      ∧ (i 0 : Nat) < win2_3.index lastTile 0 * win2_3.size 0 + win2_3.xsize (grid2.coords lastTile) 0
    rw [o0, e0]; omega
  · show win2_3.index lastTile 1 * win2_3.size 1 ≤ (i 1 : Nat)
      ∧ (i 1 : Nat) < win2_3.index lastTile 1 * win2_3.size 1 + win2_3.xsize (grid2.coords lastTile) 1
    rw [o1, e1]; omega

/-- The one write-back of accumulator 4: at the last tile, the whole [64, 64] array. -/
theorem written_back_4 (V : (c : Dev nD) → (b : Ref sig .tc) → Buf (Elt F) ((c : Thread nD τ).loc b)) (c : Dev nD) (t : Fin cfg2.N) (hf : (cfg2.win 4).flush t = true) :
    (dat2 V c).flushed 4 t = ((cfg2.win 4).blk t).view.read (Elt F) ((outsAt2 V c 19 lastTile.isLt).2.1) := by
  have hN : cfg2.N = 20 := N_2
  have hmod := (flush2_4 t).mp hf
  have hlt := t.isLt
  obtain rfl : t = lastTile := Fin.ext (by show t.val = 19; omega)
  show (cfg2.win 4).cut (grid2.coords lastTile) ((dat2 V c).after 4 lastTile) = _
  rw [after2_4]
  have hoff : (fun a => win2_4.index lastTile a * main_v78_1.ty.shape.size a) = fun _ => 0 :=
    funext fun a => by fin_cases a <;> decide +kernel
  exact (Memref.read_access_unit_zero (Elt F) main_v78_1 hoff (fun a => by rw [congrFun hoff a]; simp)
    ((outsAt2 V c 19 lastTile.isLt).2.1)).symm

/-- The second result array ends at accumulator 4's contents after the last tile. -/
theorem final2_4 (V : (c : Dev nD) → (b : Ref sig .tc) → Buf (Elt F) ((c : Thread nD τ).loc b)) (c : Dev nD) :
    (dat2 V c).arrAt 4 cfg2.N = (outsAt2 V c 19 (by rw [show cfg2.N = 20 from N_2]; decide)).2.1 := by
  refine (dat2 V c).arrAt_eq_of_cover 4 ((outsAt2 V c 19 lastTile.isLt).2.1) (written_back_4 V c) fun i => ?_
  refine ⟨lastTile, (flush2_4 lastTile).mpr rfl, ?_⟩
  show i ∈ ((View.whole main_v78_1).slice (win2_4.rect lastTile)).set
  rw [View.set_slice_whole, Rect.mem_set_unit]
  have b0 : (i 0 : Nat) < 64 := (i 0).isLt
  have b1 : (i 1 : Nat) < 64 := (i 1).isLt
  have o0 : win2_4.index lastTile 0 * win2_4.size 0 = 0 := by decide +kernel
  have o1 : win2_4.index lastTile 1 * win2_4.size 1 = 0 := by decide +kernel
  have e0 : win2_4.xsize (grid2.coords lastTile) 0 = 64 := by decide +kernel
  have e1 : win2_4.xsize (grid2.coords lastTile) 1 = 64 := by decide +kernel
  refine Fin.forall_fin_two.mpr ⟨?_, ?_⟩
  · show win2_4.index lastTile 0 * win2_4.size 0 ≤ (i 0 : Nat)
      ∧ (i 0 : Nat) < win2_4.index lastTile 0 * win2_4.size 0 + win2_4.xsize (grid2.coords lastTile) 0
    rw [o0, e0]; omega
  · show win2_4.index lastTile 1 * win2_4.size 1 ≤ (i 1 : Nat)
      ∧ (i 1 : Nat) < win2_4.index lastTile 1 * win2_4.size 1 + win2_4.xsize (grid2.coords lastTile) 1
    rw [o1, e1]; omega

/-- The one write-back of accumulator 5: at the last tile, the whole [1, 64] array. -/
theorem written_back_5 (V : (c : Dev nD) → (b : Ref sig .tc) → Buf (Elt F) ((c : Thread nD τ).loc b)) (c : Dev nD) (t : Fin cfg2.N) (hf : (cfg2.win 5).flush t = true) :
    (dat2 V c).flushed 5 t = ((cfg2.win 5).blk t).view.read (Elt F) ((outsAt2 V c 19 lastTile.isLt).2.2.1) := by
  have hN : cfg2.N = 20 := N_2
  have hmod := (flush2_5 t).mp hf
  have hlt := t.isLt
  obtain rfl : t = lastTile := Fin.ext (by show t.val = 19; omega)
  show (cfg2.win 5).cut (grid2.coords lastTile) ((dat2 V c).after 5 lastTile) = _
  rw [after2_5]
  have hoff : (fun a => win2_5.index lastTile a * main_v78_2.ty.shape.size a) = fun _ => 0 :=
    funext fun a => by fin_cases a <;> decide +kernel
  exact (Memref.read_access_unit_zero (Elt F) main_v78_2 hoff (fun a => by rw [congrFun hoff a]; simp)
    ((outsAt2 V c 19 lastTile.isLt).2.2.1)).symm

/-- The third result array ends at accumulator 5's contents after the last tile. -/
theorem final2_5 (V : (c : Dev nD) → (b : Ref sig .tc) → Buf (Elt F) ((c : Thread nD τ).loc b)) (c : Dev nD) :
    (dat2 V c).arrAt 5 cfg2.N = (outsAt2 V c 19 (by rw [show cfg2.N = 20 from N_2]; decide)).2.2.1 := by
  refine (dat2 V c).arrAt_eq_of_cover 5 ((outsAt2 V c 19 lastTile.isLt).2.2.1) (written_back_5 V c) fun i => ?_
  refine ⟨lastTile, (flush2_5 lastTile).mpr rfl, ?_⟩
  show i ∈ ((View.whole main_v78_2).slice (win2_5.rect lastTile)).set
  rw [View.set_slice_whole, Rect.mem_set_unit]
  have b0 : (i 0 : Nat) < 1 := (i 0).isLt
  have b1 : (i 1 : Nat) < 64 := (i 1).isLt
  have o0 : win2_5.index lastTile 0 * win2_5.size 0 = 0 := by decide +kernel
  have o1 : win2_5.index lastTile 1 * win2_5.size 1 = 0 := by decide +kernel
  have e0 : win2_5.xsize (grid2.coords lastTile) 0 = 1 := by decide +kernel
  have e1 : win2_5.xsize (grid2.coords lastTile) 1 = 64 := by decide +kernel
  refine Fin.forall_fin_two.mpr ⟨?_, ?_⟩
  · show win2_5.index lastTile 0 * win2_5.size 0 ≤ (i 0 : Nat)
      ∧ (i 0 : Nat) < win2_5.index lastTile 0 * win2_5.size 0 + win2_5.xsize (grid2.coords lastTile) 0
    rw [o0, e0]; omega
  · show win2_5.index lastTile 1 * win2_5.size 1 ≤ (i 1 : Nat)
      ∧ (i 1 : Nat) < win2_5.index lastTile 1 * win2_5.size 1 + win2_5.xsize (grid2.coords lastTile) 1
    rw [o1, e1]; omega

/-- The one write-back of accumulator 6: at the last tile, the whole [1, 64] array. -/
theorem written_back_6 (V : (c : Dev nD) → (b : Ref sig .tc) → Buf (Elt F) ((c : Thread nD τ).loc b)) (c : Dev nD) (t : Fin cfg2.N) (hf : (cfg2.win 6).flush t = true) :
    (dat2 V c).flushed 6 t = ((cfg2.win 6).blk t).view.read (Elt F) ((outsAt2 V c 19 lastTile.isLt).2.2.2) := by
  have hN : cfg2.N = 20 := N_2
  have hmod := (flush2_6 t).mp hf
  have hlt := t.isLt
  obtain rfl : t = lastTile := Fin.ext (by show t.val = 19; omega)
  show (cfg2.win 6).cut (grid2.coords lastTile) ((dat2 V c).after 6 lastTile) = _
  rw [after2_6]
  have hoff : (fun a => win2_6.index lastTile a * main_v78_3.ty.shape.size a) = fun _ => 0 :=
    funext fun a => by fin_cases a <;> decide +kernel
  exact (Memref.read_access_unit_zero (Elt F) main_v78_3 hoff (fun a => by rw [congrFun hoff a]; simp)
    ((outsAt2 V c 19 lastTile.isLt).2.2.2)).symm

/-- The fourth result array ends at accumulator 6's contents after the last tile. -/
theorem final2_6 (V : (c : Dev nD) → (b : Ref sig .tc) → Buf (Elt F) ((c : Thread nD τ).loc b)) (c : Dev nD) :
    (dat2 V c).arrAt 6 cfg2.N = (outsAt2 V c 19 (by rw [show cfg2.N = 20 from N_2]; decide)).2.2.2 := by
  refine (dat2 V c).arrAt_eq_of_cover 6 ((outsAt2 V c 19 lastTile.isLt).2.2.2) (written_back_6 V c) fun i => ?_
  refine ⟨lastTile, (flush2_6 lastTile).mpr rfl, ?_⟩
  show i ∈ ((View.whole main_v78_3).slice (win2_6.rect lastTile)).set
  rw [View.set_slice_whole, Rect.mem_set_unit]
  have b0 : (i 0 : Nat) < 1 := (i 0).isLt
  have b1 : (i 1 : Nat) < 64 := (i 1).isLt
  have o0 : win2_6.index lastTile 0 * win2_6.size 0 = 0 := by decide +kernel
  have o1 : win2_6.index lastTile 1 * win2_6.size 1 = 0 := by decide +kernel
  have e0 : win2_6.xsize (grid2.coords lastTile) 0 = 1 := by decide +kernel
  have e1 : win2_6.xsize (grid2.coords lastTile) 1 = 64 := by decide +kernel
  refine Fin.forall_fin_two.mpr ⟨?_, ?_⟩
  · show win2_6.index lastTile 0 * win2_6.size 0 ≤ (i 0 : Nat)
      ∧ (i 0 : Nat) < win2_6.index lastTile 0 * win2_6.size 0 + win2_6.xsize (grid2.coords lastTile) 0
    rw [o0, e0]; omega
  · show win2_6.index lastTile 1 * win2_6.size 1 ≤ (i 1 : Nat)
      ∧ (i 1 : Nat) < win2_6.index lastTile 1 * win2_6.size 1 + win2_6.xsize (grid2.coords lastTile) 1
    rw [o1, e1]; omega

end Cert.Bridge

end
-- ==== Proof.PoolPay.lean ====
import proofs.«430206_j86543591015294_1_alg».proof.Proof.Gen.KernelIdeal.Skeleton
import proofs.«430206_j86543591015294_1_alg».proof.Proof.PoolDefs
import Idealize.ShloMosaic.Lib.Pipeline.Value
import Idealize.ShloMosaic.Lib.ValueIdx
import Idealize.ShloMosaic.Lib.ValueLayout
import Idealize.ShloMosaic.PureOps.Ideal.Laws

/-! The pooling body's arithmetic read at one element, over the exact extended reals: the one-hot of the graph words
    against the 64 graph ids, its product with the mask, and the four accumulator updates — each the previous contents
    plus the tile's sum over its 5000 nodes of the indicator-weighted term. -/

set_option maxRecDepth 16384

noncomputable section

namespace Cert.Bridge

open Cert.KernelIdeal Cert.KernelIdeal.Gen
open Idealize.ShloMosaic Idealize.ShloMosaic.ValueIdx

/-! ## The tile's arithmetic at one element -/

/-- Two words compared for equality, the one-bit answer widened to a word and read as a signed integer: the number 1
    when the words are equal, 0 when they are not. -/
theorem sitofp_cmpi_eq (w v : BitVec 32) :
    FloatOps.sitofp (F := Ideal) .f32 ((IntOp.cmpi .eq w v).setWidth 32) = if w = v then (1 : EReal) else 0 := by
  by_cases h : w = v
  · subst h
    rw [if_pos rfl]
    have e : IntOp.cmpi .eq w w = 1#1 := by
      show BitVec.ofBool (w == w) = 1#1
      rw [beq_self_eq_true]; rfl
    rw [e]
    show (((((1#1 : BitVec 1).setWidth 32).toInt : ℝ)) : EReal) = 1
    have e1 : ((1#1 : BitVec 1).setWidth 32).toInt = 1 := by decide
    rw [e1]; simp
  · rw [if_neg h]
    have e : IntOp.cmpi .eq w v = 0#1 := by
      show BitVec.ofBool (w == v) = 0#1
      rw [beq_eq_false_iff_ne.mpr h]; rfl
    rw [e]
    show (((((0#1 : BitVec 1).setWidth 32).toInt : ℝ)) : EReal) = 0
    have e0 : ((0#1 : BitVec 1).setWidth 32).toInt = 0 := by decide
    rw [e0]; simp

/-- A column of 5000 entries spread over the 64 lanes reads, at row r and any lane, the column's entry of row r. -/
theorem spread_column_apply {α : Type} (v : S5000x1.Idx → α) (h : S5000x1.Broadcasts S5000x64) (r : Fin 5000) (g : Fin 64) :
    broadcastTo S5000x64 v h (ix2 r g) = v (ix2 r (0 : Fin 1)) := by
  refine broadcastTo_apply v h (ix2 r g) (ix2 r (0 : Fin 1)) fun ax => ?_
  match ax with
  | ⟨0, _⟩ =>
    show r.val = if (5000 : ℕ) = 1 then 0 else r.val
    rw [if_neg (by decide)]
  | ⟨1, _⟩ =>
    show (0 : ℕ) = if (1 : ℕ) = 1 then 0 else g.val
    rw [if_pos rfl]

/-- The lane numbers 0 … 63 spread over the 5000 rows read, at any row and lane g, the word of g. -/
theorem lane_word_apply (h : S1x64.Broadcasts S5000x64) (r : Fin 5000) (g : Fin 64) :
    broadcastTo S5000x64 (iota .tc S1x64 32 [1] iota_S1x64_d1_w32) h (ix2 r g) = BitVec.ofNat 32 g.val := by
  rw [broadcastTo_1b_ab_apply, iota_single_apply]

/-- The membership weights of a tile: at row r and lane g, 1 when the row's graph word names g and 0 otherwise. -/
theorem pay6_apply (x1 : Vec Ideal S5000x1 .i32) (r : Fin 5000) (g : Fin 64) :
    k2_pay6 (F := Ideal) x1 (ix2 r g) = oh (x1 (ix2 r (0 : Fin 1))) g := by
  unfold k2_pay6
  show FloatOps.sitofp (F := Ideal) .f32 ((IntOp.cmpi .eq
      (broadcastTo S5000x64 (shapeCast S5000x1 x1 shapeCasts_S5000x1_S5000x1) broadcasts_S5000x1_S5000x64 (ix2 r g))
      (broadcastTo S5000x64 (iota .tc S1x64 32 [1] iota_S1x64_d1_w32) broadcasts_S1x64_S5000x64 (ix2 r g))).setWidth 32) = _
  rw [sitofp_cmpi_eq, spread_column_apply, lane_word_apply, shapeCast_self]
  rfl

/-- The masked weights of a tile: the membership weight times the row's mask entry. -/
theorem pay7_apply (x1 : Vec Ideal S5000x1 .i32) (x2 : Vec Ideal S5000x1 .f32) (r : Fin 5000) (g : Fin 64) :
    k2_pay7 (F := Ideal) x1 x2 (ix2 r g) = oh (x1 (ix2 r (0 : Fin 1))) g * x2 (ix2 r (0 : Fin 1)) := by
  unfold k2_pay7
  show mulf (F := Ideal) (k2_pay6 (F := Ideal) x1)
      (broadcastTo S5000x64 (shapeCast S5000x1 (x2 : FVec Ideal S5000x1 .f32) shapeCasts_S5000x1_S5000x1) broadcasts_S5000x1_S5000x64) (ix2 r g) = _
  rw [mulf_apply, pay6_apply, spread_column_apply, shapeCast_self]

/-- The feature tile enters the products unchanged: narrowing the format does nothing to an extended real. -/
theorem pay8_apply (x0 : Vec Ideal S5000x64 .f32) (i : S5000x64.Idx) :
    k2_pay8 (F := Ideal) x0 i = x0 i := by
  unfold k2_pay8
  show truncf (F := Ideal) .bf16 (shapeCast S5000x64 (x0 : FVec Ideal S5000x64 .f32) shapeCasts_S5000x64_S5000x64) bitsLt_bf16_f32 i = _
  rw [truncf_apply, shapeCast_self]

/-! The product of two [5000, 64] tiles contracted over their rows: the four coordinate facts of its operand indices. -/

theorem lhs_pool_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
theorem lhs_pool_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
theorem rhs_pool_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
theorem rhs_pool_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- That product into the zero block: at (g, d) the sum over the 5000 rows of the left tile's column g times the
    right tile's column d. -/
theorem tile_product_apply (a b : FVec Ideal S5000x64 .bf16) (g d : Fin 64) :
    matmul (F := Ideal) dot_S5000x64_S5000x64_S64x64_0_0_1_1_n_n none a b (constant (F := Ideal) S64x64 .f32 0x00000000#32) (ix2 g d)
      = ∑ r : Fin 5000, a (ix2 r g) * b (ix2 r d) := by
  simp only [matmul]
  rw [Ideal.matmul_constant_zero_apply, ← Equiv.sum_comp (ValueIdx.contrEquiv1 dot_S5000x64_S5000x64_S64x64_0_0_1_1_n_n 5000 rfl rfl).symm]
  refine Finset.sum_congr rfl fun k _ => ?_
  have hk := ValueIdx.contrEquiv1_symm_val dot_S5000x64_S5000x64_S64x64_0_0_1_1_n_n 5000 rfl rfl k
  have el : dot_S5000x64_S5000x64_S64x64_0_0_1_1_n_n.lhsIdx (ix2 g d) ((ValueIdx.contrEquiv1 dot_S5000x64_S5000x64_S64x64_0_0_1_1_n_n 5000 rfl rfl).symm k) = ix2 k g := funext fun ax => Fin.ext (by
    match ax with
    | ⟨0, _⟩ => exact (lhs_pool_0 _ _).trans hk
    | ⟨1, _⟩ => exact lhs_pool_1 _ _)
  have er : dot_S5000x64_S5000x64_S64x64_0_0_1_1_n_n.rhsIdx (ix2 g d) ((ValueIdx.contrEquiv1 dot_S5000x64_S5000x64_S64x64_0_0_1_1_n_n 5000 rfl rfl).symm k) = ix2 k d := funext fun ax => Fin.ext (by
    match ax with
    | ⟨0, _⟩ => exact (rhs_pool_0 _ _).trans hk
    | ⟨1, _⟩ => exact rhs_pool_1 _ _)
  rw [el, er]

/-- The first accumulator's update: what it held plus, at (g, d), the tile's sum of membership weight times feature. -/
theorem pay9_apply (x0 : Vec Ideal S5000x64 .f32) (x1 : Vec Ideal S5000x1 .i32) (acc : Vec Ideal S64x64 .f32) (g d : Fin 64) :
    k2_pay9 (F := Ideal) x0 x1 acc (ix2 g d)
      = acc (ix2 g d) + ∑ r : Fin 5000, oh (x1 (ix2 r (0 : Fin 1))) g * x0 (ix2 r d) := by
  unfold k2_pay9
  show addf (F := Ideal) (shapeCast S64x64 (acc : FVec Ideal S64x64 .f32) shapeCasts_S64x64_S64x64)
      (matmul (F := Ideal) dot_S5000x64_S5000x64_S64x64_0_0_1_1_n_n none (truncf (F := Ideal) .bf16 (k2_pay6 (F := Ideal) x1) bitsLt_bf16_f32)
        (k2_pay8 (F := Ideal) x0) (constant (F := Ideal) S64x64 .f32 0x00000000#32)) (ix2 g d) = _
  rw [addf_apply, shapeCast_self, tile_product_apply]
  refine congrArg (acc (ix2 g d) + ·) (Finset.sum_congr rfl fun r _ => ?_)
  rw [truncf_apply, pay6_apply, pay8_apply]

/-- The second accumulator's update: the same with the masked weights. -/
theorem pay10_apply (x0 : Vec Ideal S5000x64 .f32) (x1 : Vec Ideal S5000x1 .i32) (x2 : Vec Ideal S5000x1 .f32)
    (acc : Vec Ideal S64x64 .f32) (g d : Fin 64) :
    k2_pay10 (F := Ideal) x0 x1 x2 acc (ix2 g d)
      = acc (ix2 g d) + ∑ r : Fin 5000, (oh (x1 (ix2 r (0 : Fin 1))) g * x2 (ix2 r (0 : Fin 1))) * x0 (ix2 r d) := by
  unfold k2_pay10
  show addf (F := Ideal) (shapeCast S64x64 (acc : FVec Ideal S64x64 .f32) shapeCasts_S64x64_S64x64)
      (matmul (F := Ideal) dot_S5000x64_S5000x64_S64x64_0_0_1_1_n_n none (truncf (F := Ideal) .bf16 (k2_pay7 (F := Ideal) x1 x2) bitsLt_bf16_f32)
        (k2_pay8 (F := Ideal) x0) (constant (F := Ideal) S64x64 .f32 0x00000000#32)) (ix2 g d) = _
  rw [addf_apply, shapeCast_self, tile_product_apply]
  refine congrArg (acc (ix2 g d) + ·) (Finset.sum_congr rfl fun r _ => ?_)
  rw [truncf_apply, pay7_apply, pay8_apply]

/-- The source index of a sum down the rows: lane g with row r put back is (r, g). -/
theorem lift_row (g : Fin 64) (r : Fin 5000) : reduces_S5000x64_S64.lift (ix1 g) r = ix2 r g :=
  funext fun ax => Fin.ext (by
    match ax with
    | ⟨0, _⟩ => rfl
    | ⟨1, _⟩ => rfl)

/-- A [5000, 64] tile summed down its rows, laid out as one row of 64 and added to a [1, 64] accumulator: at lane g
    what the accumulator held plus the sum of the tile's column g. -/
theorem colsum_add_apply (v : FVec Ideal S5000x64 .f32) (acc : Vec Ideal S1x64 .f32) (g : Fin 64) :
    addf (F := Ideal) (shapeCast S1x64 (acc : FVec Ideal S1x64 .f32) shapeCasts_S1x64_S1x64)
      (shapeCast S1x64 (multiReduction (F := Ideal) .add [0] S64 v 0x00000000#32 reduces_S5000x64_S64 (.inl rfl) rfl) shapeCasts_S64_S1x64)
      (ix2 (0 : Fin 1) g) = acc (ix2 (0 : Fin 1) g) + ∑ r : Fin 5000, v (ix2 r g) := by
  rw [addf_apply, shapeCast_self, shapeCast_a_1a_apply]
  refine congrArg (acc (ix2 (0 : Fin 1) g) + ·) ?_
  refine (Ideal.multiReduction_add_single v 0x00000000#32 reduces_S5000x64_S64 (.inl rfl) rfl (ix1 g)).trans ?_
  exact Finset.sum_congr rfl fun r _ => congrArg v (lift_row g r)

/-- The fourth accumulator's update, over any tile of weights. -/
theorem pay1_any_apply (v : FVec Ideal S5000x64 .f32) (acc : Vec Ideal S1x64 .f32) (g : Fin 64) :
    k2_pay1 (F := Ideal) v acc (ix2 (0 : Fin 1) g) = acc (ix2 (0 : Fin 1) g) + ∑ r : Fin 5000, v (ix2 r g) := by
  unfold k2_pay1
  exact colsum_add_apply v acc g

/-- The fourth accumulator's update: what it held plus, at lane g, the tile's sum of the masked weights. -/
theorem pay1_apply (x1 : Vec Ideal S5000x1 .i32) (x2 : Vec Ideal S5000x1 .f32) (acc : Vec Ideal S1x64 .f32) (g : Fin 64) :
    k2_pay1 (F := Ideal) (k2_pay7 (F := Ideal) x1 x2) acc (ix2 (0 : Fin 1) g)
      = acc (ix2 (0 : Fin 1) g) + ∑ r : Fin 5000, oh (x1 (ix2 r (0 : Fin 1))) g * x2 (ix2 r (0 : Fin 1)) :=
  (pay1_any_apply (k2_pay7 (F := Ideal) x1 x2) acc g).trans
    (congrArg (acc (ix2 (0 : Fin 1) g) + ·) (Finset.sum_congr rfl fun r _ => pay7_apply x1 x2 r g))

/-- The third accumulator's update: what it held plus, at lane g, the number of the tile's rows whose word names g. -/
theorem pay11_apply (x1 : Vec Ideal S5000x1 .i32) (acc : Vec Ideal S1x64 .f32) (g : Fin 64) :
    k2_pay11 (F := Ideal) x1 acc (ix2 (0 : Fin 1) g)
      = acc (ix2 (0 : Fin 1) g) + ∑ r : Fin 5000, oh (x1 (ix2 r (0 : Fin 1))) g := by
  unfold k2_pay11
  refine (colsum_add_apply (k2_pay6 (F := Ideal) x1) acc g).trans ?_
  exact congrArg (acc (ix2 (0 : Fin 1) g) + ·) (Finset.sum_congr rfl fun r _ => pay6_apply x1 r g)

/-- The four reset blocks are zero everywhere. -/
theorem pay2_apply (g d : Fin 64) : k2_pay2 (F := Ideal) (ix2 g d) = 0 := Ideal.ofBits_zero_f32
theorem pay3_apply (g d : Fin 64) : k2_pay3 (F := Ideal) (ix2 g d) = 0 := Ideal.ofBits_zero_f32
theorem pay4_apply (g : Fin 64) : k2_pay4 (F := Ideal) (ix2 (0 : Fin 1) g) = 0 := Ideal.ofBits_zero_f32
theorem pay5_apply (g : Fin 64) : k2_pay5 (F := Ideal) (ix2 (0 : Fin 1) g) = 0 := Ideal.ofBits_zero_f32

end Cert.Bridge

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.PoolBody.lean ====
import proofs.«430206_j86543591015294_1_alg».proof.Proof.Gen.KernelIdeal.Frame
import proofs.«430206_j86543591015294_1_alg».proof.Proof.PoolDefs
import proofs.«430206_j86543591015294_1_alg».proof.Proof.PoolCases
import proofs.«430206_j86543591015294_1_alg».proof.Proof.PoolPay
import proofs.«430206_j86543591015294_1_alg».proof.Proof.LibTileSums
import Idealize.ShloMosaic.Lib.Pipeline.Value
import Idealize.ShloMosaic.Lib.ValueIdx
import Idealize.ShloMosaic.PureOps.Ideal.Laws

/-! The pooling region read as values: after the twenty node tiles each of the four result arrays holds, at graph g
    (and feature d), the sum over all 100000 nodes of the node's term weighted by the indicator that the node's graph
    word is g. -/
set_option maxRecDepth 16384

noncomputable section

namespace Cert.Bridge

open Idealize.ShloMosaic Idealize.ShloMosaic.TcCoe Idealize.ShloMosaic.ValueIdx Idealize.SL.Sem
open Idealize.ShloMosaic.Pipeline (Dat)

section

open Cert.KernelIdeal Cert.KernelIdeal.Gen

variable (V : (c : Dev nD) → (b : Ref sig .tc) → Buf (Elt Ideal) ((c : Thread nD τ).loc b))

/-! ## The tiles' blocks are runs of rows of the node arrays -/

/-- Tile t's block of the node features: 5000 rows of 64. -/
abbrev pb_hblk (c : Dev nD) (t : Fin cfg2.N) : Vec Ideal S5000x64 .f32 := iblk2 V c 0 t
/-- Tile t's block of the graph words: a column of 5000. -/
abbrev pb_wblk (c : Dev nD) (t : Fin cfg2.N) : Vec Ideal S5000x1 .i32 := iblk2 V c 1 t
/-- Tile t's block of the mask: a column of 5000. -/
abbrev pb_mblk (c : Dev nD) (t : Fin cfg2.N) : Vec Ideal S5000x1 .f32 := iblk2 V c 2 t

/-- For each of the three node arrays, tile t reads block (t, 0): the t-th run of rows, the one block of columns. -/
theorem pb_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0)

/-- Row r of tile t is node 5000 t + r, one of the 100000 nodes. -/
theorem pb_row_lt (t : Fin cfg2.N) (r : Fin 5000) : t.val * 5000 + r.val < 100000 := by
  have hN : t.val < 20 := lt_of_lt_of_eq t.isLt (show cfg2.N = 20 from N_2)
  have := r.isLt
  omega

/-- The feature block of tile t at (r, d) is the feature array at node 5000 t + r, feature d: an element of a block
    sits, on each axis, at the block's index times the block's size plus its own coordinate. -/
theorem pb_hblk_apply (c : Dev nD) (t : Fin cfg2.N) (r : Fin 5000) (d : Fin 64) :
    pb_hblk V c t (ix2 r d) = V c main_v65 (ix2 ⟨t.val * 5000 + r.val, pb_row_lt t r⟩ d) := by
  show iblk2 V c 0 t (ix2 r d) = _
  unfold iblk2
  rw [View.read_apply]
  show V c main_v65 _ = V c main_v65 _
  refine congrArg (V c main_v65) (funext fun a => Fin.ext ?_)
  match a with
  | ⟨0, _⟩ =>
    show win2_0.index t (0 : Fin 2) * 5000 + 1 * r.val = t.val * 5000 + r.val
    rw [(pb_idx t).1]; omega
  | ⟨1, _⟩ =>
    show win2_0.index t (1 : Fin 2) * 64 + 1 * d.val = d.val
    rw [(pb_idx t).2.1]; omega

/-- The word block of tile t at row r is the graph word of node 5000 t + r. -/
theorem pb_wblk_apply (c : Dev nD) (t : Fin cfg2.N) (r : Fin 5000) :
    pb_wblk V c t (ix2 r (0 : Fin 1)) = V c main_v76 (ix2 ⟨t.val * 5000 + r.val, pb_row_lt t r⟩ (0 : Fin 1)) := by
  show iblk2 V c 1 t (ix2 r (0 : Fin 1)) = _
  unfold iblk2
  rw [View.read_apply]
  show V c main_v76 _ = V c main_v76 _
  refine congrArg (V c main_v76) (funext fun a => Fin.ext ?_)
  match a with
  | ⟨0, _⟩ =>
    show win2_1.index t (0 : Fin 2) * 5000 + 1 * r.val = t.val * 5000 + r.val
    rw [(pb_idx t).2.2.1]; omega
  | ⟨1, _⟩ =>
    show win2_1.index t (1 : Fin 2) * 1 + 1 * 0 = 0
    rw [(pb_idx t).2.2.2.1]

/-- The mask block of tile t at row r is the mask entry of node 5000 t + r. -/
theorem pb_mblk_apply (c : Dev nD) (t : Fin cfg2.N) (r : Fin 5000) :
    pb_mblk V c t (ix2 r (0 : Fin 1)) = V c main_v77 (ix2 ⟨t.val * 5000 + r.val, pb_row_lt t r⟩ (0 : Fin 1)) := by
  show iblk2 V c 2 t (ix2 r (0 : Fin 1)) = _
  unfold iblk2
  rw [View.read_apply]
  show V c main_v77 _ = V c main_v77 _
  refine congrArg (V c main_v77) (funext fun a => Fin.ext ?_)
  match a with
  | ⟨0, _⟩ =>
    show win2_2.index t (0 : Fin 2) * 5000 + 1 * r.val = t.val * 5000 + r.val
    rw [(pb_idx t).2.2.2.2.1]; omega
  | ⟨1, _⟩ =>
    show win2_2.index t (1 : Fin 2) * 1 + 1 * 0 = 0
    rw [(pb_idx t).2.2.2.2.2]

/-! ## One tile's share of a sum over the nodes -/

/-- The node's term of the plain pooled sum: its feature d, counted when its graph word names g. -/
abbrev pb_f3 (c : Dev nD) (g d : Fin 64) (n : Fin 100000) : EReal :=
  oh (V c main_v76 (ix2 n (0 : Fin 1))) g * V c main_v65 (ix2 n d)

/-- The node's term of the masked pooled sum: the same, weighted by the node's mask entry. -/
abbrev pb_f4 (c : Dev nD) (g d : Fin 64) (n : Fin 100000) : EReal :=
  (oh (V c main_v76 (ix2 n (0 : Fin 1))) g * V c main_v77 (ix2 n (0 : Fin 1))) * V c main_v65 (ix2 n d)

/-- The sum of a node term over the 5000 nodes of tile k (nothing beyond the twenty tiles). -/
def pb_tile (f : Fin 100000 → EReal) (k : ℕ) : EReal :=
  if hk : k < 20 then ∑ r : Fin 5000, f ⟨k * 5000 + r.val, LibTileSums.tile_lt (A := 20) (B := 5000) rfl ⟨k, hk⟩ r⟩ else 0

/-- The twenty tile sums add up to the sum over all 100000 nodes. -/
theorem pb_tiles_sum (f : Fin 100000 → EReal) : ∑ k : Fin (19 + 1), pb_tile f k.val = ∑ n : Fin 100000, f n := by
  show ∑ k : Fin 20, pb_tile f k.val = _
  rw [← LibTileSums.sum_tiles (A := 20) (B := 5000) (n := 100000) rfl f]
  refine Finset.sum_congr rfl fun k _ => ?_
  unfold pb_tile
  rw [dif_pos k.isLt]

/-- Tile t's sum of membership weight times feature, read off the tile's blocks, is tile t's share of the plain sum. -/
theorem pb_tile3 (c : Dev nD) (t : Fin cfg2.N) (g d : Fin 64) :
    ∑ r : Fin 5000, oh (pb_wblk V c t (ix2 r (0 : Fin 1))) g * pb_hblk V c t (ix2 r d) = pb_tile (pb_f3 V c g d) t.val := by
  have hN : t.val < 20 := lt_of_lt_of_eq t.isLt (show cfg2.N = 20 from N_2)
  unfold pb_tile
  rw [dif_pos hN]
  refine Finset.sum_congr rfl fun r _ => ?_
  rw [pb_wblk_apply, pb_hblk_apply]

/-- The same for the masked weights. -/
theorem pb_tile4 (c : Dev nD) (t : Fin cfg2.N) (g d : Fin 64) :
    ∑ r : Fin 5000, (oh (pb_wblk V c t (ix2 r (0 : Fin 1))) g * pb_mblk V c t (ix2 r (0 : Fin 1))) * pb_hblk V c t (ix2 r d)
      = pb_tile (pb_f4 V c g d) t.val := by
  have hN : t.val < 20 := lt_of_lt_of_eq t.isLt (show cfg2.N = 20 from N_2)
  unfold pb_tile
  rw [dif_pos hN]
  refine Finset.sum_congr rfl fun r _ => ?_
  rw [pb_wblk_apply, pb_mblk_apply, pb_hblk_apply]

/-! ## What the two [64, 64] accumulators hold after each tile -/

/-- At the first tile the plain accumulator is reset and then holds zero plus the tile's sum. -/
theorem pb_out3_A (c : Dev nD) (t : Fin cfg2.N) (h0 : t.val % 20 = 0) (g d : Fin 64) :
    (outsAt2 V c t.val t.isLt).1 (ix2 g d)
      = 0 + ∑ r : Fin 5000, oh (pb_wblk V c t (ix2 r (0 : Fin 1))) g * pb_hblk V c t (ix2 r d) := by
  rw [outsAt2_A V c t h0]
  dsimp only
  refine (congrFun (out_A_3 (F := Ideal) c (grid2.coords t) (ms2_0 t) (hs2_0 t) (ms2_1 t) (hs2_1 t) (ms2_2 t) (hs2_2 t)
      (ms2_3 t) (hs2_3 t) (ms2_4 t) (hs2_4 t) (ms2_5 t) (hs2_5 t) (ms2_6 t) (hs2_6 t) ((hcond2_0 t).mpr h0)
      (pb_hblk V c t) (pb_wblk V c t) (pb_mblk V c t)) (ix2 g d)).trans ?_
  refine (pay9_apply (pb_hblk V c t) (pb_wblk V c t) (k2_pay2 (F := Ideal)) g d).trans ?_
  rw [pay2_apply g d]

/-- At every later tile it holds what the tile before left plus the tile's sum. -/
theorem pb_out3_B (c : Dev nD) (n : ℕ) (hn : n + 1 < cfg2.N) (g d : Fin 64) :
    (outsAt2 V c (n + 1) hn).1 (ix2 g d)
      = (outsAt2 V c n (Nat.lt_of_succ_lt hn)).1 (ix2 g d)
        + ∑ r : Fin 5000, oh (pb_wblk V c ⟨n + 1, hn⟩ (ix2 r (0 : Fin 1))) g * pb_hblk V c ⟨n + 1, hn⟩ (ix2 r d) := by
  have hN : cfg2.N = 20 := N_2
  have hB : ¬(⟨n + 1, hn⟩ : Fin cfg2.N).val % 20 = 0 := by dsimp only; omega
  rw [outsAt2_B V c ⟨n + 1, hn⟩ hB]
  dsimp only
  refine (congrFun (out_B_3 (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N))
      (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (fun h => hB ((hcond2_0 (⟨n + 1, hn⟩ : Fin cfg2.N)).mp h))
      (pb_hblk V c (⟨n + 1, hn⟩ : Fin cfg2.N)) (pb_wblk V c (⟨n + 1, hn⟩ : Fin cfg2.N)) (pb_mblk V c (⟨n + 1, hn⟩ : Fin cfg2.N))
      (outsAt2 V c n (Nat.lt_of_succ_lt hn)).1 (outsAt2 V c n (Nat.lt_of_succ_lt hn)).2.1
      (outsAt2 V c n (Nat.lt_of_succ_lt hn)).2.2.1 (outsAt2 V c n (Nat.lt_of_succ_lt hn)).2.2.2) (ix2 g d)).trans ?_
  exact pay9_apply (pb_hblk V c (⟨n + 1, hn⟩ : Fin cfg2.N)) (pb_wblk V c (⟨n + 1, hn⟩ : Fin cfg2.N)) (outsAt2 V c n (Nat.lt_of_succ_lt hn)).1 g d

/-- The masked accumulator at the first tile. -/
theorem pb_out4_A (c : Dev nD) (t : Fin cfg2.N) (h0 : t.val % 20 = 0) (g d : Fin 64) :
    (outsAt2 V c t.val t.isLt).2.1 (ix2 g d)
      = 0 + ∑ r : Fin 5000, (oh (pb_wblk V c t (ix2 r (0 : Fin 1))) g * pb_mblk V c t (ix2 r (0 : Fin 1))) * pb_hblk V c t (ix2 r d) := by
  rw [outsAt2_A V c t h0]
  dsimp only
  refine (congrFun (out_A_4 (F := Ideal) c (grid2.coords t) (ms2_0 t) (hs2_0 t) (ms2_1 t) (hs2_1 t) (ms2_2 t) (hs2_2 t)
      (ms2_3 t) (hs2_3 t) (ms2_4 t) (hs2_4 t) (ms2_5 t) (hs2_5 t) (ms2_6 t) (hs2_6 t) ((hcond2_0 t).mpr h0)
      (pb_hblk V c t) (pb_wblk V c t) (pb_mblk V c t)) (ix2 g d)).trans ?_
  refine (pay10_apply (pb_hblk V c t) (pb_wblk V c t) (pb_mblk V c t) (k2_pay3 (F := Ideal)) g d).trans ?_
  rw [pay3_apply g d]

/-- The masked accumulator at every later tile. -/
theorem pb_out4_B (c : Dev nD) (n : ℕ) (hn : n + 1 < cfg2.N) (g d : Fin 64) :
    (outsAt2 V c (n + 1) hn).2.1 (ix2 g d)
      = (outsAt2 V c n (Nat.lt_of_succ_lt hn)).2.1 (ix2 g d)
        + ∑ r : Fin 5000, (oh (pb_wblk V c ⟨n + 1, hn⟩ (ix2 r (0 : Fin 1))) g * pb_mblk V c ⟨n + 1, hn⟩ (ix2 r (0 : Fin 1)))
            * pb_hblk V c ⟨n + 1, hn⟩ (ix2 r d) := by
  have hN : cfg2.N = 20 := N_2
  have hB : ¬(⟨n + 1, hn⟩ : Fin cfg2.N).val % 20 = 0 := by dsimp only; omega
  rw [outsAt2_B V c ⟨n + 1, hn⟩ hB]
  dsimp only
  refine (congrFun (out_B_4 (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N))
      (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (fun h => hB ((hcond2_0 (⟨n + 1, hn⟩ : Fin cfg2.N)).mp h))
      (pb_hblk V c (⟨n + 1, hn⟩ : Fin cfg2.N)) (pb_wblk V c (⟨n + 1, hn⟩ : Fin cfg2.N)) (pb_mblk V c (⟨n + 1, hn⟩ : Fin cfg2.N))
      (outsAt2 V c n (Nat.lt_of_succ_lt hn)).1 (outsAt2 V c n (Nat.lt_of_succ_lt hn)).2.1
      (outsAt2 V c n (Nat.lt_of_succ_lt hn)).2.2.1 (outsAt2 V c n (Nat.lt_of_succ_lt hn)).2.2.2) (ix2 g d)).trans ?_
  exact pay10_apply (pb_hblk V c (⟨n + 1, hn⟩ : Fin cfg2.N)) (pb_wblk V c (⟨n + 1, hn⟩ : Fin cfg2.N)) (pb_mblk V c (⟨n + 1, hn⟩ : Fin cfg2.N)) (outsAt2 V c n (Nat.lt_of_succ_lt hn)).2.1 g d

/-- So after tile n the plain accumulator holds the running sum of the tile sums 0 … n: by induction on the tile. -/
theorem pb_run3 (c : Dev nD) (g d : Fin 64) : ∀ (n : ℕ) (hn : n < cfg2.N),
    (outsAt2 V c n hn).1 (ix2 g d) = LibTileSums.accum (pb_tile (pb_f3 V c g d)) n
  | 0, hn => by
    rw [LibTileSums.accum_zero]
    exact (pb_out3_A V c ⟨0, hn⟩ rfl g d).trans (congrArg (0 + ·) (pb_tile3 V c ⟨0, hn⟩ g d))
  | n + 1, hn => by
    rw [LibTileSums.accum_succ, ← pb_run3 c g d n (Nat.lt_of_succ_lt hn)]
    exact (pb_out3_B V c n hn g d).trans
      (congrArg ((outsAt2 V c n (Nat.lt_of_succ_lt hn)).1 (ix2 g d) + ·) (pb_tile3 V c ⟨n + 1, hn⟩ g d))

/-- And the masked accumulator likewise. -/
theorem pb_run4 (c : Dev nD) (g d : Fin 64) : ∀ (n : ℕ) (hn : n < cfg2.N),
    (outsAt2 V c n hn).2.1 (ix2 g d) = LibTileSums.accum (pb_tile (pb_f4 V c g d)) n
  | 0, hn => by
    rw [LibTileSums.accum_zero]
    exact (pb_out4_A V c ⟨0, hn⟩ rfl g d).trans (congrArg (0 + ·) (pb_tile4 V c ⟨0, hn⟩ g d))
  | n + 1, hn => by
    rw [LibTileSums.accum_succ, ← pb_run4 c g d n (Nat.lt_of_succ_lt hn)]
    exact (pb_out4_B V c n hn g d).trans
      (congrArg ((outsAt2 V c n (Nat.lt_of_succ_lt hn)).2.1 (ix2 g d) + ·) (pb_tile4 V c ⟨n + 1, hn⟩ g d))

end

/-- After the twenty tiles the first result array holds, at (g, d), the sum over all nodes of feature d of the nodes
    whose graph word names g: the last tile's running sum is the sum of the twenty tile sums, and the tiles partition
    the nodes. -/
theorem pool_allsum_apply (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (g d : Fin 64) :
    (Cert.KernelIdeal.Gen.dat2 V c).arrAt 3 Cert.KernelIdeal.cfg2.N (ix2 g d)
      = ∑ n : Fin 100000, oh (V c Cert.KernelIdeal.main_v76 (ix2 n (0 : Fin 1))) g * V c Cert.KernelIdeal.main_v65 (ix2 n d) := by
  refine (congrFun (final2_3 (F := Ideal) V c) (ix2 g d)).trans ?_
  rw [pb_run3 V c g d 19 _, LibTileSums.accum_eq_sum]
  exact pb_tiles_sum (pb_f3 V c g d)

/-- And the second holds the same sum with each node's term weighted by its mask entry. -/
theorem pool_entsum_apply (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (g d : Fin 64) :
    (Cert.KernelIdeal.Gen.dat2 V c).arrAt 4 Cert.KernelIdeal.cfg2.N (ix2 g d)
      = ∑ n : Fin 100000, (oh (V c Cert.KernelIdeal.main_v76 (ix2 n (0 : Fin 1))) g * V c Cert.KernelIdeal.main_v77 (ix2 n (0 : Fin 1))) * V c Cert.KernelIdeal.main_v65 (ix2 n d) := by
  refine (congrFun (final2_4 (F := Ideal) V c) (ix2 g d)).trans ?_
  rw [pb_run4 V c g d 19 _, LibTileSums.accum_eq_sum]
  exact pb_tiles_sum (pb_f4 V c g d)

end Cert.Bridge

end
-- ==== Proof.PoolBody2.lean ====
import proofs.«430206_j86543591015294_1_alg».proof.Proof.Gen.KernelIdeal.Frame
import proofs.«430206_j86543591015294_1_alg».proof.Proof.PoolDefs
import proofs.«430206_j86543591015294_1_alg».proof.Proof.PoolCases
import proofs.«430206_j86543591015294_1_alg».proof.Proof.PoolPay
import proofs.«430206_j86543591015294_1_alg».proof.Proof.LibTileSums
import Idealize.ShloMosaic.Lib.Pipeline.Value
import Idealize.ShloMosaic.Lib.ValueIdx
import Idealize.ShloMosaic.PureOps.Ideal.Laws

/-! The pooling region read as values: after the twenty node tiles each of the two count rows holds, at graph g,
    the sum over all 100000 nodes of the node's term weighted by the indicator that the node's graph
    word is g. -/
set_option maxRecDepth 16384

noncomputable section

namespace Cert.Bridge

open Idealize.ShloMosaic Idealize.ShloMosaic.TcCoe Idealize.ShloMosaic.ValueIdx Idealize.SL.Sem
open Idealize.ShloMosaic.Pipeline (Dat)

open Cert.KernelIdeal Cert.KernelIdeal.Gen

/-! ## Where the blocks of the graph words and of the mask sit in their arrays -/

/-- The block indices at the twenty points, decided point by point: the row block of the word column and of the mask
    column is the point's number, their one column block is block zero. -/
theorem pb2_blockIdx : ∀ t : Fin cfg2.N,
    win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem pb2_lt (t : Fin cfg2.N) : t.val < 20 := lt_of_lt_of_eq t.isLt N_2

/-- Row `r` of point `t`'s block of graph words is row `5000 t + r` of the word column. -/
theorem pb2_read_word (V : (c : Dev nD) → (b : Ref sig .tc) → Buf (Elt Ideal) ((c : Thread nD τ).loc b)) (c : Dev nD) (t : Fin cfg2.N) (r : Fin 5000) :
    iblk2 V c 1 t (ix2 r (0 : Fin 1))
      = V c main_v76 (ix2 (⟨t.val * 5000 + r.val, by have := pb2_lt t; have := r.isLt; omega⟩ : Fin 100000) (0 : Fin 1) : S100000x1.Idx) := by
  obtain ⟨e0, e1, e2, e3⟩ := pb2_blockIdx t
  show V c main_v76 (((cfg2.win 1).blk t).view.emb (ix2 r (0 : Fin 1))) = _
  refine congrArg (V c main_v76) (funext fun a => Fin.ext ?_)
  match a with
  | ⟨0, _⟩ => show win2_1.index t (0 : Fin 2) * 5000 + 1 * r.val = t.val * 5000 + r.val; omega
  | ⟨1, _⟩ => show win2_1.index t (1 : Fin 2) * 1 + 1 * 0 = 0; omega

/-- Row `r` of point `t`'s block of the mask is row `5000 t + r` of the mask column. -/
theorem pb2_read_mask (V : (c : Dev nD) → (b : Ref sig .tc) → Buf (Elt Ideal) ((c : Thread nD τ).loc b)) (c : Dev nD) (t : Fin cfg2.N) (r : Fin 5000) :
    iblk2 V c 2 t (ix2 r (0 : Fin 1))
      = V c main_v77 (ix2 (⟨t.val * 5000 + r.val, by have := pb2_lt t; have := r.isLt; omega⟩ : Fin 100000) (0 : Fin 1) : S100000x1.Idx) := by
  obtain ⟨e0, e1, e2, e3⟩ := pb2_blockIdx t
  show V c main_v77 (((cfg2.win 2).blk t).view.emb (ix2 r (0 : Fin 1))) = _
  refine congrArg (V c main_v77) (funext fun a => Fin.ext ?_)
  match a with
  | ⟨0, _⟩ => show win2_2.index t (0 : Fin 2) * 5000 + 1 * r.val = t.val * 5000 + r.val; omega
  | ⟨1, _⟩ => show win2_2.index t (1 : Fin 2) * 1 + 1 * 0 = 0; omega

/-! ## One point's step: the first point starts each count row from zero, every later point adds its tile's sum -/

theorem pb2_step5_first (V : (c : Dev nD) → (b : Ref sig .tc) → Buf (Elt Ideal) ((c : Thread nD τ).loc b)) (c : Dev nD) (t : Fin cfg2.N) (h0 : t.val % 20 = 0) (g : Fin 64) :
    (outsAt2 V c t.val t.isLt).2.2.1 (ix2 (0 : Fin 1) g)
      = 0 + ∑ r : Fin 5000, oh (iblk2 V c 1 t (ix2 r (0 : Fin 1))) g := by
  rw [outsAt2_A V c t h0]
  dsimp only
  refine (congrFun (out_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t)) (ix2 (0 : Fin 1) g)).trans ?_
  refine (pay11_apply (iblk2 V c 1 t) (k2_pay4 (F := Ideal)) g).trans ?_
  rw [pay4_apply g]

theorem pb2_step5_later (V : (c : Dev nD) → (b : Ref sig .tc) → Buf (Elt Ideal) ((c : Thread nD τ).loc b)) (c : Dev nD) (t : Fin cfg2.N) (h0 : ¬t.val % 20 = 0) (g : Fin 64) :
    (outsAt2 V c t.val t.isLt).2.2.1 (ix2 (0 : Fin 1) g)
      = (outsAt2 V c (t.val - 1) (Nat.lt_of_le_of_lt (Nat.sub_le _ _) t.isLt)).2.2.1 (ix2 (0 : Fin 1) g)
        + ∑ r : Fin 5000, oh (iblk2 V c 1 t (ix2 r (0 : Fin 1))) g := by
  rw [outsAt2_B V c t h0]
  dsimp only
  refine (congrFun (out_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (outsAt2 V c (t.val - 1) (Nat.lt_of_le_of_lt (Nat.sub_le _ _) t.isLt)).1 (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) (ix2 (0 : Fin 1) g)).trans ?_
  exact pay11_apply (iblk2 V c 1 t) _ g

theorem pb2_step6_first (V : (c : Dev nD) → (b : Ref sig .tc) → Buf (Elt Ideal) ((c : Thread nD τ).loc b)) (c : Dev nD) (t : Fin cfg2.N) (h0 : t.val % 20 = 0) (g : Fin 64) :
    (outsAt2 V c t.val t.isLt).2.2.2 (ix2 (0 : Fin 1) g)
      = 0 + ∑ r : Fin 5000, oh (iblk2 V c 1 t (ix2 r (0 : Fin 1))) g * iblk2 V c 2 t (ix2 r (0 : Fin 1)) := by
  rw [outsAt2_A V c t h0]
  dsimp only
  refine (congrFun (out_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t)) (ix2 (0 : Fin 1) g)).trans ?_
  refine (pay1_apply (iblk2 V c 1 t) (iblk2 V c 2 t) (k2_pay5 (F := Ideal)) g).trans ?_
  rw [pay5_apply g]

theorem pb2_step6_later (V : (c : Dev nD) → (b : Ref sig .tc) → Buf (Elt Ideal) ((c : Thread nD τ).loc b)) (c : Dev nD) (t : Fin cfg2.N) (h0 : ¬t.val % 20 = 0) (g : Fin 64) :
    (outsAt2 V c t.val t.isLt).2.2.2 (ix2 (0 : Fin 1) g)
      = (outsAt2 V c (t.val - 1) (Nat.lt_of_le_of_lt (Nat.sub_le _ _) t.isLt)).2.2.2 (ix2 (0 : Fin 1) g)
        + ∑ r : Fin 5000, oh (iblk2 V c 1 t (ix2 r (0 : Fin 1))) g * iblk2 V c 2 t (ix2 r (0 : Fin 1)) := by
  rw [outsAt2_B V c t h0]
  dsimp only
  refine (congrFun (out_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (outsAt2 V c (t.val - 1) (Nat.lt_of_le_of_lt (Nat.sub_le _ _) t.isLt)).1 (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) (ix2 (0 : Fin 1) g)).trans ?_
  exact pay1_apply (iblk2 V c 1 t) (iblk2 V c 2 t) _ g

/-! ## The twenty points folded: each count row is the sum of the twenty tiles' sums -/

/-- The node-count row at graph `g` after point `j` (zero past the last point). -/
def pb2_acc5 (V : (c : Dev nD) → (b : Ref sig .tc) → Buf (Elt Ideal) ((c : Thread nD τ).loc b)) (c : Dev nD) (g : Fin 64) (j : ℕ) : EReal :=
  if h : j < cfg2.N then (outsAt2 V c j h).2.2.1 (ix2 (0 : Fin 1) g) else 0

/-- Tile `j`'s number of nodes of graph `g` (zero past the last point). -/
def pb2_tile5 (V : (c : Dev nD) → (b : Ref sig .tc) → Buf (Elt Ideal) ((c : Thread nD τ).loc b)) (c : Dev nD) (g : Fin 64) (j : ℕ) : EReal :=
  if h : j < cfg2.N then ∑ r : Fin 5000, oh (iblk2 V c 1 ⟨j, h⟩ (ix2 r (0 : Fin 1))) g else 0

/-- The entity-count row at graph `g` after point `j` (zero past the last point). -/
def pb2_acc6 (V : (c : Dev nD) → (b : Ref sig .tc) → Buf (Elt Ideal) ((c : Thread nD τ).loc b)) (c : Dev nD) (g : Fin 64) (j : ℕ) : EReal :=
  if h : j < cfg2.N then (outsAt2 V c j h).2.2.2 (ix2 (0 : Fin 1) g) else 0

/-- Tile `j`'s masked number of nodes of graph `g` (zero past the last point). -/
def pb2_tile6 (V : (c : Dev nD) → (b : Ref sig .tc) → Buf (Elt Ideal) ((c : Thread nD τ).loc b)) (c : Dev nD) (g : Fin 64) (j : ℕ) : EReal :=
  if h : j < cfg2.N then ∑ r : Fin 5000, oh (iblk2 V c 1 ⟨j, h⟩ (ix2 r (0 : Fin 1))) g * iblk2 V c 2 ⟨j, h⟩ (ix2 r (0 : Fin 1)) else 0

theorem pb2_fold5 (V : (c : Dev nD) → (b : Ref sig .tc) → Buf (Elt Ideal) ((c : Thread nD τ).loc b)) (c : Dev nD) (g : Fin 64) :
    pb2_acc5 V c g 19 = ∑ k : Fin (19 + 1), pb2_tile5 V c g k.val := by
  have hN : cfg2.N = 20 := N_2
  refine Cert.LibTileSums.fold_last (pb2_tile5 V c g) (pb2_acc5 V c g) 19 ?_ ?_
  · have h : 0 < cfg2.N := by omega
    unfold pb2_acc5 pb2_tile5
    rw [dif_pos h, dif_pos h]
    exact pb2_step5_first V c ⟨0, h⟩ rfl g
  · intro j hj
    have h1 : j + 1 < cfg2.N := by omega
    have h0 : j < cfg2.N := by omega
    unfold pb2_acc5 pb2_tile5
    rw [dif_pos h1, dif_pos h0, dif_pos h1]
    exact pb2_step5_later V c ⟨j + 1, h1⟩ (by show ¬(j + 1) % 20 = 0; omega) g

theorem pb2_fold6 (V : (c : Dev nD) → (b : Ref sig .tc) → Buf (Elt Ideal) ((c : Thread nD τ).loc b)) (c : Dev nD) (g : Fin 64) :
    pb2_acc6 V c g 19 = ∑ k : Fin (19 + 1), pb2_tile6 V c g k.val := by
  have hN : cfg2.N = 20 := N_2
  refine Cert.LibTileSums.fold_last (pb2_tile6 V c g) (pb2_acc6 V c g) 19 ?_ ?_
  · have h : 0 < cfg2.N := by omega
    unfold pb2_acc6 pb2_tile6
    rw [dif_pos h, dif_pos h]
    exact pb2_step6_first V c ⟨0, h⟩ rfl g
  · intro j hj
    have h1 : j + 1 < cfg2.N := by omega
    have h0 : j < cfg2.N := by omega
    unfold pb2_acc6 pb2_tile6
    rw [dif_pos h1, dif_pos h0, dif_pos h1]
    exact pb2_step6_later V c ⟨j + 1, h1⟩ (by show ¬(j + 1) % 20 = 0; omega) g

/-- Inside the grid the count rows after point `j` are what the twenty-point recursion holds there. -/
theorem pb2_acc5_of_lt (V : (c : Dev nD) → (b : Ref sig .tc) → Buf (Elt Ideal) ((c : Thread nD τ).loc b)) (c : Dev nD) (g : Fin 64) (j : ℕ) (h : j < cfg2.N) :
    pb2_acc5 V c g j = (outsAt2 V c j h).2.2.1 (ix2 (0 : Fin 1) g) := by
  unfold pb2_acc5; rw [dif_pos h]

theorem pb2_acc6_of_lt (V : (c : Dev nD) → (b : Ref sig .tc) → Buf (Elt Ideal) ((c : Thread nD τ).loc b)) (c : Dev nD) (g : Fin 64) (j : ℕ) (h : j < cfg2.N) :
    pb2_acc6 V c g j = (outsAt2 V c j h).2.2.2 (ix2 (0 : Fin 1) g) := by
  unfold pb2_acc6; rw [dif_pos h]

/-- Tile `i`'s sums are the sums over rows `5000 i + r` of the word column (and of the mask column). -/
theorem pb2_tile5_eq (V : (c : Dev nD) → (b : Ref sig .tc) → Buf (Elt Ideal) ((c : Thread nD τ).loc b)) (c : Dev nD) (g : Fin 64) (i : Fin 20) :
    pb2_tile5 V c g i.val = ∑ r : Fin 5000, (fun n : Fin 100000 => oh (V c main_v76 (ix2 n (0 : Fin 1))) g)
      ⟨i.val * 5000 + r.val, Cert.LibTileSums.tile_lt (A := 20) (B := 5000) (n := 100000) rfl i r⟩ := by
  have hi : i.val < cfg2.N := lt_of_lt_of_eq i.isLt N_2.symm
  unfold pb2_tile5
  rw [dif_pos hi]
  exact Finset.sum_congr rfl fun r _ => congrArg (fun w => oh w g) (pb2_read_word V c ⟨i.val, hi⟩ r)

theorem pb2_tile6_eq (V : (c : Dev nD) → (b : Ref sig .tc) → Buf (Elt Ideal) ((c : Thread nD τ).loc b)) (c : Dev nD) (g : Fin 64) (i : Fin 20) :
    pb2_tile6 V c g i.val = ∑ r : Fin 5000, (fun n : Fin 100000 => oh (V c main_v76 (ix2 n (0 : Fin 1))) g * V c main_v77 (ix2 n (0 : Fin 1)))
      ⟨i.val * 5000 + r.val, Cert.LibTileSums.tile_lt (A := 20) (B := 5000) (n := 100000) rfl i r⟩ := by
  have hi : i.val < cfg2.N := lt_of_lt_of_eq i.isLt N_2.symm
  unfold pb2_tile6
  rw [dif_pos hi]
  exact Finset.sum_congr rfl fun r _ => by rw [pb2_read_word V c ⟨i.val, hi⟩ r, pb2_read_mask V c ⟨i.val, hi⟩ r]

/-! ## The two count rows -/
/-- The node-count row: at graph `g`, the number of nodes whose word is `g`. -/
theorem pool_nodecnt_apply (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (g : Fin 64) :
    (Cert.KernelIdeal.Gen.dat2 V c).arrAt 5 Cert.KernelIdeal.cfg2.N (ix2 (0 : Fin 1) g)
      = ∑ n : Fin 100000, oh (V c Cert.KernelIdeal.main_v76 (ix2 n (0 : Fin 1))) g := by
  refine (congrFun (final2_5 V c) (ix2 (0 : Fin 1) g)).trans ?_
  rw [← pb2_acc5_of_lt V c g 19, pb2_fold5 V c g]
  exact Cert.LibTileSums.sum_tiles_of (A := 20) (B := 5000) (n := 100000) rfl
    (fun n => oh (V c main_v76 (ix2 n (0 : Fin 1))) g) (fun i => pb2_tile5 V c g i.val) (pb2_tile5_eq V c g)

/-- The entity-count row: at graph `g`, the mask summed over the nodes whose word is `g`. -/
theorem pool_entcnt_apply (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (g : Fin 64) :
    (Cert.KernelIdeal.Gen.dat2 V c).arrAt 6 Cert.KernelIdeal.cfg2.N (ix2 (0 : Fin 1) g)
      = ∑ n : Fin 100000, oh (V c Cert.KernelIdeal.main_v76 (ix2 n (0 : Fin 1))) g * V c Cert.KernelIdeal.main_v77 (ix2 n (0 : Fin 1)) := by
  refine (congrFun (final2_6 V c) (ix2 (0 : Fin 1) g)).trans ?_
  rw [← pb2_acc6_of_lt V c g 19, pb2_fold6 V c g]
  exact Cert.LibTileSums.sum_tiles_of (A := 20) (B := 5000) (n := 100000) rfl
    (fun n => oh (V c main_v76 (ix2 n (0 : Fin 1))) g * V c main_v77 (ix2 n (0 : Fin 1))) (fun i => pb2_tile6 V c g i.val) (pb2_tile6_eq V c g)

end Cert.Bridge

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibScatterHost.lean ====
/-
  The accumulating row scatter, read at one element, in the host operation's own spelling.

  An accumulating scatter of [e × f] update rows into an [n × f] array by an [e × 1] column of row words leaves at
  (r, c) the array's element plus column c of every update row whose word, read signed, is r. This is the statement
  of the index-map lemma with the operation written as the host program writes it.
-/
import proofs.«430206_j86543591015294_1_alg».proof.Proof.LibIndexMaps
import Idealize.ShloMosaic.PureOps.Contract

noncomputable section

namespace Cert.LibScatterHost

open Idealize.ShloMosaic Idealize.ShloMosaic.ValueIdx

theorem scatterAdd2_apply {φ : FTy} {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : FVec Ideal ⟨2, ![n, f]⟩ φ) (idx : IVec ⟨2, ![e, 1]⟩ w) (upd : FVec Ideal ⟨2, ![e, f]⟩ φ)
    (r : Fin n) (c : Fin f) :
    Host.scatterAdd (F := Ideal) d x idx upd (ix2 r c)
      = x (ix2 r c) + ∑ p : Fin e, if (idx (ix2 p (0 : Fin 1))).toInt = ((r.val : ℕ) : Int) then upd (ix2 p c) else 0 :=
  Cert.Gcn.IndexMaps.hostScatterAdd2_apply d huw hiw hsd hivd x idx upd r c

end Cert.LibScatterHost

end
-- ==== Proof.PoolMath.lean ====
import proofs.«430206_j86543591015294_1_alg».proof.Proof.RefRead
import proofs.«430206_j86543591015294_1_alg».proof.Proof.PoolDefs
import proofs.«430206_j86543591015294_1_alg».proof.Proof.LibScatterHost
import proofs.«430206_j86543591015294_1_alg».proof.Proof.LibTileSums
import Idealize.ShloMosaic.Lib.ValueIdx

/-! The reference's four segment sums read at one element: an accumulating scatter by the graph words into 64 rows
    leaves at graph g the sum over all nodes of the node's update weighted by the indicator that its word is g
    (a word outside 0..63, read signed, lands nowhere and its indicator is 0 for every g). -/

noncomputable section

namespace Cert.Bridge

open Idealize.ShloMosaic Idealize.ShloMosaic.ValueIdx

/-! ### The signed word against a graph number -/

/-- A 32-bit word read signed is a number below 64 exactly when it is that number's word: a word whose top bit is set
    reads negative, and below 2^31 the signed and the unsigned readings agree. -/
private theorem toInt_eq_iff (w : BitVec 32) (g : Fin 64) :
    w.toInt = ((g.val : ℕ) : Int) ↔ w = BitVec.ofNat 32 g.val := by
  have hg : g.val < 64 := g.isLt
  rw [Cert.LibTileSums.eq_ofNat_iff w (k := g.val) (by omega)]
  have hw : w.toNat < 2 ^ 32 := w.isLt
  rw [BitVec.toInt_eq_toNat_cond]
  constructor
  · intro h
    split at h <;> omega
  · intro h
    rw [if_pos (by omega)]
    omega

/-- A term kept when the signed word is g and dropped otherwise is the term times the indicator. -/
private theorem ite_toInt_eq (w : BitVec 32) (g : Fin 64) (x : EReal) :
    (if w.toInt = ((g.val : ℕ) : Int) then x else 0) = oh w g * x := by
  unfold oh
  by_cases h : w = BitVec.ofNat 32 g.val
  · rw [if_pos ((toInt_eq_iff w g).2 h), if_pos h, one_mul]
  · rw [if_neg (fun h' => h ((toInt_eq_iff w g).1 h')), if_neg h, zero_mul]

/-! ### Columns read at a row -/

/-- A vector laid out as a one-column matrix, read at row p, is the vector at p. -/
private theorem col_apply {α : Type} (x : Cert.ReferenceIdeal.S100000.Idx → α) (p : Fin 100000) :
    broadcastInDim Cert.ReferenceIdeal.S100000x1 ![0] Cert.ReferenceIdeal.Facts₀.bcast_S100000_S100000x1_0 x (ix2 p (0 : Fin 1)) = x (ix1 p) :=
  broadcastInDim_apply _ Cert.ReferenceIdeal.Facts₀.bcast_S100000_S100000x1_0 x (ix2 p (0 : Fin 1)) (ix1 p) (fun a => match a with
    | ⟨0, _⟩ => by show p.val = if (100000 : Nat) = 1 then 0 else p.val; rw [if_neg (by decide)])

/-- A one-column matrix repeated along 64 columns, read at (p, d), is the column at row p. -/
private theorem rep_apply {α : Type} (y : Cert.ReferenceIdeal.S100000x1.Idx → α) (p : Fin 100000) (d : Fin 64) :
    broadcastInDim Cert.ReferenceIdeal.S100000x64 ![0, 1] Cert.ReferenceIdeal.Facts₀.bcast_S100000x1_S100000x64_0_1 y (ix2 p d) = y (ix2 p (0 : Fin 1)) :=
  broadcastInDim_apply _ Cert.ReferenceIdeal.Facts₀.bcast_S100000x1_S100000x64_0_1 y (ix2 p d) (ix2 p (0 : Fin 1)) (fun a => match a with
    | ⟨0, _⟩ => by show p.val = if (100000 : Nat) = 1 then 0 else p.val; rw [if_neg (by decide)]
    | ⟨1, _⟩ => by show 0 = if (1 : Nat) = 1 then 0 else d.val; rw [if_pos rfl])

/-- Each of the four word columns reads, at row p, node p. -/
private theorem idx_col80 (p : Fin 100000) : Cert.ReferenceIdeal.ReadP.idx_main_v80 (ix2 p (0 : Fin 1)) = ix1 p := by
  funext a; match a with | ⟨0, _⟩ => rfl

private theorem idx_col83 (p : Fin 100000) : Cert.ReferenceIdeal.ReadP.idx_main_v83 (ix2 p (0 : Fin 1)) = ix1 p := by
  funext a; match a with | ⟨0, _⟩ => rfl

private theorem idx_col90 (p : Fin 100000) : Cert.ReferenceIdeal.ReadP.idx_main_v90 (ix2 p (0 : Fin 1)) = ix1 p := by
  funext a; match a with | ⟨0, _⟩ => rfl

private theorem idx_col94 (p : Fin 100000) : Cert.ReferenceIdeal.ReadP.idx_main_v94 (ix2 p (0 : Fin 1)) = ix1 p := by
  funext a; match a with | ⟨0, _⟩ => rfl

/-- The single-precision word 0x3F800000 reads 1. -/
private theorem ofBits_one_f32 : Ideal.ofBits .f32 0x3F800000#32 = 1 := by
  simp [Ideal.ofBits, Ideal.ieee, -EReal.coe_mul]; norm_num

/-! ### The four segment sums -/

theorem ref_allsum_apply (b : (⟨Cert.ReferenceIdeal.S100000, .i32⟩ : BufTy).Contents (Elt Ideal)) (H : (⟨Cert.ReferenceIdeal.S100000x64, .f32⟩ : BufTy).Contents (Elt Ideal)) (g d : Fin 64) :
    Host.scatterAdd (F := Ideal) (φ := .f32) Cert.ReferenceIdeal.scatter_S64x64_S100000x1_S100000x64_1_0_0_1 (Cert.ReferenceIdeal.ReadP.val_main_v89 (F := Ideal)) (Cert.ReferenceIdeal.ReadP.val_main_v90 (F := Ideal) b) H (ix2 g d)
      = ∑ n : Fin 100000, oh (b (ix1 n)) g * H (ix2 n d) := by
  -- the scatter at (g, d): the operand's element plus the rows whose signed word is g
  rw [Cert.LibScatterHost.scatterAdd2_apply (φ := .f32) (n := 64) (f := 64) (e := 100000) (w := 32)
    Cert.ReferenceIdeal.scatter_S64x64_S100000x1_S100000x64_1_0_0_1 rfl rfl rfl rfl
    (Cert.ReferenceIdeal.ReadP.val_main_v89 (F := Ideal)) (Cert.ReferenceIdeal.ReadP.val_main_v90 (F := Ideal) b) H g d]
  -- the operand is the zero matrix
  rw [Cert.ReferenceIdeal.ReadP.val_main_v89_apply, Cert.ReferenceIdeal.ReadP.val_main_cst_17_apply, Ideal.ofBits_def,
    Ideal.ofBits_zero_f32, zero_add]
  refine Finset.sum_congr rfl fun p _ => ?_
  rw [Cert.ReferenceIdeal.ReadP.val_main_v90_apply, idx_col90, ite_toInt_eq]

theorem ref_entsum_apply (b : (⟨Cert.ReferenceIdeal.S100000, .i32⟩ : BufTy).Contents (Elt Ideal)) (msk : (⟨Cert.ReferenceIdeal.S100000, .f32⟩ : BufTy).Contents (Elt Ideal)) (H : (⟨Cert.ReferenceIdeal.S100000x64, .f32⟩ : BufTy).Contents (Elt Ideal)) (g d : Fin 64) :
    Host.scatterAdd (F := Ideal) (φ := .f32) Cert.ReferenceIdeal.scatter_S64x64_S100000x1_S100000x64_1_0_0_1 (Cert.ReferenceIdeal.ReadP.val_main_v79 (F := Ideal)) (Cert.ReferenceIdeal.ReadP.val_main_v80 (F := Ideal) b)
        (mulf H (broadcastInDim Cert.ReferenceIdeal.S100000x64 ![0, 1] Cert.ReferenceIdeal.Facts₀.bcast_S100000x1_S100000x64_0_1 (broadcastInDim Cert.ReferenceIdeal.S100000x1 ![0] Cert.ReferenceIdeal.Facts₀.bcast_S100000_S100000x1_0 msk))) (ix2 g d)
      = ∑ n : Fin 100000, (oh (b (ix1 n)) g * msk (ix1 n)) * H (ix2 n d) := by
  rw [Cert.LibScatterHost.scatterAdd2_apply (φ := .f32) (n := 64) (f := 64) (e := 100000) (w := 32)
    Cert.ReferenceIdeal.scatter_S64x64_S100000x1_S100000x64_1_0_0_1 rfl rfl rfl rfl
    (Cert.ReferenceIdeal.ReadP.val_main_v79 (F := Ideal)) (Cert.ReferenceIdeal.ReadP.val_main_v80 (F := Ideal) b) _ g d]
  rw [Cert.ReferenceIdeal.ReadP.val_main_v79_apply, Cert.ReferenceIdeal.ReadP.val_main_cst_14_apply, Ideal.ofBits_def,
    Ideal.ofBits_zero_f32, zero_add]
  refine Finset.sum_congr rfl fun p _ => ?_
  -- the update row is the node's row times its mask entry; the product is reordered, nothing is distributed
  rw [Cert.ReferenceIdeal.ReadP.val_main_v80_apply, idx_col80, ite_toInt_eq, mulf_apply, rep_apply, col_apply,
    mul_comm (H (ix2 p d)) (msk (ix1 p)), mul_assoc]

theorem ref_nodecnt_apply (b : (⟨Cert.ReferenceIdeal.S100000, .i32⟩ : BufTy).Contents (Elt Ideal)) (g : Fin 64) :
    Cert.ReferenceIdeal.ReadP.val_main_v95 (F := Ideal) b (ix2 g (0 : Fin 1)) = ∑ n : Fin 100000, oh (b (ix1 n)) g := by
  unfold Cert.ReferenceIdeal.ReadP.val_main_v95
  rw [Cert.LibScatterHost.scatterAdd2_apply (φ := .f32) (n := 64) (f := 1) (e := 100000) (w := 32)
    Cert.ReferenceIdeal.scatter_S64x1_S100000x1_S100000x1_1_0_0_1 rfl rfl rfl rfl
    (Cert.ReferenceIdeal.ReadP.val_main_v93 (F := Ideal)) (Cert.ReferenceIdeal.ReadP.val_main_v94 (F := Ideal) b)
    (Cert.ReferenceIdeal.ReadP.val_main_v92 (F := Ideal)) g (0 : Fin 1)]
  rw [Cert.ReferenceIdeal.ReadP.val_main_v93_apply, Cert.ReferenceIdeal.ReadP.val_main_cst_19_apply, Ideal.ofBits_def,
    Ideal.ofBits_zero_f32, zero_add]
  refine Finset.sum_congr rfl fun p _ => ?_
  -- every update is the constant 1
  rw [Cert.ReferenceIdeal.ReadP.val_main_v94_apply, idx_col94, ite_toInt_eq, Cert.ReferenceIdeal.ReadP.val_main_v92_apply,
    Cert.ReferenceIdeal.ReadP.val_main_cst_18_apply, Ideal.ofBits_def, ofBits_one_f32, mul_one]

theorem ref_entcnt_apply (b : (⟨Cert.ReferenceIdeal.S100000, .i32⟩ : BufTy).Contents (Elt Ideal)) (msk : (⟨Cert.ReferenceIdeal.S100000, .f32⟩ : BufTy).Contents (Elt Ideal)) (g : Fin 64) :
    Host.scatterAdd (F := Ideal) (φ := .f32) Cert.ReferenceIdeal.scatter_S64x1_S100000x1_S100000x1_1_0_0_1 (Cert.ReferenceIdeal.ReadP.val_main_v82 (F := Ideal)) (Cert.ReferenceIdeal.ReadP.val_main_v83 (F := Ideal) b) (broadcastInDim Cert.ReferenceIdeal.S100000x1 ![0] Cert.ReferenceIdeal.Facts₀.bcast_S100000_S100000x1_0 msk) (ix2 g (0 : Fin 1))
      = ∑ n : Fin 100000, oh (b (ix1 n)) g * msk (ix1 n) := by
  rw [Cert.LibScatterHost.scatterAdd2_apply (φ := .f32) (n := 64) (f := 1) (e := 100000) (w := 32)
    Cert.ReferenceIdeal.scatter_S64x1_S100000x1_S100000x1_1_0_0_1 rfl rfl rfl rfl
    (Cert.ReferenceIdeal.ReadP.val_main_v82 (F := Ideal)) (Cert.ReferenceIdeal.ReadP.val_main_v83 (F := Ideal) b) _ g (0 : Fin 1)]
  rw [Cert.ReferenceIdeal.ReadP.val_main_v82_apply, Cert.ReferenceIdeal.ReadP.val_main_cst_15_apply, Ideal.ofBits_def,
    Ideal.ofBits_zero_f32, zero_add]
  refine Finset.sum_congr rfl fun p _ => ?_
  rw [Cert.ReferenceIdeal.ReadP.val_main_v83_apply, idx_col83, ite_toInt_eq, col_apply]

end Cert.Bridge

end
-- ==== Proof.Pool.lean ====
import proofs.«430206_j86543591015294_1_alg».proof.Proof.PoolBody
import proofs.«430206_j86543591015294_1_alg».proof.Proof.PoolBody2
import proofs.«430206_j86543591015294_1_alg».proof.Proof.PoolMath

/-! The pooling region against the reference's four segment sums: with the graph words and the mask read as columns,
    the arrays the pipeline leaves are the accumulating scatters of the node rows, of the masked node rows, of ones and
    of the mask, by graph word — both sides being, element by element, the same indicator-weighted sum over nodes. -/

set_option maxRecDepth 16384

noncomputable section

namespace Cert.Bridge

open Idealize.ShloMosaic Idealize.ShloMosaic.TcCoe Idealize.ShloMosaic.ValueIdx Idealize.SL.Sem
open Idealize.ShloMosaic.Pipeline (Dat)

theorem pool_allsum (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (b : (⟨Cert.ReferenceIdeal.S100000, .i32⟩ : BufTy).Contents (Elt Ideal)) (H : (⟨Cert.ReferenceIdeal.S100000x64, .f32⟩ : BufTy).Contents (Elt Ideal))
    (hB : ∀ n : Fin 100000, V c Cert.KernelIdeal.main_v76 (ix2 n (0 : Fin 1)) = b (ix1 n))
    (hH : V c Cert.KernelIdeal.main_v65 = H) :
    (Cert.KernelIdeal.Gen.dat2 V c).arrAt 3 Cert.KernelIdeal.cfg2.N
      = Host.scatterAdd (F := Ideal) (φ := .f32) Cert.ReferenceIdeal.scatter_S64x64_S100000x1_S100000x64_1_0_0_1 (Cert.ReferenceIdeal.ReadP.val_main_v89 (F := Ideal)) (Cert.ReferenceIdeal.ReadP.val_main_v90 (F := Ideal) b) H := by
  funext i
  obtain ⟨g, d, rfl⟩ : ∃ (g d : Fin 64), i = ix2 g d := ⟨i 0, i 1, eq_ix2 i⟩
  have hmid : (∑ n : Fin 100000, oh (V c Cert.KernelIdeal.main_v76 (ix2 n (0 : Fin 1))) g * V c Cert.KernelIdeal.main_v65 (ix2 n d) : EReal)
      = ∑ n : Fin 100000, oh (b (ix1 n)) g * H (ix2 n d) :=
    Finset.sum_congr rfl fun n _ => by rw [hB n, hH]
  exact (pool_allsum_apply V c g d).trans (hmid.trans (ref_allsum_apply b H g d).symm)

theorem pool_entsum (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (b : (⟨Cert.ReferenceIdeal.S100000, .i32⟩ : BufTy).Contents (Elt Ideal)) (msk : (⟨Cert.ReferenceIdeal.S100000, .f32⟩ : BufTy).Contents (Elt Ideal)) (H : (⟨Cert.ReferenceIdeal.S100000x64, .f32⟩ : BufTy).Contents (Elt Ideal))
    (hB : ∀ n : Fin 100000, V c Cert.KernelIdeal.main_v76 (ix2 n (0 : Fin 1)) = b (ix1 n))
    (hM : ∀ n : Fin 100000, V c Cert.KernelIdeal.main_v77 (ix2 n (0 : Fin 1)) = msk (ix1 n))
    (hH : V c Cert.KernelIdeal.main_v65 = H) :
    (Cert.KernelIdeal.Gen.dat2 V c).arrAt 4 Cert.KernelIdeal.cfg2.N
      = Host.scatterAdd (F := Ideal) (φ := .f32) Cert.ReferenceIdeal.scatter_S64x64_S100000x1_S100000x64_1_0_0_1 (Cert.ReferenceIdeal.ReadP.val_main_v79 (F := Ideal)) (Cert.ReferenceIdeal.ReadP.val_main_v80 (F := Ideal) b)
          (mulf H (broadcastInDim Cert.ReferenceIdeal.S100000x64 ![0, 1] Cert.ReferenceIdeal.Facts₀.bcast_S100000x1_S100000x64_0_1 (broadcastInDim Cert.ReferenceIdeal.S100000x1 ![0] Cert.ReferenceIdeal.Facts₀.bcast_S100000_S100000x1_0 msk))) := by
  funext i
  obtain ⟨g, d, rfl⟩ : ∃ (g d : Fin 64), i = ix2 g d := ⟨i 0, i 1, eq_ix2 i⟩
  have hmid : (∑ n : Fin 100000, (oh (V c Cert.KernelIdeal.main_v76 (ix2 n (0 : Fin 1))) g * V c Cert.KernelIdeal.main_v77 (ix2 n (0 : Fin 1))) * V c Cert.KernelIdeal.main_v65 (ix2 n d) : EReal)
      = ∑ n : Fin 100000, (oh (b (ix1 n)) g * msk (ix1 n)) * H (ix2 n d) :=
    Finset.sum_congr rfl fun n _ => by rw [hB n, hM n, hH]
  exact (pool_entsum_apply V c g d).trans (hmid.trans (ref_entsum_apply b msk H g d).symm)

theorem pool_nodecnt (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (b : (⟨Cert.ReferenceIdeal.S100000, .i32⟩ : BufTy).Contents (Elt Ideal))
    (hB : ∀ n : Fin 100000, V c Cert.KernelIdeal.main_v76 (ix2 n (0 : Fin 1)) = b (ix1 n)) (g : Fin 64) :
    (Cert.KernelIdeal.Gen.dat2 V c).arrAt 5 Cert.KernelIdeal.cfg2.N (ix2 (0 : Fin 1) g) = Cert.ReferenceIdeal.ReadP.val_main_v95 (F := Ideal) b (ix2 g (0 : Fin 1)) := by
  have hmid : (∑ n : Fin 100000, oh (V c Cert.KernelIdeal.main_v76 (ix2 n (0 : Fin 1))) g : EReal) = ∑ n : Fin 100000, oh (b (ix1 n)) g :=
    Finset.sum_congr rfl fun n _ => by rw [hB n]
  exact (pool_nodecnt_apply V c g).trans (hmid.trans (ref_nodecnt_apply b g).symm)

theorem pool_entcnt (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (b : (⟨Cert.ReferenceIdeal.S100000, .i32⟩ : BufTy).Contents (Elt Ideal)) (msk : (⟨Cert.ReferenceIdeal.S100000, .f32⟩ : BufTy).Contents (Elt Ideal))
    (hB : ∀ n : Fin 100000, V c Cert.KernelIdeal.main_v76 (ix2 n (0 : Fin 1)) = b (ix1 n))
    (hM : ∀ n : Fin 100000, V c Cert.KernelIdeal.main_v77 (ix2 n (0 : Fin 1)) = msk (ix1 n)) (g : Fin 64) :
    (Cert.KernelIdeal.Gen.dat2 V c).arrAt 6 Cert.KernelIdeal.cfg2.N (ix2 (0 : Fin 1) g)
      = Host.scatterAdd (F := Ideal) (φ := .f32) Cert.ReferenceIdeal.scatter_S64x1_S100000x1_S100000x1_1_0_0_1 (Cert.ReferenceIdeal.ReadP.val_main_v82 (F := Ideal)) (Cert.ReferenceIdeal.ReadP.val_main_v83 (F := Ideal) b) (broadcastInDim Cert.ReferenceIdeal.S100000x1 ![0] Cert.ReferenceIdeal.Facts₀.bcast_S100000_S100000x1_0 msk) (ix2 g (0 : Fin 1)) := by
  have hmid : (∑ n : Fin 100000, oh (V c Cert.KernelIdeal.main_v76 (ix2 n (0 : Fin 1))) g * V c Cert.KernelIdeal.main_v77 (ix2 n (0 : Fin 1)) : EReal)
      = ∑ n : Fin 100000, oh (b (ix1 n)) g * msk (ix1 n) :=
    Finset.sum_congr rfl fun n _ => by rw [hB n, hM n]
  exact (pool_entcnt_apply V c g).trans (hmid.trans (ref_entcnt_apply b msk g).symm)

end Cert.Bridge

end
-- ==== Proof.Assemble.lean ====
import proofs.«430206_j86543591015294_1_alg».proof.Proof.AssembleCore
import proofs.«430206_j86543591015294_1_alg».proof.Proof.Mat0
import proofs.«430206_j86543591015294_1_alg».proof.Proof.Mat1
import proofs.«430206_j86543591015294_1_alg».proof.Proof.Pool

/-! The kernel program's result is the reference's result stage of the same arguments: the stretch-by-stretch
    comparison, with the two tiled matrix products and the pooling region read as values. -/

noncomputable section

namespace Cert.Bridge

open Cert.KernelIdeal Cert.KernelIdeal.Gen
open Idealize.ShloMosaic Idealize.ShloMosaic.TcCoe Idealize.SL.Sem

theorem kernel_value (m : (ℓ : Loc nD τ sig) → Buf (Elt Ideal) ℓ) (ρ : Dev nD → PrngReg) (c : Dev nD) :
    W15 m ρ c (Proc.devRef .tc main_v94) = Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  kernel_value_of (fun V c => mat0 V c) (fun V c => mat1 V c)
    (fun V c b H hB hH => pool_allsum V c b H hB hH)
    (fun V c b msk H hB hM hH => pool_entsum V c b msk H hB hM hH)
    (fun V c b hB g => pool_nodecnt V c b hB g)
    (fun V c b msk hB hM g => pool_entcnt V c b msk hB hM g) m ρ c

end Cert.Bridge

end
-- ==== Proof.lean ====
/- Two graph-convolution layers followed by masked pooling over 64 graphs, a linear layer and a log-softmax.
   The kernel program computes the two dense products in tiles of 5000 node rows and the pooling as one-hot matrix
   products accumulated over twenty node tiles; the reference computes whole products and segment sums. Over the exact
   extended reals a tile's product is the product's rows, a sum accumulated tile by tile is the whole sum, and a
   one-hot-weighted sum over all nodes is the segment sum (0 · x = 0 and 1 · x = x for every extended real x, and sums
   commute), so the two programs agree on every input; all other operations are the same text on both sides.
   The frames are the generated ones; the reference's frame is its run with the result dropped. -/
import proofs.«430206_j86543591015294_1_alg».proof.Defs
import proofs.«430206_j86543591015294_1_alg».proof.Proof.Gen.Kernel
import proofs.«430206_j86543591015294_1_alg».proof.Proof.Gen.Kernel.Skeleton
import proofs.«430206_j86543591015294_1_alg».proof.Proof.Gen.Kernel.Launch
import proofs.«430206_j86543591015294_1_alg».proof.Proof.Gen.Kernel.Points
import proofs.«430206_j86543591015294_1_alg».proof.Proof.Gen.Kernel.Frame
import proofs.«430206_j86543591015294_1_alg».proof.Proof.Gen.KernelIdeal
import proofs.«430206_j86543591015294_1_alg».proof.Proof.Gen.KernelIdeal.Skeleton
import proofs.«430206_j86543591015294_1_alg».proof.Proof.Gen.KernelIdeal.Launch
import proofs.«430206_j86543591015294_1_alg».proof.Proof.Gen.KernelIdeal.Points
import proofs.«430206_j86543591015294_1_alg».proof.Proof.Gen.KernelIdeal.Frame
import proofs.«430206_j86543591015294_1_alg».proof.Proof.Gen.ReferenceIdeal
import proofs.«430206_j86543591015294_1_alg».proof.Proof.Gen.Pre_finite_inputs
import proofs.«430206_j86543591015294_1_alg».proof.Proof.KRun
import proofs.«430206_j86543591015294_1_alg».proof.Proof.RefRun
import proofs.«430206_j86543591015294_1_alg».proof.Proof.RefRead
import proofs.«430206_j86543591015294_1_alg».proof.Proof.Assemble
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem algebraic : Cert.algebraic_KernelIdeal_ReferenceIdeal := by
  intro m ρ m' ρ' _ hagree
  refine ⟨fun c => Cert.ReferenceIdeal.ReadP.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Bridge.kernel_value m ρ c), (h c).2⟩)
      (Cert.KernelIdeal.GenRun.run_main (F := Ideal) m ρ)
  · refine (θ_run Cert.ReferenceIdeal.defs _ _).mono (fun _ h c => ⟨?_, (h c).2⟩)
      (Cert.ReferenceIdeal.ValueP.run (F := Ideal) m' ρ')
    obtain ⟨g0, g1, g2, g3, g4, g5, g6, g7, g8, g9⟩ := hagree c
    rw [(h c).1, Cert.ReferenceIdeal.ReadP.val_main_v105_eq, g0, g1, g2, g3, g4, g5, g6, g7, g8, g9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
